-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S4x1x2048x2048 : Shape := ⟨4, ![4, 1, 2048, 2048]⟩
abbrev S1024x1024 : Shape := ⟨2, ![1024, 1024]⟩
abbrev S1024 : Shape := ⟨1, ![1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg8 : FVec F S1024x1024 .f32) (main_arg9 : FVec F S1024 .f32) (main_arg10 : FVec F S1024x1024 .f32) (main_arg11 : FVec F S1024 .f32) (main_v33 : IVec S_ 1) : IVec S_ 1 :=
  let main_v34 : FVec F S1024x1024 .f32 := Host.absf main_arg8
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg9
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg10
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg11
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg5 : FVec F S1024 .f32) (main_arg6 : FVec F S1024x1024 .f32) (main_arg7 : FVec F S1024 .f32) (main_arg8 : FVec F S1024x1024 .f32) (main_arg9 : FVec F S1024 .f32) (main_arg10 : FVec F S1024x1024 .f32) (main_arg11 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg5
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg6
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg7
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S4x2048x1024 .f32) (main_arg1 : FVec F S4x2048x1024 .f32) (main_arg2 : FVec F S4x2048x1024 .f32) (main_arg3 : IVec S4x1x2048x2048 32) (main_arg4 : FVec F S1024x1024 .f32) (main_arg5 : FVec F S1024 .f32) (main_arg6 : FVec F S1024x1024 .f32) (main_arg7 : FVec F S1024 .f32) (main_arg8 : FVec F S1024x1024 .f32) (main_arg9 : FVec F S1024 .f32) (main_arg10 : FVec F S1024x1024 .f32) (main_arg11 : FVec F S1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S4x2048x1024 .f32 := Host.absf main_arg2
  let main_cst_2 : FVec F S_ .f32 := constant S_ .f32 0x7F800000#32
  let main_v10 : FVec F S4x2048x1024 .f32 := broadcastInDim S4x2048x1024 ![] bcast_S_S4x2048x1024 main_cst_2
  let main_v11 : IVec S4x2048x1024 1 := cmpf .olt main_v9 main_v10
  let main_c_3 : IVec S_ 1 := constantI S_ 1 1#1
  let main_v12 : IVec S_ 1 := (fun x v => Host.reduce IntOp.andi x v reducesTo_S4x2048x1024_S_d0_1_2 h_S_) main_v11 main_c_3
  let main_v13 : IVec S_ 1 := andi main_v8 main_v12
  let main_v14 : FVec F S1024x1024 .f32 := Host.absf main_arg4
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg5 main_arg6 main_arg7 main_arg8 main_arg9 main_arg10 main_arg11 main_v13 main_v16
-- ==== Kernel.lean ====
abbrev S4x2048x1024 : Shape := ⟨3, ![4, 2048, 1024]⟩
abbrev S4x1x2048x2048 : Shape := ⟨4, ![4, 1, 2048, 2048]⟩
abbrev S1024x1024 : Shape := ⟨2, ![1024, 1024]⟩
abbrev S1024 : Shape := ⟨1, ![1024]⟩
abbrev S8192x1024 : Shape := ⟨2, ![8192, 1024]⟩
abbrev S1x1024 : Shape := ⟨2, ![1, 1024]⟩
abbrev S512x128 : Shape := ⟨2, ![512, 128]⟩
abbrev S2048x128 : Shape := ⟨2, ![2048, 128]⟩
abbrev S1x1x512x2048 : Shape := ⟨4, ![1, 1, 512, 2048]⟩
abbrev S512x2048 : Shape := ⟨2, ![512, 2048]⟩
abbrev S512x64 : Shape := ⟨2, ![512, 64]⟩
abbrev S2048x64 : Shape := ⟨2, ![2048, 64]⟩
abbrev S512 : Shape := ⟨1, ![512]⟩
abbrev S512x1 : Shape := ⟨2, ![512, 1]⟩

abbrev nBuf : Space → Nat
  | .hbm => 25
  | .vmem => 34
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S4x1x2048x2048, .i32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S1024x1024, .bf16⟩
  | .hbm, ⟨16, _⟩ => ⟨S1024x1024, .bf16⟩
  | .hbm, ⟨17, _⟩ => ⟨S1024x1024, .bf16⟩
  | .hbm, ⟨18, _⟩ => ⟨S1024x1024, .bf16⟩
  | .hbm, ⟨19, _⟩ => ⟨S8192x1024, .bf16⟩
  | .hbm, ⟨20, _⟩ => ⟨S8192x1024, .bf16⟩
  | .hbm, ⟨21, _⟩ => ⟨S8192x1024, .bf16⟩
  | .hbm, ⟨22, _⟩ => ⟨S8192x1024, .bf16⟩
  | .hbm, ⟨23, _⟩ => ⟨S8192x1024, .f32⟩
  | .hbm, ⟨24, _⟩ => ⟨S4x2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024, .f32⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .bf16⟩
  | .local _ .vmem, ⟨15, _⟩ => ⟨S1024, .f32⟩
  | .local _ .vmem, ⟨16, _⟩ => ⟨S1024x1024, .bf16⟩
  | .local _ .vmem, ⟨17, _⟩ => ⟨S1024x1024, .bf16⟩
  | .local _ .vmem, ⟨18, _⟩ => ⟨S512x128, .bf16⟩
  | .local _ .vmem, ⟨19, _⟩ => ⟨S512x128, .bf16⟩
  | .local _ .vmem, ⟨20, _⟩ => ⟨S2048x128, .bf16⟩
  | .local _ .vmem, ⟨21, _⟩ => ⟨S2048x128, .bf16⟩
  | .local _ .vmem, ⟨22, _⟩ => ⟨S2048x128, .bf16⟩
  | .local _ .vmem, ⟨23, _⟩ => ⟨S2048x128, .bf16⟩
  | .local _ .vmem, ⟨24, _⟩ => ⟨S1x1x512x2048, .i32⟩
  | .local _ .vmem, ⟨25, _⟩ => ⟨S1x1x512x2048, .i32⟩
  | .local _ .vmem, ⟨26, _⟩ => ⟨S512x128, .bf16⟩
  | .local _ .vmem, ⟨27, _⟩ => ⟨S512x128, .bf16⟩
  | .local _ .vmem, ⟨28, _⟩ => ⟨S1024x1024, .bf16⟩
  | .local _ .vmem, ⟨29, _⟩ => ⟨S1024x1024, .bf16⟩
  | .local _ .vmem, ⟨30, _⟩ => ⟨S1024x1024, .bf16⟩
  | .local _ .vmem, ⟨31, _⟩ => ⟨S1024, .f32⟩
  | .local _ .vmem, ⟨32, _⟩ => ⟨S1024x1024, .f32⟩
  | .local _ .vmem, ⟨33, _⟩ => ⟨S1024x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x1024 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x1024 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨3, ![4, 4, 8], ![false, false, false]⟩

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![v1.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_3 (i : grid3.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc3_transform_4 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  ![v1.toNat, arg2.toNat]

abbrev stage3_0 : Fin 2 → Memref sig .tc .vmem S512x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true, true]

abbrev stage3_1 : Fin 2 → Memref sig .tc .vmem S2048x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false, true]

abbrev stage3_2 : Fin 2 → Memref sig .tc .vmem S2048x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, false, true]

abbrev stage3_3 : Fin 2 → Memref sig .tc .vmem S1x1x512x2048 .i32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true, false]

abbrev stage3_4 : Fin 2 → Memref sig .tc .vmem S512x128 .bf16 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true, true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x1024 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1024x1024 .bf16 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1024x1024 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  shapeCasts_S4x2048x1024_S8192x1024 : S4x2048x1024.ShapeCasts S8192x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S1024x1024 : S1x1024.Broadcasts S1024x1024
  packedbf16_S1024x1024_S1024x1024_0_0 : (Rect.unit (s := S1024x1024) ![0, 0] S1024x1024.size inb_S1024x1024_S1024x1024_0_0).PackedRows (EltTy.packing .bf16)
  inb_S1x1x512x2048_S1x1x512x2048_0_0_0_0 : ∀ a, (![0, 0, 0, 0] : Fin 4 → Nat) a + S1x1x512x2048.size a ≤ S1x1x512x2048.size a
  h_S1x1x512x2048 : 0 < S1x1x512x2048.numel
  shapeCasts_S1x1x512x2048_S512x2048 : S1x1x512x2048.ShapeCasts S512x2048
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  slices_S512x128_o0_0_S512x64 : S512x128.Slices ![0, 0] S512x64
  slices_S2048x128_o0_0_S2048x64 : S2048x128.Slices ![0, 0] S2048x64
  reduces_S512x2048_S512 : S512x2048.Reduces [1] S512
  shapeCasts_S512_S512x1 : S512.ShapeCasts S512x1
  broadcasts_S512x1_S512x2048 : S512x1.Broadcasts S512x2048
  inb_S512x128_S512x64_0_0 : ∀ a, (![0, 0] : Fin 2 → Nat) a + S512x64.size a ≤ S512x128.size a
  h_S512x64 : 0 < S512x64.numel
  packedbf16_S512x128_S512x64_0_0 : (Rect.unit (s := S512x128) ![0, 0] S512x64.size inb_S512x128_S512x64_0_0).PackedRows (EltTy.packing .bf16)
  slices_S512x128_o0_64_S512x64 : S512x128.Slices ![0, 64] S512x64
  slices_S2048x128_o0_64_S2048x64 : S2048x128.Slices ![0, 64] S2048x64
  inb_S512x128_S512x64_0_64 : ∀ a, (![0, 64] : Fin 2 → Nat) a + S512x64.size a ≤ S512x128.size a
  packedbf16_S512x128_S512x64_0_64 : (Rect.unit (s := S512x128) ![0, 64] S512x64.size inb_S512x128_S512x64_0_64).PackedRows (EltTy.packing .bf16)
  shapeCasts_S8192x1024_S4x2048x1024 : S8192x1024.ShapeCasts S4x2048x1024
  dot_S1024x1024_S1024x1024_S1024x1024_1_1_0_0_n_n_wf : DotDims.WF S1024x1024 S1024x1024 S1024x1024 [1] [1] [0] [0] [] []
  dot_S512x64_S2048x64_S512x2048_1_1_0_0_n_n_wf : DotDims.WF S512x64 S2048x64 S512x2048 [1] [1] [0] [0] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .f32 = 32 ∨ (Rect.block (s := S8192x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x1024.size a
  hwx0_3 : ∀ i : grid0.Coords, EltTy.bits .bf16 = 32 ∨ (Rect.block (s := S8192x1024) S1024x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x1024.size a
  hwx1_0 : ∀ i : grid1.Coords, EltTy.bits .f32 = 32 ∨ (Rect.block (s := S8192x1024) S1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .bf16 = 32 ∨ (Rect.block (s := S1024x1024) S1024x1024.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024.size a ≤ S1024.size a
  hwx1_2 : ∀ i : grid1.Coords, EltTy.bits .f32 = 32 ∨ (Rect.block (s := S1024) S1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x1024.size a
  hwx1_3 : ∀ i : grid1.Coords, EltTy.bits .bf16 = 32 ∨ (Rect.block (s := S8192x1024) S1024x1024.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S8192x1024.size a
  hwx2_0 : ∀ i : grid2.Coords, EltTy.bits .f32 = 32 ∨ (Rect.block (s := S8192x1024) S1024x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .bf16 = 32 ∨ (Rect.block (s := S1024x1024) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1024.size a ≤ S1024.size a
  hwx2_2 : ∀ i : grid2.Coords, EltTy.bits .f32 = 32 ∨ (Rect.block (s := S1024) S1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S8192x1024.size a
  hwx2_3 : ∀ i : grid2.Coords, EltTy.bits .bf16 = 32 ∨ (Rect.block (s := S8192x1024) S1024x1024.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x128.size a ≤ S8192x1024.size a
  hwx3_0 : ∀ i : grid3.Coords, EltTy.bits .bf16 = 32 ∨ (Rect.block (s := S8192x1024) S512x128.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x128.size a ≤ S8192x1024.size a
  hwx3_1 : ∀ i : grid3.Coords, EltTy.bits .bf16 = 32 ∨ (Rect.block (s := S8192x1024) S2048x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2048x128.size a ≤ S8192x1024.size a
  hwx3_2 : ∀ i : grid3.Coords, EltTy.bits .bf16 = 32 ∨ (Rect.block (s := S8192x1024) S2048x128.size (cc3_transform_2 i) (hinb3_2 i)).WholeWords (EltTy.packing .bf16)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x1x512x2048.size a ≤ S4x1x2048x2048.size a
  hwx3_3 : ∀ i : grid3.Coords, EltTy.bits .i32 = 32 ∨ (Rect.block (s := S4x1x2048x2048) S1x1x512x2048.size (cc3_transform_3 i) (hinb3_3 i)).WholeWords (EltTy.packing .i32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S512x128.size a ≤ S8192x1024.size a
  hwx3_4 : ∀ i : grid3.Coords, EltTy.bits .bf16 = 32 ∨ (Rect.block (s := S8192x1024) S512x128.size (cc3_transform_4 i) (hinb3_4 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x1024.size a ≤ S8192x1024.size a
  hwx4_0 : ∀ i : grid4.Coords, EltTy.bits .bf16 = 32 ∨ (Rect.block (s := S8192x1024) S1024x1024.size (cc4_transform_0 i) (hinb4_0 i)).WholeWords (EltTy.packing .bf16)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1024x1024.size a ≤ S1024x1024.size a
  hwx4_1 : ∀ i : grid4.Coords, EltTy.bits .bf16 = 32 ∨ (Rect.block (s := S1024x1024) S1024x1024.size (cc4_transform_1 i) (hinb4_1 i)).WholeWords (EltTy.packing .bf16)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1024.size a ≤ S1024.size a
  hwx4_2 : ∀ i : grid4.Coords, EltTy.bits .f32 = 32 ∨ (Rect.block (s := S1024) S1024.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1024x1024.size a ≤ S8192x1024.size a
  hwx4_3 : ∀ i : grid4.Coords, EltTy.bits .f32 = 32 ∨ (Rect.block (s := S8192x1024) S1024x1024.size (cc4_transform_3 i) (hinb4_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf
def dot_S512x64_S2048x64_S512x2048_1_1_0_0_n_n : DotDims S512x64 S2048x64 S512x2048 where
  lhsContracting := [1]
  rhsContracting := [1]
  lhsNonContracting := [0]
  rhsNonContracting := [0]
  lhsBatch := []
  rhsBatch := []
  wf := dot_S512x64_S2048x64_S512x2048_1_1_0_0_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg7) S1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v2) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg9) S1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v9) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v7) S512x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v8) S2048x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v9) S2048x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg3) S1x1x512x2048.size cc3_transform_3 reads3_3 false false 2 stage3_3 sem3_3
    hrank3 hreads3_3 hinb3_3 nbuf3_3 (Memref.isWhole_whole _) hwx3_3 hstage3_3

abbrev win3_4 : Pipeline.Window sig grid3 :=
  Pipeline.Window.ofSpec (Memref.whole main_v10) S512x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v10) S1024x1024.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v6) S1024x1024.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_arg11) S1024.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v11) S1024x1024.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S4x2048x1024 : Shape := ⟨3, ![4, 2048, 1024]⟩
abbrev S4x1x2048x2048 : Shape := ⟨4, ![4, 1, 2048, 2048]⟩
abbrev S1024x1024 : Shape := ⟨2, ![1024, 1024]⟩
abbrev S1024 : Shape := ⟨1, ![1024]⟩
abbrev S1x1x1024 : Shape := ⟨3, ![1, 1, 1024]⟩
abbrev S4x2048x16x64 : Shape := ⟨4, ![4, 2048, 16, 64]⟩
abbrev S4x16x2048x64 : Shape := ⟨4, ![4, 16, 2048, 64]⟩
abbrev S4x16x2048x2048 : Shape := ⟨4, ![4, 16, 2048, 2048]⟩
abbrev S_ : Shape := ⟨0, ![]⟩
abbrev S4x16x2048 : Shape := ⟨3, ![4, 16, 2048]⟩
abbrev S4x16x2048x1 : Shape := ⟨4, ![4, 16, 2048, 1]⟩

abbrev nBuf : Space → Nat
  | .hbm => 63
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S4x1x2048x2048, .i32⟩
  | .hbm, ⟨4, _⟩ => ⟨S1024x1024, .f32⟩
  | .hbm, ⟨5, _⟩ => ⟨S1024, .f32⟩
  | .hbm, ⟨6, _⟩ => ⟨S1024x1024, .f32⟩
  | .hbm, ⟨7, _⟩ => ⟨S1024, .f32⟩
  | .hbm, ⟨8, _⟩ => ⟨S1024x1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S4x2048x1024, .f32⟩
  | .hbm, ⟨13, _⟩ => ⟨S1x1x1024, .f32⟩
  | .hbm, ⟨14, _⟩ => ⟨S4x2048x1024, .f32⟩
  | .hbm, ⟨15, _⟩ => ⟨S4x2048x1024, .f32⟩
  | .hbm, ⟨16, _⟩ => ⟨S4x2048x16x64, .f32⟩
  | .hbm, ⟨17, _⟩ => ⟨S4x16x2048x64, .f32⟩
  | .hbm, ⟨18, _⟩ => ⟨S4x2048x1024, .f32⟩
  | .hbm, ⟨19, _⟩ => ⟨S1x1x1024, .f32⟩
  | .hbm, ⟨20, _⟩ => ⟨S4x2048x1024, .f32⟩
  | .hbm, ⟨21, _⟩ => ⟨S4x2048x1024, .f32⟩
  | .hbm, ⟨22, _⟩ => ⟨S4x2048x16x64, .f32⟩
  | .hbm, ⟨23, _⟩ => ⟨S4x16x2048x64, .f32⟩
  | .hbm, ⟨24, _⟩ => ⟨S4x2048x1024, .f32⟩
  | .hbm, ⟨25, _⟩ => ⟨S1x1x1024, .f32⟩
  | .hbm, ⟨26, _⟩ => ⟨S4x2048x1024, .f32⟩
  | .hbm, ⟨27, _⟩ => ⟨S4x2048x1024, .f32⟩
  | .hbm, ⟨28, _⟩ => ⟨S4x2048x16x64, .f32⟩
  | .hbm, ⟨29, _⟩ => ⟨S4x16x2048x64, .f32⟩
  | .hbm, ⟨30, _⟩ => ⟨S4x16x2048x2048, .f32⟩
  | .hbm, ⟨31, _⟩ => ⟨S_, .f32⟩
  | .hbm, ⟨32, _⟩ => ⟨S_, .f32⟩
  | .hbm, ⟨33, _⟩ => ⟨S4x16x2048x2048, .f32⟩
  | .hbm, ⟨34, _⟩ => ⟨S4x16x2048x2048, .f32⟩
  | .hbm, ⟨35, _⟩ => ⟨S_, .i32⟩
  | .hbm, ⟨36, _⟩ => ⟨S4x1x2048x2048, .i32⟩
  | .hbm, ⟨37, _⟩ => ⟨S4x1x2048x2048, .i1⟩
  | .hbm, ⟨38, _⟩ => ⟨S_, .f32⟩
  | .hbm, ⟨39, _⟩ => ⟨S4x16x2048x2048, .i1⟩
  | .hbm, ⟨40, _⟩ => ⟨S4x16x2048x2048, .f32⟩
  | .hbm, ⟨41, _⟩ => ⟨S4x16x2048x2048, .f32⟩
  | .hbm, ⟨42, _⟩ => ⟨S_, .f32⟩
  | .hbm, ⟨43, _⟩ => ⟨S4x16x2048, .f32⟩
  | .hbm, ⟨44, _⟩ => ⟨S_, .f32⟩
  | .hbm, ⟨45, _⟩ => ⟨S4x16x2048, .f32⟩
  | .hbm, ⟨46, _⟩ => ⟨S4x16x2048, .f32⟩
  | .hbm, ⟨47, _⟩ => ⟨S4x16x2048x1, .f32⟩
  | .hbm, ⟨48, _⟩ => ⟨S4x16x2048x2048, .f32⟩
  | .hbm, ⟨49, _⟩ => ⟨S4x16x2048x2048, .f32⟩
  | .hbm, ⟨50, _⟩ => ⟨S4x16x2048x2048, .f32⟩
  | .hbm, ⟨51, _⟩ => ⟨S_, .f32⟩
  | .hbm, ⟨52, _⟩ => ⟨S4x16x2048, .f32⟩
  | .hbm, ⟨53, _⟩ => ⟨S4x16x2048x1, .f32⟩
  | .hbm, ⟨54, _⟩ => ⟨S4x16x2048x2048, .f32⟩
  | .hbm, ⟨55, _⟩ => ⟨S4x16x2048x2048, .f32⟩
  | .hbm, ⟨56, _⟩ => ⟨S4x16x2048x64, .f32⟩
  | .hbm, ⟨57, _⟩ => ⟨S4x2048x16x64, .f32⟩
  | .hbm, ⟨58, _⟩ => ⟨S4x2048x1024, .f32⟩
  | .hbm, ⟨59, _⟩ => ⟨S4x2048x1024, .f32⟩
  | .hbm, ⟨60, _⟩ => ⟨S1x1x1024, .f32⟩
  | .hbm, ⟨61, _⟩ => ⟨S4x2048x1024, .f32⟩
  | .hbm, ⟨62, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_c : Ref sig .tc := ⟨.hbm, 35, rfl⟩
abbrev main_v22 : Ref sig .tc := ⟨.hbm, 36, rfl⟩
abbrev main_v23 : Ref sig .tc := ⟨.hbm, 37, rfl⟩
abbrev main_cst_0 : Ref sig .tc := ⟨.hbm, 38, rfl⟩
abbrev main_call0_v0 : Ref sig .tc := ⟨.hbm, 39, rfl⟩
abbrev main_call0_v1 : Ref sig .tc := ⟨.hbm, 40, rfl⟩
abbrev main_v24 : Ref sig .tc := ⟨.hbm, 41, rfl⟩
abbrev main_cst_1 : Ref sig .tc := ⟨.hbm, 42, rfl⟩
abbrev main_v25 : Ref sig .tc := ⟨.hbm, 43, rfl⟩
abbrev main_cst_2 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_3 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x2048x1024_0_1_2 : S1x1x1024.BroadcastsInDim S4x2048x1024 (![0, 1, 2] : Fin 3 → Fin S4x2048x1024.rank)
  shapeCasts_S4x2048x1024_S4x2048x16x64 : S4x2048x1024.ShapeCasts S4x2048x16x64
  transposes_S4x2048x16x64_S4x16x2048x64_0_2_1_3 : S4x2048x16x64.Transposes [0, 2, 1, 3] S4x16x2048x64
  bcast_S_S4x16x2048x2048 : S_.BroadcastsInDim S4x16x2048x2048 (![] : Fin 0 → Fin S4x16x2048x2048.rank)
  bcast_S_S4x1x2048x2048 : S_.BroadcastsInDim S4x1x2048x2048 (![] : Fin 0 → Fin S4x1x2048x2048.rank)
  bcast_S4x1x2048x2048_S4x16x2048x2048_0_1_2_3 : S4x1x2048x2048.BroadcastsInDim S4x16x2048x2048 (![0, 1, 2, 3] : Fin 4 → Fin S4x16x2048x2048.rank)
  reducesTo_S4x16x2048x2048_S4x16x2048_d3 : S4x16x2048x2048.ReducesTo [3] S4x16x2048
  h_S_ : 0 < S_.numel
  bcast_S_S4x16x2048 : S_.BroadcastsInDim S4x16x2048 (![] : Fin 0 → Fin S4x16x2048.rank)
  bcast_S4x16x2048_S4x16x2048x1_0_1_2 : S4x16x2048.BroadcastsInDim S4x16x2048x1 (![0, 1, 2] : Fin 3 → Fin S4x16x2048x1.rank)
  bcast_S4x16x2048x1_S4x16x2048x2048_0_1_2_3 : S4x16x2048x1.BroadcastsInDim S4x16x2048x2048 (![0, 1, 2, 3] : Fin 4 → Fin S4x16x2048x2048.rank)
  transposes_S4x16x2048x64_S4x2048x16x64_0_2_1_3 : S4x16x2048x64.Transposes [0, 2, 1, 3] S4x2048x16x64
  shapeCasts_S4x2048x16x64_S4x2048x1024 : S4x2048x16x64.ShapeCasts S4x2048x1024
  dot_S4x2048x1024_S1024x1024_S4x2048x1024_2_1_01_0_n_n_wf : DotDims.WF S4x2048x1024 S1024x1024 S4x2048x1024 [2] [1] [0, 1] [0] [] []
  dot_S4x16x2048x64_S4x16x2048x64_S4x16x2048x2048_3_3_2_2_01_01_wf : DotDims.WF S4x16x2048x64 S4x16x2048x64 S4x16x2048x2048 [3] [3] [2] [2] [0, 1] [0, 1]
  dot_S4x16x2048x2048_S4x16x2048x64_S4x16x2048x64_3_2_2_3_01_01_wf : DotDims.WF S4x16x2048x2048 S4x16x2048x64 S4x16x2048x64 [3] [2] [2] [3] [0, 1] [0, 1]

variable [Facts₀]

def dot_S4x2048x1024_S1024x1024_S4x2048x1024_2_1_01_0_n_n : DotDims S4x2048x1024 S1024x1024 S4x2048x1024 where
  lhsContracting := [2]
  rhsContracting := [1]
  lhsNonContracting := [0, 1]
  rhsNonContracting := [0]
  lhsBatch := []
  rhsBatch := []
  wf := dot_S4x2048x1024_S1024x1024_S4x2048x1024_2_1_01_0_n_n_wf
def dot_S4x16x2048x64_S4x16x2048x64_S4x16x2048x2048_3_3_2_2_01_01 : DotDims S4x16x2048x64 S4x16x2048x64 S4x16x2048x2048 where
  lhsContracting := [3]
  rhsContracting := [3]
  lhsNonContracting := [2]
  rhsNonContracting := [2]
  lhsBatch := [0, 1]
  rhsBatch := [0, 1]
  wf := dot_S4x16x2048x64_S4x16x2048x64_S4x16x2048x2048_3_3_2_2_01_01_wf
def dot_S4x16x2048x2048_S4x16x2048x64_S4x16x2048x64_3_2_2_3_01_01 : DotDims S4x16x2048x2048 S4x16x2048x64 S4x16x2048x64 where
  lhsContracting := [3]
  rhsContracting := [2]
  lhsNonContracting := [2]
  rhsNonContracting := [3]
  lhsBatch := [0, 1]
  rhsBatch := [0, 1]
  wf := dot_S4x16x2048x2048_S4x16x2048x64_S4x16x2048x64_3_2_2_3_01_01_wf

class Facts : Prop extends Facts₀ where

variable [Facts]
-- ==== Proof.AttnSpec.lean ====
/-
  What the attention layer computes, as functions of array coordinates over the extended reals.

  A projection is `y[r, e] = (∑ k, x[r, k] · W[e, k]) + b[e]` on the flat 8192 × 1024 layout (row `r` is
  batch `r / 2048`, position `r % 2048`; column `c` is head `c / 64`, feature `c % 64`).  For a query row `r`
  and a column `c` of head `h`, the scores against the 2048 keys of `r`'s batch are the dot products over the 64
  features of head `h`, scaled, with the masked positions replaced by a large negative constant; the attention
  weights are the softmax of that row of scores, and the output entry is the weights' combination of the value
  rows at column `c`.  The scaling and the softmax are written twice, once in each program's spelling
  (`· 1/8` against `/ √64`;  `p · (1 / ∑ p)` against `p / (0 + ∑ p)`, the row maximum against its maximum
  with −∞); the two spellings agree wherever the scores are real numbers.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

abbrev Mat (a b : ℕ) : Type := (⟨2, ![a, b]⟩ : Shape).Idx → EReal
abbrev Row (a : ℕ) : Type := (⟨1, ![a]⟩ : Shape).Idx → EReal
abbrev Cube : Type := (⟨3, ![4, 2048, 1024]⟩ : Shape).Idx → EReal
abbrev MaskT : Type := (⟨4, ![4, 1, 2048, 2048]⟩ : Shape).Idx → BitVec 32

/-- The replacement score of a masked position, −10⁹ as a binary32 word. -/
def negBig : EReal := Ideal.ofBits .f32 0xCE6E6B28#32
/-- The kernel's scale, 1/8 as a binary32 word. -/
def eighth : EReal := Ideal.ofBits .f32 0x3E000000#32
/-- The reference's divisor before the square root, 64 as a binary32 word. -/
def sixtyFour : EReal := Ideal.ofBits .f32 0x42800000#32
def oneF : EReal := Ideal.ofBits .f32 0x3F800000#32
def zeroF : EReal := Ideal.ofBits .f32 0x00000000#32
def negInf : EReal := Ideal.ofBits .f32 0xFF800000#32

/-- Row `j` of the batch that row `r` belongs to. -/
def rowIn (r : Fin 8192) (j : Fin 2048) : Fin 8192 := ⟨r.val / 2048 * 2048 + j.val, by have := r.isLt; have := j.isLt; omega⟩
/-- Feature `d` of the head that column `c` belongs to. -/
def colIn (c : Fin 1024) (d : Fin 64) : Fin 1024 := ⟨c.val / 64 * 64 + d.val, by have := c.isLt; have := d.isLt; omega⟩
def batchOf (r : Fin 8192) : Fin 4 := ⟨r.val / 2048, by have := r.isLt; omega⟩
def posOf (r : Fin 8192) : Fin 2048 := ⟨r.val % 2048, Nat.mod_lt _ (by norm_num)⟩
def flatRow (b : Fin 4) (s : Fin 2048) : Fin 8192 := ⟨b.val * 2048 + s.val, by have := b.isLt; have := s.isLt; omega⟩

/-- A projection's entry: `(x Wᵀ + b)[r, e]`. -/
def linAt (x : Mat 8192 1024) (W : Mat 1024 1024) (b : Row 1024) (r : Fin 8192) (e : Fin 1024) : EReal :=
  (∑ k : Fin 1024, x (ix2 r k) * W (ix2 e k)) + b (ix1 e)
/-- The projection as an array. -/
def lin (x : Mat 8192 1024) (W : Mat 1024 1024) (b : Row 1024) : Mat 8192 1024 := fun i => linAt x W b (i 0) (i 1)

/-- The mask word that decides position `j` for query row `r`. -/
def maskAt (mask : MaskT) (r : Fin 8192) (j : Fin 2048) : BitVec 32 := mask (ix4 (batchOf r) (0 : Fin 1) (posOf r) j)
/-- The unscaled score of query row `r` against key `j` of its batch, over the features of column `c`'s head. -/
def rawScore (qp kp : Mat 8192 1024) (r : Fin 8192) (c : Fin 1024) (j : Fin 2048) : EReal :=
  ∑ d : Fin 64, qp (ix2 r (colIn c d)) * kp (ix2 (rowIn r j) (colIn c d))

/-- Masked scaled scores, the scale as a product with 1/8. -/
def scoreK (qp kp : Mat 8192 1024) (mask : MaskT) (r : Fin 8192) (c : Fin 1024) (j : Fin 2048) : EReal :=
  Scalar.select (IntOp.cmpi .eq (maskAt mask r j) 0#32) negBig (rawScore qp kp r c j * eighth)
/-- Masked scaled scores, the scale as a quotient by √64. -/
def scoreR (qp kp : Mat 8192 1024) (mask : MaskT) (r : Fin 8192) (c : Fin 1024) (j : Fin 2048) : EReal :=
  Scalar.select (IntOp.cmpi .eq (maskAt mask r j) 0#32) negBig (Ideal.div (rawScore qp kp r c j) (Ideal.sqrt sixtyFour))

/-- The row maximum as both programs fold it. -/
def rowMax (s : Fin 2048 → EReal) : EReal := (Finset.univ : Finset (Fin 2048)).fold max negInf s
/-- Softmax weight, normalised by a product with the reciprocal of the sum. -/
def softK (s : Fin 2048 → EReal) (j : Fin 2048) : EReal :=
  Ideal.exp (s j - rowMax s) * Ideal.div oneF (∑ j' : Fin 2048, Ideal.exp (s j' - rowMax s))
/-- Softmax weight, normalised by a quotient; the maximum guarded against −∞ and the sum started at the zero word. -/
def softR (s : Fin 2048 → EReal) (j : Fin 2048) : EReal :=
  Ideal.div (Ideal.exp (s j - max negInf (rowMax s))) (zeroF + ∑ j' : Fin 2048, Ideal.exp (s j' - max negInf (rowMax s)))

/-- The attention output on the flat layout, kernel's spelling. -/
def attK (qp kp vp : Mat 8192 1024) (mask : MaskT) : Mat 8192 1024 := fun i =>
  ∑ j : Fin 2048, softK (scoreK qp kp mask (i 0) (i 1)) j * vp (ix2 (rowIn (i 0) j) (i 1))
/-- The attention output on the flat layout, reference's spelling. -/
def attR (qp kp vp : Mat 8192 1024) (mask : MaskT) : Mat 8192 1024 := fun i =>
  ∑ j : Fin 2048, softR (scoreR qp kp mask (i 0) (i 1)) j * vp (ix2 (rowIn (i 0) j) (i 1))

/-- A batch × position × feature array read on the flat layout. -/
def flat (x : Cube) : Mat 8192 1024 := fun i => x (ix3 (batchOf (i 0)) (posOf (i 0)) (i 1))
/-- A flat array read as batch × position × feature. -/
def unflat (y : Mat 8192 1024) : Cube := fun i => y (ix2 (flatRow (i 0) (i 1)) (i 2))

/-- The whole layer, kernel's spelling. -/
def layerK (q k v : Cube) (mask : MaskT) (Wq : Mat 1024 1024) (bq : Row 1024) (Wk : Mat 1024 1024) (bk : Row 1024)
    (Wv : Mat 1024 1024) (bv : Row 1024) (Wo : Mat 1024 1024) (bo : Row 1024) : Cube :=
  unflat (lin (attK (lin (flat q) Wq bq) (lin (flat k) Wk bk) (lin (flat v) Wv bv) mask) Wo bo)
/-- The whole layer, reference's spelling. -/
def layerR (q k v : Cube) (mask : MaskT) (Wq : Mat 1024 1024) (bq : Row 1024) (Wk : Mat 1024 1024) (bk : Row 1024)
    (Wv : Mat 1024 1024) (bv : Row 1024) (Wo : Mat 1024 1024) (bo : Row 1024) : Cube :=
  unflat (lin (attR (lin (flat q) Wq bq) (lin (flat k) Wk bk) (lin (flat v) Wv bv) mask) Wo bo)

/-- An extended real that is a real number. -/
def IsReal (x : EReal) : Prop := ∃ r : ℝ, x = (r : EReal)

end Cert.Spec

end
-- ==== Proof.Lin0.lean ====
import proofs.«424697_j28982439313762_3_alg».proof.Proof.Gen.KernelIdeal.Frame
import proofs.«424697_j28982439313762_3_alg».proof.Proof.AttnSpec
import Idealize.ShloMosaic.Lib.Pipeline.Value
import Idealize.ShloMosaic.Lib.ValueLayout

set_option maxRecDepth 16384

noncomputable section

namespace Cert.KernelIdeal.Lin0

open Idealize.ShloMosaic Idealize.ShloMosaic.TcCoe Idealize.ShloMosaic.ValueIdx Idealize.SL.Sem
open Idealize.ShloMosaic.Pipeline (Dat Cfg Window)
open Cert.KernelIdeal Cert.KernelIdeal.Gen

/-! ## The product's index maps

The block product contracts the second axis of both operands: entry (p, q) of the result pairs row p of the
left operand with row q of the right one. -/

/-- The left operand is read in the result's row. -/
theorem left_row (j : S1024x1024.Idx) (κ : dot_S1024x1024_S1024x1024_S1024x1024_1_1_0_0_n_n.contr.Idx) :
    (dot_S1024x1024_S1024x1024_S1024x1024_1_1_0_0_n_n.lhsIdx j κ 0).val = (j 0).val := by
  unfold DotDims.lhsIdx
  rw [dif_neg (show ¬(0 : Fin S1024x1024.rank) ∈ dot_S1024x1024_S1024x1024_S1024x1024_1_1_0_0_n_n.lhsBatch by decide),
    dif_pos (show (0 : Fin S1024x1024.rank) ∈ dot_S1024x1024_S1024x1024_S1024x1024_1_1_0_0_n_n.lhsNonContracting by decide)]
  rfl

/-- The left operand's column is the contraction position. -/
theorem left_col (j : S1024x1024.Idx) (κ : dot_S1024x1024_S1024x1024_S1024x1024_1_1_0_0_n_n.contr.Idx) :
    (dot_S1024x1024_S1024x1024_S1024x1024_1_1_0_0_n_n.lhsIdx j κ 1).val = (κ ⟨0, by decide⟩).val :=
  dot_S1024x1024_S1024x1024_S1024x1024_1_1_0_0_n_n.lhsIdx_val_of_single rfl j κ

/-- The right operand is read in the row named by the result's column. -/
theorem right_row (j : S1024x1024.Idx) (κ : dot_S1024x1024_S1024x1024_S1024x1024_1_1_0_0_n_n.contr.Idx) :
    (dot_S1024x1024_S1024x1024_S1024x1024_1_1_0_0_n_n.rhsIdx j κ 0).val = (j 1).val := by
  unfold DotDims.rhsIdx
  rw [dif_neg (show ¬(0 : Fin S1024x1024.rank) ∈ dot_S1024x1024_S1024x1024_S1024x1024_1_1_0_0_n_n.rhsBatch by decide),
    dif_pos (show (0 : Fin S1024x1024.rank) ∈ dot_S1024x1024_S1024x1024_S1024x1024_1_1_0_0_n_n.rhsNonContracting by decide)]
  rfl

/-- The right operand's column is the contraction position. -/
theorem right_col (j : S1024x1024.Idx) (κ : dot_S1024x1024_S1024x1024_S1024x1024_1_1_0_0_n_n.contr.Idx) :
    (dot_S1024x1024_S1024x1024_S1024x1024_1_1_0_0_n_n.rhsIdx j κ 1).val = (κ ⟨0, by decide⟩).val :=
  dot_S1024x1024_S1024x1024_S1024x1024_1_1_0_0_n_n.rhsIdx_val_of_single rfl j κ

/-- The block product into a zero accumulator, entry by entry: row p of the left operand against row q of the right. -/
theorem product_apply (a : FVec Ideal S1024x1024 .bf16) (w : FVec Ideal S1024x1024 .bf16) (p q : Fin 1024) :
    matmul dot_S1024x1024_S1024x1024_S1024x1024_1_1_0_0_n_n none a w (constant (F := Ideal) S1024x1024 .f32 0x00000000#32) (ix2 p q)
      = ∑ k : Fin 1024, a (ix2 p k) * w (ix2 q k) := by
  refine (Ideal.matmul_constant_zero_apply dot_S1024x1024_S1024x1024_S1024x1024_1_1_0_0_n_n none a w (ix2 p q)).trans ?_
  -- the contraction shape has the one axis of extent 1024: sum over its coordinate instead
  rw [← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have hl : dot_S1024x1024_S1024x1024_S1024x1024_1_1_0_0_n_n.lhsIdx (ix2 p q)
      ((contrEquiv1 dot_S1024x1024_S1024x1024_S1024x1024_1_1_0_0_n_n 1024 rfl rfl).symm k) = ix2 p k :=
    funext fun ax => Fin.ext (by
      match ax with
      | ⟨0, _⟩ => exact left_row _ _
      | ⟨1, _⟩ => exact (left_col _ _).trans hk)
  have hr : dot_S1024x1024_S1024x1024_S1024x1024_1_1_0_0_n_n.rhsIdx (ix2 p q)
      ((contrEquiv1 dot_S1024x1024_S1024x1024_S1024x1024_1_1_0_0_n_n 1024 rfl rfl).symm k) = ix2 q k :=
    funext fun ax => Fin.ext (by
      match ax with
      | ⟨0, _⟩ => exact right_row _ _
      | ⟨1, _⟩ => exact (right_col _ _).trans hk)
  rw [hl, hr]

/-- The bias, a vector of length 1024 viewed as one row and repeated down the block, reads its entry of the column. -/
theorem bias_apply (b : FVec Ideal S1024 .f32) (p q : Fin 1024) :
    broadcastTo S1024x1024 (shapeCast S1x1024 b shapeCasts_S1024_S1x1024) broadcasts_S1x1024_S1024x1024 (ix2 p q) = b (ix1 q) := by
  refine (broadcastTo_apply _ broadcasts_S1x1024_S1024x1024 (ix2 p q) (ix2 (0 : Fin 1) q) fun ax => ?_).trans ?_
  · match ax with
    | ⟨0, _⟩ => rfl
    | ⟨1, _⟩ => rfl
  · refine shapeCast_apply b shapeCasts_S1024_S1x1024 _ (ix1 q) ?_
    rw [Shape.rowMajor_val_one, Shape.rowMajor_val_two]
    show q.val = (0 : Fin 1).val * 1024 + q.val
    simp

/-- What one grid point computes, entry by entry: the row of the x-block against the row of the weight, plus the bias. -/
theorem payload_apply (x0 : Vec Ideal S1024x1024 .f32) (x1 : Vec Ideal S1024x1024 .bf16) (x2 : Vec Ideal S1024 .f32) (p q : Fin 1024) :
    k0_pay1 x0 x1 x2 (ix2 p q) = (∑ k : Fin 1024, x0 (ix2 p k) * x1 (ix2 q k)) + x2 (ix1 q) := by
  unfold k0_pay1
  -- the roundings are the identity on the extended reals, and the sum of two blocks is entrywise
  refine (truncf_apply (ψ := .bf16) _ bitsLt_bf16_f32 (ix2 p q)).trans ?_
  refine (addf_apply _ _ (ix2 p q)).trans ?_
  refine congrArg₂ (· + ·) ?_ (bias_apply x2 p q)
  refine (product_apply _ _ p q).trans ?_
  refine Finset.sum_congr rfl fun k _ => ?_
  rw [shapeCast_self, shapeCast_self]
  rfl

/-! ## The blocks

Grid point t takes rows 1024·t … 1024·t + 1023 of x, all of the weight and of the bias, and leaves the same rows
of the output. -/

variable (V : (c : Dev nD) → (b : Ref sig .tc) → Buf (Elt Ideal) ((c : Thread nD τ).loc b))

theorem zeros2 : (![0, 0] : Fin 2 → Nat) = fun _ => 0 :=
  funext fun a => match a with | ⟨0, _⟩ => rfl | ⟨1, _⟩ => rfl
theorem zeros1 : (![0] : Fin 1 → Nat) = fun _ => 0 :=
  funext fun a => match a with | ⟨0, _⟩ => rfl

/-- The block numbers of the four windows at every grid point, by evaluation over the eight points. -/
theorem block_numbers : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- Row p of point t's x-block is row 1024·t + p of x. -/
theorem x_block (c : Dev nD) (t : Fin cfg0.N) (p k : Fin 1024) (r : Fin 8192) (hr : r.val = t.val * 1024 + p.val) :
    iblk0 V c 0 t (ix2 p k) = V c main_v0 (ix2 r k) := by
  obtain ⟨e, e', -⟩ := block_numbers t
  show V c main_v0 (((cfg0.win 0).blk t).view.emb (ix2 p k)) = V c main_v0 (ix2 r k)
  refine congrArg (V c main_v0) (funext fun a => Fin.ext ?_)
  match a with
  | ⟨0, _⟩ => show win0_0.index t (0 : Fin 2) * 1024 + 1 * p.val = r.val; omega
  | ⟨1, _⟩ => show win0_0.index t (1 : Fin 2) * 1024 + 1 * k.val = k.val; omega

/-- Every point's weight block is the whole weight. -/
theorem w_block (c : Dev nD) (t : Fin cfg0.N) (q k : Fin 1024) :
    iblk0 V c 1 t (ix2 q k) = V c main_v3 (ix2 q k) := by
  obtain ⟨-, -, e, e', -⟩ := block_numbers t
  show V c main_v3 (((cfg0.win 1).blk t).view.emb (ix2 q k)) = V c main_v3 (ix2 q k)
  refine congrArg (V c main_v3) (funext fun a => Fin.ext ?_)
  match a with
  | ⟨0, _⟩ => show win0_1.index t (0 : Fin 2) * 1024 + 1 * q.val = q.val; omega
  | ⟨1, _⟩ => show win0_1.index t (1 : Fin 2) * 1024 + 1 * k.val = k.val; omega

/-- Every point's bias block is the whole bias. -/
theorem b_block (c : Dev nD) (t : Fin cfg0.N) (q : Fin 1024) :
    iblk0 V c 2 t (ix1 q) = V c main_arg5 (ix1 q) := by
  obtain ⟨-, -, -, -, e, -⟩ := block_numbers t
  show V c main_arg5 (((cfg0.win 2).blk t).view.emb (ix1 q)) = V c main_arg5 (ix1 q)
  refine congrArg (V c main_arg5) (funext fun a => Fin.ext ?_)
  match a with
  | ⟨0, _⟩ => show win0_2.index t (0 : Fin 1) * 1024 + 1 * q.val = q.val; omega

/-- One entry of the point's result from its three blocks, when the blocks are the rows of whole arrays: the
    projection's entry at the row the block's row stands for. -/
theorem point_value (X : Cert.Spec.Mat 8192 1024) (W : Cert.Spec.Mat 1024 1024) (B : Cert.Spec.Row 1024)
    (x0 : Vec Ideal S1024x1024 .f32) (x1 : Vec Ideal S1024x1024 .bf16) (x2 : Vec Ideal S1024 .f32)
    (p q : Fin 1024) (r : Fin 8192)
    (h0 : ∀ k, x0 (ix2 p k) = X (ix2 r k)) (h1 : ∀ k, x1 (ix2 q k) = W (ix2 q k)) (h2 : x2 (ix1 q) = B (ix1 q)) :
    k0_pay1 x0 x1 x2 (ix2 p q) = Cert.Spec.lin X W B (ix2 r q) := by
  rw [payload_apply, h2]
  show _ = (∑ k : Fin 1024, X (ix2 r k) * W (ix2 q k)) + B (ix1 q)
  exact congrArg (· + B (ix1 q)) (Finset.sum_congr rfl fun k _ => by rw [h0 k, h1 k])

/-- What point t writes back is rows 1024·t … 1024·t + 1023 of the projection of the arrays the region finds. -/
theorem flushed_eq (c : Dev nD) (t : Fin cfg0.N) :
    (dat0 (F := Ideal) V c).flushed 3 t
      = ((cfg0.win 3).blk t).view.read (Elt Ideal) (Cert.Spec.lin (V c main_v0) (V c main_v3) (V c main_arg5)) := by
  show (cfg0.win 3).cut (grid0.coords t) ((dat0 (F := Ideal) V c).after 3 t) = _
  rw [after0_3]
  unfold out0_3
  rw [View.canon_unit_zero zeros2]
  simp only [View.ld_unit_zero (S := S1024x1024) zeros2, View.ld_unit_zero (S := S1024) zeros1]
  funext j
  obtain ⟨-, -, -, -, -, e, e'⟩ := block_numbers t
  have ht : t.val < 8 := t.isLt
  have hp : (j 0).val < 1024 := (j 0).isLt
  have hq : (j 1).val < 1024 := (j 1).isLt
  -- the entry's place in the block, and in the array
  have hin : (win0 3).xinj (grid0.coords t) j = ix2 (⟨(j 0).val, hp⟩ : Fin 1024) (⟨(j 1).val, hq⟩ : Fin 1024) :=
    funext fun a => match a with | ⟨0, _⟩ => rfl | ⟨1, _⟩ => rfl
  have hout : ((cfg0.win 3).blk t).view.emb j
      = ix2 (⟨t.val * 1024 + (j 0).val, by omega⟩ : Fin 8192) (⟨(j 1).val, hq⟩ : Fin 1024) := by
    funext a; apply Fin.ext
    match a with
    | ⟨0, _⟩ => show win0_3.index t (0 : Fin 2) * 1024 + 1 * (j 0).val = t.val * 1024 + (j 0).val; omega
    | ⟨1, _⟩ => show win0_3.index t (1 : Fin 2) * 1024 + 1 * (j 1).val = (j 1).val; omega
  show k0_pay1 (iblk0 V c 0 t) (iblk0 V c 1 t) (iblk0 V c 2 t) ((win0 3).xinj (grid0.coords t) j)
    = Cert.Spec.lin (V c main_v0) (V c main_v3) (V c main_arg5) (((cfg0.win 3).blk t).view.emb j)
  rw [hin, hout]
  exact point_value (V c main_v0) (V c main_v3) (V c main_arg5) (iblk0 V c 0 t) (iblk0 V c 1 t) (iblk0 V c 2 t)
    ⟨(j 0).val, hp⟩ ⟨(j 1).val, hq⟩ ⟨t.val * 1024 + (j 0).val, by omega⟩
    (fun k => x_block V c t ⟨(j 0).val, hp⟩ k ⟨t.val * 1024 + (j 0).val, by omega⟩ rfl)
    (fun k => w_block V c t ⟨(j 1).val, hq⟩ k) (b_block V c t ⟨(j 1).val, hq⟩)

/-- Row r of the output lies in the block of point r / 1024, which is written back. -/
theorem rows_covered (i : S8192x1024.Idx) :
    ∃ t : Fin cfg0.N, (cfg0.win 3).flush t = true ∧ i ∈ ((cfg0.win 3).blk t).view.set := by
  have hi : (i 0).val < 8192 := (i 0).isLt
  have hi' : (i 1).val < 1024 := (i 1).isLt
  have hlt : (i 0).val / 1024 < cfg0.N := show (i 0).val / 1024 < 8 by omega
  obtain ⟨-, -, -, -, -, e, e'⟩ := block_numbers ⟨(i 0).val / 1024, hlt⟩
  have et : (⟨(i 0).val / 1024, hlt⟩ : Fin cfg0.N).val = (i 0).val / 1024 := rfl
  refine ⟨⟨(i 0).val / 1024, hlt⟩, flush0_3 _, ?_⟩
  -- the block is the rectangle of rows 1024·t … 1024·t + 1023 and all columns
  show i ∈ ((View.whole main_v7).slice (win0_3.rect ⟨(i 0).val / 1024, hlt⟩)).set
  rw [View.set_slice_whole, Rect.mem_set_unit]
  intro a
  match a with
  | ⟨0, _⟩ =>
    show win0_3.index ⟨(i 0).val / 1024, hlt⟩ (0 : Fin 2) * 1024 ≤ (i 0).val
      ∧ (i 0).val < win0_3.index ⟨(i 0).val / 1024, hlt⟩ (0 : Fin 2) * 1024 + 1024
    omega
  | ⟨1, _⟩ =>
    show win0_3.index ⟨(i 0).val / 1024, hlt⟩ (1 : Fin 2) * 1024 ≤ (i 1).val
      ∧ (i 1).val < win0_3.index ⟨(i 0).val / 1024, hlt⟩ (1 : Fin 2) * 1024 + 1024
    omega

/-- Region 0's output array after the region: the projection of its three input arrays as the region finds them. -/
theorem final (c : Dev nD) :
    (dat0 (F := Ideal) V c).arrAt 3 cfg0.N = Cert.Spec.lin (V c main_v0) (V c main_v3) (V c main_arg5) :=
  (dat0 (F := Ideal) V c).arrAt_eq_of_cover 3 (Cert.Spec.lin (V c main_v0) (V c main_v3) (V c main_arg5))
    (fun t _ => flushed_eq V c t) rows_covered

end Cert.KernelIdeal.Lin0

end
-- ==== Proof.Lin1.lean ====
import proofs.«424697_j28982439313762_3_alg».proof.Proof.Gen.KernelIdeal.Frame
import proofs.«424697_j28982439313762_3_alg».proof.Proof.AttnSpec
import Idealize.ShloMosaic.Lib.Pipeline.Value
import Idealize.ShloMosaic.Lib.ValueLayout

set_option maxRecDepth 16384

noncomputable section

namespace Cert.KernelIdeal.Lin1

open Idealize.ShloMosaic Idealize.ShloMosaic.TcCoe Idealize.ShloMosaic.ValueIdx Idealize.SL.Sem
open Idealize.ShloMosaic.Pipeline (Dat Cfg Window)
open Cert.KernelIdeal Cert.KernelIdeal.Gen

/-! ## The product's index maps

The block product contracts the second axis of both operands: entry (p, q) of the result pairs row p of the
left operand with row q of the right one. -/

/-- The left operand is read in the result's row. -/
theorem left_row (j : S1024x1024.Idx) (κ : dot_S1024x1024_S1024x1024_S1024x1024_1_1_0_0_n_n.contr.Idx) :
    (dot_S1024x1024_S1024x1024_S1024x1024_1_1_0_0_n_n.lhsIdx j κ 0).val = (j 0).val := by
  unfold DotDims.lhsIdx
  rw [dif_neg (show ¬(0 : Fin S1024x1024.rank) ∈ dot_S1024x1024_S1024x1024_S1024x1024_1_1_0_0_n_n.lhsBatch by decide),
    dif_pos (show (0 : Fin S1024x1024.rank) ∈ dot_S1024x1024_S1024x1024_S1024x1024_1_1_0_0_n_n.lhsNonContracting by decide)]
  rfl

/-- The left operand's column is the contraction position. -/
theorem left_col (j : S1024x1024.Idx) (κ : dot_S1024x1024_S1024x1024_S1024x1024_1_1_0_0_n_n.contr.Idx) :
    (dot_S1024x1024_S1024x1024_S1024x1024_1_1_0_0_n_n.lhsIdx j κ 1).val = (κ ⟨0, by decide⟩).val :=
  dot_S1024x1024_S1024x1024_S1024x1024_1_1_0_0_n_n.lhsIdx_val_of_single rfl j κ

/-- The right operand is read in the row named by the result's column. -/
theorem right_row (j : S1024x1024.Idx) (κ : dot_S1024x1024_S1024x1024_S1024x1024_1_1_0_0_n_n.contr.Idx) :
    (dot_S1024x1024_S1024x1024_S1024x1024_1_1_0_0_n_n.rhsIdx j κ 0).val = (j 1).val := by
  unfold DotDims.rhsIdx
  rw [dif_neg (show ¬(0 : Fin S1024x1024.rank) ∈ dot_S1024x1024_S1024x1024_S1024x1024_1_1_0_0_n_n.rhsBatch by decide),
    dif_pos (show (0 : Fin S1024x1024.rank) ∈ dot_S1024x1024_S1024x1024_S1024x1024_1_1_0_0_n_n.rhsNonContracting by decide)]
  rfl

/-- The right operand's column is the contraction position. -/
theorem right_col (j : S1024x1024.Idx) (κ : dot_S1024x1024_S1024x1024_S1024x1024_1_1_0_0_n_n.contr.Idx) :
    (dot_S1024x1024_S1024x1024_S1024x1024_1_1_0_0_n_n.rhsIdx j κ 1).val = (κ ⟨0, by decide⟩).val :=
  dot_S1024x1024_S1024x1024_S1024x1024_1_1_0_0_n_n.rhsIdx_val_of_single rfl j κ

/-- The block product into a zero accumulator, entry by entry: row p of the left operand against row q of the right. -/
theorem product_apply (a : FVec Ideal S1024x1024 .bf16) (w : FVec Ideal S1024x1024 .bf16) (p q : Fin 1024) :
    matmul dot_S1024x1024_S1024x1024_S1024x1024_1_1_0_0_n_n none a w (constant (F := Ideal) S1024x1024 .f32 0x00000000#32) (ix2 p q)
      = ∑ k : Fin 1024, a (ix2 p k) * w (ix2 q k) := by
  refine (Ideal.matmul_constant_zero_apply dot_S1024x1024_S1024x1024_S1024x1024_1_1_0_0_n_n none a w (ix2 p q)).trans ?_
  -- the contraction shape has the one axis of extent 1024: sum over its coordinate instead
  rw [← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have hl : dot_S1024x1024_S1024x1024_S1024x1024_1_1_0_0_n_n.lhsIdx (ix2 p q)
      ((contrEquiv1 dot_S1024x1024_S1024x1024_S1024x1024_1_1_0_0_n_n 1024 rfl rfl).symm k) = ix2 p k :=
    funext fun ax => Fin.ext (by
      match ax with
      | ⟨0, _⟩ => exact left_row _ _
      | ⟨1, _⟩ => exact (left_col _ _).trans hk)
  have hr : dot_S1024x1024_S1024x1024_S1024x1024_1_1_0_0_n_n.rhsIdx (ix2 p q)
      ((contrEquiv1 dot_S1024x1024_S1024x1024_S1024x1024_1_1_0_0_n_n 1024 rfl rfl).symm k) = ix2 q k :=
    funext fun ax => Fin.ext (by
      match ax with
      | ⟨0, _⟩ => exact right_row _ _
      | ⟨1, _⟩ => exact (right_col _ _).trans hk)
  rw [hl, hr]

/-- The bias, a vector of length 1024 viewed as one row and repeated down the block, reads its entry of the column. -/
theorem bias_apply (b : FVec Ideal S1024 .f32) (p q : Fin 1024) :
    broadcastTo S1024x1024 (shapeCast S1x1024 b shapeCasts_S1024_S1x1024) broadcasts_S1x1024_S1024x1024 (ix2 p q) = b (ix1 q) := by
  refine (broadcastTo_apply _ broadcasts_S1x1024_S1024x1024 (ix2 p q) (ix2 (0 : Fin 1) q) fun ax => ?_).trans ?_
  · match ax with
    | ⟨0, _⟩ => rfl
    | ⟨1, _⟩ => rfl
  · refine shapeCast_apply b shapeCasts_S1024_S1x1024 _ (ix1 q) ?_
    rw [Shape.rowMajor_val_one, Shape.rowMajor_val_two]
    show q.val = (0 : Fin 1).val * 1024 + q.val
    simp

/-- What one grid point computes, entry by entry: the row of the x-block against the row of the weight, plus the bias. -/
theorem payload_apply (x0 : Vec Ideal S1024x1024 .f32) (x1 : Vec Ideal S1024x1024 .bf16) (x2 : Vec Ideal S1024 .f32) (p q : Fin 1024) :
    k1_pay1 x0 x1 x2 (ix2 p q) = (∑ k : Fin 1024, x0 (ix2 p k) * x1 (ix2 q k)) + x2 (ix1 q) := by
  unfold k1_pay1
  -- the roundings are the identity on the extended reals, and the sum of two blocks is entrywise
  refine (truncf_apply (ψ := .bf16) _ bitsLt_bf16_f32 (ix2 p q)).trans ?_
  refine (addf_apply _ _ (ix2 p q)).trans ?_
  refine congrArg₂ (· + ·) ?_ (bias_apply x2 p q)
  refine (product_apply _ _ p q).trans ?_
  refine Finset.sum_congr rfl fun k _ => ?_
  rw [shapeCast_self, shapeCast_self]
  rfl

/-! ## The blocks

Grid point t takes rows 1024·t … 1024·t + 1023 of x, all of the weight and of the bias, and leaves the same rows
of the output. -/

variable (V : (c : Dev nD) → (b : Ref sig .tc) → Buf (Elt Ideal) ((c : Thread nD τ).loc b))

theorem zeros2 : (![0, 0] : Fin 2 → Nat) = fun _ => 0 :=
  funext fun a => match a with | ⟨0, _⟩ => rfl | ⟨1, _⟩ => rfl
theorem zeros1 : (![0] : Fin 1 → Nat) = fun _ => 0 :=
  funext fun a => match a with | ⟨0, _⟩ => rfl

/-- The block numbers of the four windows at every grid point, by evaluation over the eight points. -/
theorem block_numbers : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- Row p of point t's x-block is row 1024·t + p of x. -/
theorem x_block (c : Dev nD) (t : Fin cfg1.N) (p k : Fin 1024) (r : Fin 8192) (hr : r.val = t.val * 1024 + p.val) :
    iblk1 V c 0 t (ix2 p k) = V c main_v1 (ix2 r k) := by
  obtain ⟨e, e', -⟩ := block_numbers t
  show V c main_v1 (((cfg1.win 0).blk t).view.emb (ix2 p k)) = V c main_v1 (ix2 r k)
  refine congrArg (V c main_v1) (funext fun a => Fin.ext ?_)
  match a with
  | ⟨0, _⟩ => show win1_0.index t (0 : Fin 2) * 1024 + 1 * p.val = r.val; omega
  | ⟨1, _⟩ => show win1_0.index t (1 : Fin 2) * 1024 + 1 * k.val = k.val; omega

/-- Every point's weight block is the whole weight. -/
theorem w_block (c : Dev nD) (t : Fin cfg1.N) (q k : Fin 1024) :
    iblk1 V c 1 t (ix2 q k) = V c main_v4 (ix2 q k) := by
  obtain ⟨-, -, e, e', -⟩ := block_numbers t
  show V c main_v4 (((cfg1.win 1).blk t).view.emb (ix2 q k)) = V c main_v4 (ix2 q k)
  refine congrArg (V c main_v4) (funext fun a => Fin.ext ?_)
  match a with
  | ⟨0, _⟩ => show win1_1.index t (0 : Fin 2) * 1024 + 1 * q.val = q.val; omega
  | ⟨1, _⟩ => show win1_1.index t (1 : Fin 2) * 1024 + 1 * k.val = k.val; omega

/-- Every point's bias block is the whole bias. -/
theorem b_block (c : Dev nD) (t : Fin cfg1.N) (q : Fin 1024) :
    iblk1 V c 2 t (ix1 q) = V c main_arg7 (ix1 q) := by
  obtain ⟨-, -, -, -, e, -⟩ := block_numbers t
  show V c main_arg7 (((cfg1.win 2).blk t).view.emb (ix1 q)) = V c main_arg7 (ix1 q)
  refine congrArg (V c main_arg7) (funext fun a => Fin.ext ?_)
  match a with
  | ⟨0, _⟩ => show win1_2.index t (0 : Fin 1) * 1024 + 1 * q.val = q.val; omega

/-- One entry of the point's result from its three blocks, when the blocks are the rows of whole arrays: the
    projection's entry at the row the block's row stands for. -/
theorem point_value (X : Cert.Spec.Mat 8192 1024) (W : Cert.Spec.Mat 1024 1024) (B : Cert.Spec.Row 1024)
    (x0 : Vec Ideal S1024x1024 .f32) (x1 : Vec Ideal S1024x1024 .bf16) (x2 : Vec Ideal S1024 .f32)
    (p q : Fin 1024) (r : Fin 8192)
    (h0 : ∀ k, x0 (ix2 p k) = X (ix2 r k)) (h1 : ∀ k, x1 (ix2 q k) = W (ix2 q k)) (h2 : x2 (ix1 q) = B (ix1 q)) :
    k1_pay1 x0 x1 x2 (ix2 p q) = Cert.Spec.lin X W B (ix2 r q) := by
  rw [payload_apply, h2]
  show _ = (∑ k : Fin 1024, X (ix2 r k) * W (ix2 q k)) + B (ix1 q)
  exact congrArg (· + B (ix1 q)) (Finset.sum_congr rfl fun k _ => by rw [h0 k, h1 k])

/-- What point t writes back is rows 1024·t … 1024·t + 1023 of the projection of the arrays the region finds. -/
theorem flushed_eq (c : Dev nD) (t : Fin cfg1.N) :
    (dat1 (F := Ideal) V c).flushed 3 t
      = ((cfg1.win 3).blk t).view.read (Elt Ideal) (Cert.Spec.lin (V c main_v1) (V c main_v4) (V c main_arg7)) := by
  show (cfg1.win 3).cut (grid1.coords t) ((dat1 (F := Ideal) V c).after 3 t) = _
  rw [after1_3]
  unfold out1_3
  rw [View.canon_unit_zero zeros2]
  simp only [View.ld_unit_zero (S := S1024x1024) zeros2, View.ld_unit_zero (S := S1024) zeros1]
  funext j
  obtain ⟨-, -, -, -, -, e, e'⟩ := block_numbers t
  have ht : t.val < 8 := t.isLt
  have hp : (j 0).val < 1024 := (j 0).isLt
  have hq : (j 1).val < 1024 := (j 1).isLt
  -- the entry's place in the block, and in the array
  have hin : (win1 3).xinj (grid1.coords t) j = ix2 (⟨(j 0).val, hp⟩ : Fin 1024) (⟨(j 1).val, hq⟩ : Fin 1024) :=
    funext fun a => match a with | ⟨0, _⟩ => rfl | ⟨1, _⟩ => rfl
  have hout : ((cfg1.win 3).blk t).view.emb j
      = ix2 (⟨t.val * 1024 + (j 0).val, by omega⟩ : Fin 8192) (⟨(j 1).val, hq⟩ : Fin 1024) := by
    funext a; apply Fin.ext
    match a with
    | ⟨0, _⟩ => show win1_3.index t (0 : Fin 2) * 1024 + 1 * (j 0).val = t.val * 1024 + (j 0).val; omega
    | ⟨1, _⟩ => show win1_3.index t (1 : Fin 2) * 1024 + 1 * (j 1).val = (j 1).val; omega
  show k1_pay1 (iblk1 V c 0 t) (iblk1 V c 1 t) (iblk1 V c 2 t) ((win1 3).xinj (grid1.coords t) j)
    = Cert.Spec.lin (V c main_v1) (V c main_v4) (V c main_arg7) (((cfg1.win 3).blk t).view.emb j)
  rw [hin, hout]
  exact point_value (V c main_v1) (V c main_v4) (V c main_arg7) (iblk1 V c 0 t) (iblk1 V c 1 t) (iblk1 V c 2 t)
    ⟨(j 0).val, hp⟩ ⟨(j 1).val, hq⟩ ⟨t.val * 1024 + (j 0).val, by omega⟩
    (fun k => x_block V c t ⟨(j 0).val, hp⟩ k ⟨t.val * 1024 + (j 0).val, by omega⟩ rfl)
    (fun k => w_block V c t ⟨(j 1).val, hq⟩ k) (b_block V c t ⟨(j 1).val, hq⟩)

/-- Row r of the output lies in the block of point r / 1024, which is written back. -/
theorem rows_covered (i : S8192x1024.Idx) :
    ∃ t : Fin cfg1.N, (cfg1.win 3).flush t = true ∧ i ∈ ((cfg1.win 3).blk t).view.set := by
  have hi : (i 0).val < 8192 := (i 0).isLt
  have hi' : (i 1).val < 1024 := (i 1).isLt
  have hlt : (i 0).val / 1024 < cfg1.N := show (i 0).val / 1024 < 8 by omega
  obtain ⟨-, -, -, -, -, e, e'⟩ := block_numbers ⟨(i 0).val / 1024, hlt⟩
  have et : (⟨(i 0).val / 1024, hlt⟩ : Fin cfg1.N).val = (i 0).val / 1024 := rfl
  refine ⟨⟨(i 0).val / 1024, hlt⟩, flush1_3 _, ?_⟩
  -- the block is the rectangle of rows 1024·t … 1024·t + 1023 and all columns
  show i ∈ ((View.whole main_v8).slice (win1_3.rect ⟨(i 0).val / 1024, hlt⟩)).set
  rw [View.set_slice_whole, Rect.mem_set_unit]
  intro a
  match a with
  | ⟨0, _⟩ =>
    show win1_3.index ⟨(i 0).val / 1024, hlt⟩ (0 : Fin 2) * 1024 ≤ (i 0).val
      ∧ (i 0).val < win1_3.index ⟨(i 0).val / 1024, hlt⟩ (0 : Fin 2) * 1024 + 1024
    omega
  | ⟨1, _⟩ =>
    show win1_3.index ⟨(i 0).val / 1024, hlt⟩ (1 : Fin 2) * 1024 ≤ (i 1).val
      ∧ (i 1).val < win1_3.index ⟨(i 0).val / 1024, hlt⟩ (1 : Fin 2) * 1024 + 1024
    omega

/-- Region 1's output array after the region: the projection of its three input arrays as the region finds them. -/
theorem final (c : Dev nD) :
    (dat1 (F := Ideal) V c).arrAt 3 cfg1.N = Cert.Spec.lin (V c main_v1) (V c main_v4) (V c main_arg7) :=
  (dat1 (F := Ideal) V c).arrAt_eq_of_cover 3 (Cert.Spec.lin (V c main_v1) (V c main_v4) (V c main_arg7))
    (fun t _ => flushed_eq V c t) rows_covered

end Cert.KernelIdeal.Lin1

end
-- ==== Proof.Lin2.lean ====
import proofs.«424697_j28982439313762_3_alg».proof.Proof.Gen.KernelIdeal.Frame
import proofs.«424697_j28982439313762_3_alg».proof.Proof.AttnSpec
import Idealize.ShloMosaic.Lib.Pipeline.Value
import Idealize.ShloMosaic.Lib.ValueLayout

set_option maxRecDepth 16384

noncomputable section

namespace Cert.KernelIdeal.Lin2

open Idealize.ShloMosaic Idealize.ShloMosaic.TcCoe Idealize.ShloMosaic.ValueIdx Idealize.SL.Sem
open Idealize.ShloMosaic.Pipeline (Dat Cfg Window)
open Cert.KernelIdeal Cert.KernelIdeal.Gen

/-! ## The product's index maps

The block product contracts the second axis of both operands: entry (p, q) of the result pairs row p of the
left operand with row q of the right one. -/

/-- The left operand is read in the result's row. -/
theorem left_row (j : S1024x1024.Idx) (κ : dot_S1024x1024_S1024x1024_S1024x1024_1_1_0_0_n_n.contr.Idx) :
    (dot_S1024x1024_S1024x1024_S1024x1024_1_1_0_0_n_n.lhsIdx j κ 0).val = (j 0).val := by
  unfold DotDims.lhsIdx
  rw [dif_neg (show ¬(0 : Fin S1024x1024.rank) ∈ dot_S1024x1024_S1024x1024_S1024x1024_1_1_0_0_n_n.lhsBatch by decide),
    dif_pos (show (0 : Fin S1024x1024.rank) ∈ dot_S1024x1024_S1024x1024_S1024x1024_1_1_0_0_n_n.lhsNonContracting by decide)]
  rfl

/-- The left operand's column is the contraction position. -/
theorem left_col (j : S1024x1024.Idx) (κ : dot_S1024x1024_S1024x1024_S1024x1024_1_1_0_0_n_n.contr.Idx) :
    (dot_S1024x1024_S1024x1024_S1024x1024_1_1_0_0_n_n.lhsIdx j κ 1).val = (κ ⟨0, by decide⟩).val :=
  dot_S1024x1024_S1024x1024_S1024x1024_1_1_0_0_n_n.lhsIdx_val_of_single rfl j κ

/-- The right operand is read in the row named by the result's column. -/
theorem right_row (j : S1024x1024.Idx) (κ : dot_S1024x1024_S1024x1024_S1024x1024_1_1_0_0_n_n.contr.Idx) :
    (dot_S1024x1024_S1024x1024_S1024x1024_1_1_0_0_n_n.rhsIdx j κ 0).val = (j 1).val := by
  unfold DotDims.rhsIdx
  rw [dif_neg (show ¬(0 : Fin S1024x1024.rank) ∈ dot_S1024x1024_S1024x1024_S1024x1024_1_1_0_0_n_n.rhsBatch by decide),
    dif_pos (show (0 : Fin S1024x1024.rank) ∈ dot_S1024x1024_S1024x1024_S1024x1024_1_1_0_0_n_n.rhsNonContracting by decide)]
  rfl

/-- The right operand's column is the contraction position. -/
theorem right_col (j : S1024x1024.Idx) (κ : dot_S1024x1024_S1024x1024_S1024x1024_1_1_0_0_n_n.contr.Idx) :
    (dot_S1024x1024_S1024x1024_S1024x1024_1_1_0_0_n_n.rhsIdx j κ 1).val = (κ ⟨0, by decide⟩).val :=
  dot_S1024x1024_S1024x1024_S1024x1024_1_1_0_0_n_n.rhsIdx_val_of_single rfl j κ

/-- The block product into a zero accumulator, entry by entry: row p of the left operand against row q of the right. -/
theorem product_apply (a : FVec Ideal S1024x1024 .bf16) (w : FVec Ideal S1024x1024 .bf16) (p q : Fin 1024) :
    matmul dot_S1024x1024_S1024x1024_S1024x1024_1_1_0_0_n_n none a w (constant (F := Ideal) S1024x1024 .f32 0x00000000#32) (ix2 p q)
      = ∑ k : Fin 1024, a (ix2 p k) * w (ix2 q k) := by
  refine (Ideal.matmul_constant_zero_apply dot_S1024x1024_S1024x1024_S1024x1024_1_1_0_0_n_n none a w (ix2 p q)).trans ?_
  -- the contraction shape has the one axis of extent 1024: sum over its coordinate instead
  rw [← Equiv.sum_comp (contrEquiv1 dot_S1024x1024_S1024x1024_S1024x1024_1_1_0_0_n_n 1024 rfl rfl).symm]
  refine Finset.sum_congr rfl fun k _ => ?_
  have hk := contrEquiv1_symm_val dot_S1024x1024_S1024x1024_S1024x1024_1_1_0_0_n_n 1024 rfl rfl k
  have hl : dot_S1024x1024_S1024x1024_S1024x1024_1_1_0_0_n_n.lhsIdx (ix2 p q)
      ((contrEquiv1 dot_S1024x1024_S1024x1024_S1024x1024_1_1_0_0_n_n 1024 rfl rfl).symm k) = ix2 p k :=
    funext fun ax => Fin.ext (by
      match ax with
      | ⟨0, _⟩ => exact left_row _ _
      | ⟨1, _⟩ => exact (left_col _ _).trans hk)
  have hr : dot_S1024x1024_S1024x1024_S1024x1024_1_1_0_0_n_n.rhsIdx (ix2 p q)
      ((contrEquiv1 dot_S1024x1024_S1024x1024_S1024x1024_1_1_0_0_n_n 1024 rfl rfl).symm k) = ix2 q k :=
    funext fun ax => Fin.ext (by
      match ax with
      | ⟨0, _⟩ => exact right_row _ _
      | ⟨1, _⟩ => exact (right_col _ _).trans hk)
  rw [hl, hr]

/-- The bias, a vector of length 1024 viewed as one row and repeated down the block, reads its entry of the column. -/
theorem bias_apply (b : FVec Ideal S1024 .f32) (p q : Fin 1024) :
    broadcastTo S1024x1024 (shapeCast S1x1024 b shapeCasts_S1024_S1x1024) broadcasts_S1x1024_S1024x1024 (ix2 p q) = b (ix1 q) := by
  refine (broadcastTo_apply _ broadcasts_S1x1024_S1024x1024 (ix2 p q) (ix2 (0 : Fin 1) q) fun ax => ?_).trans ?_
  · match ax with
    | ⟨0, _⟩ => rfl
    | ⟨1, _⟩ => rfl
  · refine shapeCast_apply b shapeCasts_S1024_S1x1024 _ (ix1 q) ?_
    rw [Shape.rowMajor_val_one, Shape.rowMajor_val_two]
    show q.val = (0 : Fin 1).val * 1024 + q.val
    simp

/-- What one grid point computes, entry by entry: the row of the x-block against the row of the weight, plus the bias. -/
theorem payload_apply (x0 : Vec Ideal S1024x1024 .f32) (x1 : Vec Ideal S1024x1024 .bf16) (x2 : Vec Ideal S1024 .f32) (p q : Fin 1024) :
    k2_pay1 x0 x1 x2 (ix2 p q) = (∑ k : Fin 1024, x0 (ix2 p k) * x1 (ix2 q k)) + x2 (ix1 q) := by
  unfold k2_pay1
  -- the roundings are the identity on the extended reals, and the sum of two blocks is entrywise
  refine (truncf_apply (ψ := .bf16) _ bitsLt_bf16_f32 (ix2 p q)).trans ?_
  refine (addf_apply _ _ (ix2 p q)).trans ?_
  refine congrArg₂ (· + ·) ?_ (bias_apply x2 p q)
  refine (product_apply _ _ p q).trans ?_
  refine Finset.sum_congr rfl fun k _ => ?_
  rw [shapeCast_self, shapeCast_self]
  rfl

/-! ## The blocks

Grid point t takes rows 1024·t … 1024·t + 1023 of x, all of the weight and of the bias, and leaves the same rows
of the output. -/

variable (V : (c : Dev nD) → (b : Ref sig .tc) → Buf (Elt Ideal) ((c : Thread nD τ).loc b))

theorem zeros2 : (![0, 0] : Fin 2 → Nat) = fun _ => 0 :=
  funext fun a => match a with | ⟨0, _⟩ => rfl | ⟨1, _⟩ => rfl
theorem zeros1 : (![0] : Fin 1 → Nat) = fun _ => 0 :=
  funext fun a => match a with | ⟨0, _⟩ => rfl

/-- The block numbers of the four windows at every grid point, by evaluation over the eight points. -/
theorem block_numbers : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

/-- Row p of point t's x-block is row 1024·t + p of x. -/
theorem x_block (c : Dev nD) (t : Fin cfg2.N) (p k : Fin 1024) (r : Fin 8192) (hr : r.val = t.val * 1024 + p.val) :
    iblk2 V c 0 t (ix2 p k) = V c main_v2 (ix2 r k) := by
  obtain ⟨e, e', -⟩ := block_numbers t
  show V c main_v2 (((cfg2.win 0).blk t).view.emb (ix2 p k)) = V c main_v2 (ix2 r k)
  refine congrArg (V c main_v2) (funext fun a => Fin.ext ?_)
  match a with
  | ⟨0, _⟩ => show win2_0.index t (0 : Fin 2) * 1024 + 1 * p.val = r.val; omega
  | ⟨1, _⟩ => show win2_0.index t (1 : Fin 2) * 1024 + 1 * k.val = k.val; omega

/-- Every point's weight block is the whole weight. -/
theorem w_block (c : Dev nD) (t : Fin cfg2.N) (q k : Fin 1024) :
    iblk2 V c 1 t (ix2 q k) = V c main_v5 (ix2 q k) := by
  obtain ⟨-, -, e, e', -⟩ := block_numbers t
  show V c main_v5 (((cfg2.win 1).blk t).view.emb (ix2 q k)) = V c main_v5 (ix2 q k)
  refine congrArg (V c main_v5) (funext fun a => Fin.ext ?_)
  match a with
  | ⟨0, _⟩ => show win2_1.index t (0 : Fin 2) * 1024 + 1 * q.val = q.val; omega
  | ⟨1, _⟩ => show win2_1.index t (1 : Fin 2) * 1024 + 1 * k.val = k.val; omega

/-- Every point's bias block is the whole bias. -/
theorem b_block (c : Dev nD) (t : Fin cfg2.N) (q : Fin 1024) :
    iblk2 V c 2 t (ix1 q) = V c main_arg9 (ix1 q) := by
  obtain ⟨-, -, -, -, e, -⟩ := block_numbers t
  show V c main_arg9 (((cfg2.win 2).blk t).view.emb (ix1 q)) = V c main_arg9 (ix1 q)
  refine congrArg (V c main_arg9) (funext fun a => Fin.ext ?_)
  match a with
  | ⟨0, _⟩ => show win2_2.index t (0 : Fin 1) * 1024 + 1 * q.val = q.val; omega

/-- One entry of the point's result from its three blocks, when the blocks are the rows of whole arrays: the
    projection's entry at the row the block's row stands for. -/
theorem point_value (X : Cert.Spec.Mat 8192 1024) (W : Cert.Spec.Mat 1024 1024) (B : Cert.Spec.Row 1024)
    (x0 : Vec Ideal S1024x1024 .f32) (x1 : Vec Ideal S1024x1024 .bf16) (x2 : Vec Ideal S1024 .f32)
    (p q : Fin 1024) (r : Fin 8192)
    (h0 : ∀ k, x0 (ix2 p k) = X (ix2 r k)) (h1 : ∀ k, x1 (ix2 q k) = W (ix2 q k)) (h2 : x2 (ix1 q) = B (ix1 q)) :
    k2_pay1 x0 x1 x2 (ix2 p q) = Cert.Spec.lin X W B (ix2 r q) := by
  rw [payload_apply, h2]
  show _ = (∑ k : Fin 1024, X (ix2 r k) * W (ix2 q k)) + B (ix1 q)
  exact congrArg (· + B (ix1 q)) (Finset.sum_congr rfl fun k _ => by rw [h0 k, h1 k])

/-- What point t writes back is rows 1024·t … 1024·t + 1023 of the projection of the arrays the region finds. -/
theorem flushed_eq (c : Dev nD) (t : Fin cfg2.N) :
    (dat2 (F := Ideal) V c).flushed 3 t
      = ((cfg2.win 3).blk t).view.read (Elt Ideal) (Cert.Spec.lin (V c main_v2) (V c main_v5) (V c main_arg9)) := by
  show (cfg2.win 3).cut (grid2.coords t) ((dat2 (F := Ideal) V c).after 3 t) = _
  rw [after2_3]
  unfold out2_3
  rw [View.canon_unit_zero zeros2]
  simp only [View.ld_unit_zero (S := S1024x1024) zeros2, View.ld_unit_zero (S := S1024) zeros1]
  funext j
  obtain ⟨-, -, -, -, -, e, e'⟩ := block_numbers t
  have ht : t.val < 8 := t.isLt
  have hp : (j 0).val < 1024 := (j 0).isLt
  have hq : (j 1).val < 1024 := (j 1).isLt
  -- the entry's place in the block, and in the array
  have hin : (win2 3).xinj (grid2.coords t) j = ix2 (⟨(j 0).val, hp⟩ : Fin 1024) (⟨(j 1).val, hq⟩ : Fin 1024) :=
    funext fun a => match a with | ⟨0, _⟩ => rfl | ⟨1, _⟩ => rfl
  have hout : ((cfg2.win 3).blk t).view.emb j
      = ix2 (⟨t.val * 1024 + (j 0).val, by omega⟩ : Fin 8192) (⟨(j 1).val, hq⟩ : Fin 1024) := by
    funext a; apply Fin.ext
    match a with
    | ⟨0, _⟩ => show win2_3.index t (0 : Fin 2) * 1024 + 1 * (j 0).val = t.val * 1024 + (j 0).val; omega
    | ⟨1, _⟩ => show win2_3.index t (1 : Fin 2) * 1024 + 1 * (j 1).val = (j 1).val; omega
  show k2_pay1 (iblk2 V c 0 t) (iblk2 V c 1 t) (iblk2 V c 2 t) ((win2 3).xinj (grid2.coords t) j)
    = Cert.Spec.lin (V c main_v2) (V c main_v5) (V c main_arg9) (((cfg2.win 3).blk t).view.emb j)
  rw [hin, hout]
  exact point_value (V c main_v2) (V c main_v5) (V c main_arg9) (iblk2 V c 0 t) (iblk2 V c 1 t) (iblk2 V c 2 t)
    ⟨(j 0).val, hp⟩ ⟨(j 1).val, hq⟩ ⟨t.val * 1024 + (j 0).val, by omega⟩
    (fun k => x_block V c t ⟨(j 0).val, hp⟩ k ⟨t.val * 1024 + (j 0).val, by omega⟩ rfl)
    (fun k => w_block V c t ⟨(j 1).val, hq⟩ k) (b_block V c t ⟨(j 1).val, hq⟩)

/-- Row r of the output lies in the block of point r / 1024, which is written back. -/
theorem rows_covered (i : S8192x1024.Idx) :
    ∃ t : Fin cfg2.N, (cfg2.win 3).flush t = true ∧ i ∈ ((cfg2.win 3).blk t).view.set := by
  have hi : (i 0).val < 8192 := (i 0).isLt
  have hi' : (i 1).val < 1024 := (i 1).isLt
  have hlt : (i 0).val / 1024 < cfg2.N := show (i 0).val / 1024 < 8 by omega
  obtain ⟨-, -, -, -, -, e, e'⟩ := block_numbers ⟨(i 0).val / 1024, hlt⟩
  have et : (⟨(i 0).val / 1024, hlt⟩ : Fin cfg2.N).val = (i 0).val / 1024 := rfl
  refine ⟨⟨(i 0).val / 1024, hlt⟩, flush2_3 _, ?_⟩
  -- the block is the rectangle of rows 1024·t … 1024·t + 1023 and all columns
  show i ∈ ((View.whole main_v9).slice (win2_3.rect ⟨(i 0).val / 1024, hlt⟩)).set
  rw [View.set_slice_whole, Rect.mem_set_unit]
  intro a
  match a with
  | ⟨0, _⟩ =>
    show win2_3.index ⟨(i 0).val / 1024, hlt⟩ (0 : Fin 2) * 1024 ≤ (i 0).val
      ∧ (i 0).val < win2_3.index ⟨(i 0).val / 1024, hlt⟩ (0 : Fin 2) * 1024 + 1024
    omega
  | ⟨1, _⟩ =>
    show win2_3.index ⟨(i 0).val / 1024, hlt⟩ (1 : Fin 2) * 1024 ≤ (i 1).val
      ∧ (i 1).val < win2_3.index ⟨(i 0).val / 1024, hlt⟩ (1 : Fin 2) * 1024 + 1024
    omega

/-- Region 2's output array after the region: the projection of its three input arrays as the region finds them. -/
theorem final (c : Dev nD) :
    (dat2 (F := Ideal) V c).arrAt 3 cfg2.N = Cert.Spec.lin (V c main_v2) (V c main_v5) (V c main_arg9) :=
  (dat2 (F := Ideal) V c).arrAt_eq_of_cover 3 (Cert.Spec.lin (V c main_v2) (V c main_v5) (V c main_arg9))
    (fun t _ => flushed_eq V c t) rows_covered

end Cert.KernelIdeal.Lin2

end
-- ==== Proof.Lin4.lean ====
import proofs.«424697_j28982439313762_3_alg».proof.Proof.Gen.KernelIdeal.Frame
import proofs.«424697_j28982439313762_3_alg».proof.Proof.AttnSpec
import Idealize.ShloMosaic.Lib.Pipeline.Value
import Idealize.ShloMosaic.Lib.ValueIdx

set_option maxRecDepth 16384

noncomputable section

namespace Cert.KernelIdeal.Lin4

open Idealize.ShloMosaic Idealize.ShloMosaic.TcCoe Idealize.ShloMosaic.ValueIdx Idealize.SL.Sem
open Idealize.ShloMosaic.Pipeline (Dat Cfg Window)
open Cert.KernelIdeal Cert.KernelIdeal.Gen

/-! ## The operand indices of the 1024 × 1024 by 1024 × 1024 product contracting both second axes -/

/-- The left operand is read at the output's row … -/
theorem lhs_axis0 (i : S1024x1024.Idx) (q : dot_S1024x1024_S1024x1024_S1024x1024_1_1_0_0_n_n.contr.Idx) :
    (dot_S1024x1024_S1024x1024_S1024x1024_1_1_0_0_n_n.lhsIdx i q 0).val = (i 0).val := by
  unfold DotDims.lhsIdx
  rw [dif_neg (show ¬(0 : Fin S1024x1024.rank) ∈ dot_S1024x1024_S1024x1024_S1024x1024_1_1_0_0_n_n.lhsBatch by decide),
    dif_pos (show (0 : Fin S1024x1024.rank) ∈ dot_S1024x1024_S1024x1024_S1024x1024_1_1_0_0_n_n.lhsNonContracting by decide)]
  rfl

/-- … and at the contraction index on its second axis. -/
theorem lhs_axis1 (i : S1024x1024.Idx) (q : dot_S1024x1024_S1024x1024_S1024x1024_1_1_0_0_n_n.contr.Idx) :
    (dot_S1024x1024_S1024x1024_S1024x1024_1_1_0_0_n_n.lhsIdx i q 1).val = (q ⟨0, by decide⟩).val :=
  dot_S1024x1024_S1024x1024_S1024x1024_1_1_0_0_n_n.lhsIdx_val_of_single rfl i q

/-- The right operand is read at the output's column, on its FIRST axis (the product is with the transpose) … -/
theorem rhs_axis0 (i : S1024x1024.Idx) (q : dot_S1024x1024_S1024x1024_S1024x1024_1_1_0_0_n_n.contr.Idx) :
    (dot_S1024x1024_S1024x1024_S1024x1024_1_1_0_0_n_n.rhsIdx i q 0).val = (i 1).val := by
  unfold DotDims.rhsIdx
  rw [dif_neg (show ¬(0 : Fin S1024x1024.rank) ∈ dot_S1024x1024_S1024x1024_S1024x1024_1_1_0_0_n_n.rhsBatch by decide),
    dif_pos (show (0 : Fin S1024x1024.rank) ∈ dot_S1024x1024_S1024x1024_S1024x1024_1_1_0_0_n_n.rhsNonContracting by decide)]
  rfl

/-- … and at the contraction index on its second axis. -/
theorem rhs_axis1 (i : S1024x1024.Idx) (q : dot_S1024x1024_S1024x1024_S1024x1024_1_1_0_0_n_n.contr.Idx) :
    (dot_S1024x1024_S1024x1024_S1024x1024_1_1_0_0_n_n.rhsIdx i q 1).val = (q ⟨0, by decide⟩).val :=
  dot_S1024x1024_S1024x1024_S1024x1024_1_1_0_0_n_n.rhsIdx_val_of_single rfl i q

/-- The product into the zero accumulator at row `p`, column `q`: the dot product of row `p` of the left operand with
    row `q` of the right one. -/
theorem matmul_at (a b : FVec Ideal S1024x1024 .bf16) (p q : Fin 1024) :
    matmul dot_S1024x1024_S1024x1024_S1024x1024_1_1_0_0_n_n none a b (constant S1024x1024 .f32 0x00000000#32) (ix2 p q)
      = ∑ k : Fin 1024, a (ix2 p k) * b (ix2 q k) := by
  show FloatOps.matmul dot_S1024x1024_S1024x1024_S1024x1024_1_1_0_0_n_n none a b (constant S1024x1024 .f32 0x00000000#32) (ix2 p q) = _
  rw [Ideal.matmul_constant_zero_apply,
    ← Equiv.sum_comp (ValueIdx.contrEquiv1 dot_S1024x1024_S1024x1024_S1024x1024_1_1_0_0_n_n 1024 rfl rfl).symm]
  refine Finset.sum_congr rfl fun k _ => ?_
  have hk := ValueIdx.contrEquiv1_symm_val dot_S1024x1024_S1024x1024_S1024x1024_1_1_0_0_n_n 1024 rfl rfl k
  have el : dot_S1024x1024_S1024x1024_S1024x1024_1_1_0_0_n_n.lhsIdx (ix2 p q)
      ((ValueIdx.contrEquiv1 dot_S1024x1024_S1024x1024_S1024x1024_1_1_0_0_n_n 1024 rfl rfl).symm k) = ix2 p k :=
    funext fun d => Fin.ext (by
      match d with
      | ⟨0, _⟩ => exact lhs_axis0 _ _
      | ⟨1, _⟩ => exact (lhs_axis1 _ _).trans hk)
  have er : dot_S1024x1024_S1024x1024_S1024x1024_1_1_0_0_n_n.rhsIdx (ix2 p q)
      ((ValueIdx.contrEquiv1 dot_S1024x1024_S1024x1024_S1024x1024_1_1_0_0_n_n 1024 rfl rfl).symm k) = ix2 q k :=
    funext fun d => Fin.ext (by
      match d with
      | ⟨0, _⟩ => exact rhs_axis0 _ _
      | ⟨1, _⟩ => exact (rhs_axis1 _ _).trans hk)
  rw [el, er]

/-- The bias laid out as one row and repeated down the 1024 rows, read at row `p`, column `q`: entry `q` of the bias. -/
theorem bias_at (x2 : FVec Ideal S1024 .f32) (p q : Fin 1024) :
    broadcastTo S1024x1024 (shapeCast S1x1024 x2 shapeCasts_S1024_S1x1024) broadcasts_S1x1024_S1024x1024 (ix2 p q) = x2 (ix1 q) := by
  rw [broadcastTo_apply _ _ _ (ix2 (0 : Fin 1) q) (fun a => by
    match a with
    | ⟨0, _⟩ => rfl
    | ⟨1, _⟩ => rfl)]
  exact shapeCast_apply _ _ _ _ (by
    rw [Shape.rowMajor_val_one, Shape.rowMajor_val_two]
    show q.val = (0 : Fin 1).val * 1024 + q.val
    rw [Fin.val_zero, Nat.zero_mul, Nat.zero_add])

/-- The body's stored value at row `p`, column `q` of its block. -/
theorem pay_at (x0 x1 : Vec Ideal S1024x1024 .bf16) (x2 : Vec Ideal S1024 .f32) (p q : Fin 1024) :
    k4_pay1 (F := Ideal) x0 x1 x2 (ix2 p q) = (∑ k : Fin 1024, x0 (ix2 p k) * x1 (ix2 q k)) + x2 (ix1 q) := by
  unfold k4_pay1
  rw [addf_apply, shapeCast_self, shapeCast_self, matmul_at, bias_at]

/-! ## From the block of a grid point to the projection -/

/-- The body reads and writes its buffers whole: every access starts at offset zero. -/
theorem zero_off2 : (![0, 0] : Fin 2 → Nat) = fun _ => 0 := funext fun a => by fin_cases a <;> rfl
theorem zero_off1 : (![0] : Fin 1 → Nat) = fun _ => 0 := funext fun a => by fin_cases a; rfl

/-- The stored value at row `p`, column `q` of a block is the projection's entry at row `r`, column `e` as soon as row `p`
    of the left block is row `r` of the input, row `q` of the right block is row `e` of the weight, and entry `q` of the
    bias block is entry `e` of the bias. -/
theorem pay_is_linAt (X : Cert.Spec.Mat 8192 1024) (W : Cert.Spec.Mat 1024 1024) (b : Cert.Spec.Row 1024)
    (x0 x1 : Vec Ideal S1024x1024 .bf16) (x2 : Vec Ideal S1024 .f32) (p q : Fin 1024) (r : Fin 8192) (e : Fin 1024)
    (h0 : ∀ k : Fin 1024, x0 (ix2 p k) = X (ix2 r k)) (h1 : ∀ k : Fin 1024, x1 (ix2 q k) = W (ix2 e k))
    (h2 : x2 (ix1 q) = b (ix1 e)) :
    k4_pay1 (F := Ideal) x0 x1 x2 (ix2 p q) = Cert.Spec.linAt X W b r e := by
  rw [pay_at]
  unfold Cert.Spec.linAt
  rw [h2]
  exact congrArg (· + b (ix1 e)) (Finset.sum_congr rfl fun k _ => by rw [h0 k, h1 k])

/-- The printed index maps over the eight grid points: the input's and the output's block is block `t` of the rows, the
    weight and the bias are one block each. -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = t.val ∧ win4_3.index t (1 : Fin 2) = 0 :=
  (by decide +kernel : ∀ t : Fin grid4.N, _)

variable (V : (c : Dev nD) → (b : Ref sig .tc) → Buf (Elt Ideal) ((c : Thread nD τ).loc b))

/-- What grid point `t` writes back is block `t` of the projection of the three arrays as the region finds them: row `p` of
    the block is row `1024 t + p` of the input, and the weight and the bias are read whole at every point. -/
theorem flushed_eq (c : Dev nD) (t : Fin cfg4.N) :
    (dat4 (F := Ideal) V c).flushed 3 t
      = ((cfg4.win 3).blk t).view.read (Elt Ideal) (Cert.Spec.lin (V c main_v10) (V c main_v6) (V c main_arg11)) := by
  show (cfg4.win 3).cut (grid4.coords t) ((dat4 V c).after 3 t) = _
  rw [after4_3]
  unfold out4_3
  rw [View.canon_unit_zero zero_off2]
  simp only [View.ld_unit_zero (S := S1024x1024) zero_off2, View.ld_unit_zero (S := S1024) zero_off1]
  funext j
  obtain ⟨p, q, rfl⟩ : ∃ (p q : Fin 1024), j = ix2 p q := ⟨j 0, j 1, eq_ix2 j⟩
  show k4_pay1 (F := Ideal) (iblk4 V c 0 t) (iblk4 V c 1 t) (iblk4 V c 2 t) (ix2 p q)
    = Cert.Spec.lin (V c main_v10) (V c main_v6) (V c main_arg11) (((cfg4.win 3).blk t).view.emb (ix2 p q))
  unfold Cert.Spec.lin
  obtain ⟨e00, e01, e10, e11, e20, e30, e31⟩ := idx_facts t
  refine pay_is_linAt _ _ _ _ _ _ p q _ _ (fun k => ?_) (fun k => ?_) ?_
  · show V c main_v10 (((cfg4.win 0).blk t).view.emb (ix2 p k)) = V c main_v10 (ix2 _ k)
    refine congrArg (V c main_v10) (funext fun a => Fin.ext ?_)
    match a with
    | ⟨0, _⟩ =>
      show win4_0.index t (0 : Fin 2) * 1024 + 1 * p.val = win4_3.index t (0 : Fin 2) * 1024 + 1 * p.val
      omega
    | ⟨1, _⟩ =>
      show win4_0.index t (1 : Fin 2) * 1024 + 1 * k.val = k.val
      omega
  · show V c main_v6 (((cfg4.win 1).blk t).view.emb (ix2 q k)) = V c main_v6 (ix2 _ k)
    refine congrArg (V c main_v6) (funext fun a => Fin.ext ?_)
    match a with
    | ⟨0, _⟩ =>
      show win4_1.index t (0 : Fin 2) * 1024 + 1 * q.val = win4_3.index t (1 : Fin 2) * 1024 + 1 * q.val
      omega
    | ⟨1, _⟩ =>
      show win4_1.index t (1 : Fin 2) * 1024 + 1 * k.val = k.val
      omega
  · show V c main_arg11 (((cfg4.win 2).blk t).view.emb (ix1 q)) = V c main_arg11 (ix1 _)
    refine congrArg (V c main_arg11) (funext fun a => Fin.ext ?_)
    match a with
    | ⟨0, _⟩ =>
      show win4_2.index t (0 : Fin 1) * 1024 + 1 * q.val = win4_3.index t (1 : Fin 2) * 1024 + 1 * q.val
      omega

/-- An index of the output array is in the block of point `t` iff each coordinate is in the block's range on its axis. -/
theorem mem_blk (t : Fin cfg4.N) (i : S8192x1024.Idx) :
    i ∈ ((cfg4.win 3).blk t).view.set ↔ ∀ a : Fin 2, win4_3.index t a * S1024x1024.size a ≤ (i a).val
      ∧ (i a).val < win4_3.index t a * S1024x1024.size a + S1024x1024.size a := by
  show i ∈ ((View.whole main_v11).slice (win4_3.rect t)).set ↔ _
  rw [View.set_slice_whole, Rect.mem_set_unit]
  exact Iff.rfl

/-- The eight blocks of 1024 rows fill the 8192 rows: row `r` is in the block of point `r / 1024`. -/
theorem covered (i : S8192x1024.Idx) :
    ∃ t : Fin cfg4.N, (cfg4.win 3).flush t = true ∧ i ∈ ((cfg4.win 3).blk t).view.set := by
  have hi0 : (i 0).val < 8192 := (i 0).isLt
  have hi1 : (i 1).val < 1024 := (i 1).isLt
  have ht : (i 0).val / 1024 < 8 := by omega
  obtain ⟨-, -, -, -, -, e30, e31⟩ := idx_facts ⟨(i 0).val / 1024, ht⟩
  have e30' : win4_3.index ⟨(i 0).val / 1024, ht⟩ (0 : Fin 2) = (i 0).val / 1024 := e30
  refine ⟨⟨(i 0).val / 1024, ht⟩, flush4_3 _, ?_⟩
  rw [mem_blk]
  intro a
  match a with
  | ⟨0, _⟩ =>
    show win4_3.index ⟨(i 0).val / 1024, ht⟩ (0 : Fin 2) * 1024 ≤ (i 0).val
      ∧ (i 0).val < win4_3.index ⟨(i 0).val / 1024, ht⟩ (0 : Fin 2) * 1024 + 1024
    omega
  | ⟨1, _⟩ =>
    show win4_3.index ⟨(i 0).val / 1024, ht⟩ (1 : Fin 2) * 1024 ≤ (i 1).val
      ∧ (i 1).val < win4_3.index ⟨(i 0).val / 1024, ht⟩ (1 : Fin 2) * 1024 + 1024
    omega

/-- Region 4's output array after the region: the projection of its three input arrays as the region finds them. -/
theorem final (c : Dev nD) :
    (dat4 (F := Ideal) V c).arrAt 3 cfg4.N = Cert.Spec.lin (V c main_v10) (V c main_v6) (V c main_arg11) :=
  (dat4 V c).arrAt_eq_of_cover 3 _ (fun t _ => flushed_eq V c t) covered

end Cert.KernelIdeal.Lin4

end
-- ==== Proof.LibVecRows.lean ====
/-
  A kernel's vector operations on a block of rows read at an index: the sum of each row, a vector of row values
  viewed as a column, and a column broadcast along the rows. Stated for any extents.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ValueLayout

noncomputable section

namespace Cert.LibVecRows

open Idealize.ShloMosaic Idealize.ShloMosaic.ValueIdx

/-- The sum over the second axis of an `a × b` block, read at row `p`: the sum of the row. -/
theorem multiReduction_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  -- The reduction over one axis is the sum over that axis's coordinates of the source at the row index with the
  -- coordinate inserted; on the second axis of a rank-2 block the inserted index is (p, k).
  refine (Ideal.multiReduction_add_single src acc h hφ hacc (ix1 p)).trans ?_
  show ∑ k : Fin b, src (h.lift (ix1 p) k) = ∑ k : Fin b, src (ix2 p k)
  refine Finset.sum_congr rfl fun k _ => congrArg src ?_
  funext c
  match c with
  | ⟨0, _⟩ => exact Fin.ext rfl
  | ⟨1, _⟩ => exact Fin.ext rfl

/-- A vector of length `a` viewed as an `a × 1` column reads its own entry. -/
theorem shapeCast_col_apply {a : ℕ} {α : Type} (v : (⟨1, ![a]⟩ : Shape).Idx → α)
    (h : (⟨1, ![a]⟩ : Shape).ShapeCasts ⟨2, ![a, 1]⟩) (p : Fin a) (z : Fin 1) :
    shapeCast ⟨2, ![a, 1]⟩ v h (ix2 p z) = v (ix1 p) :=
  -- Both indices have the row-major position p: p * 1 + 0 on the column side.
  shapeCast_apply v h _ _ (by
    have hz : z.val = 0 := by omega
    rw [Shape.rowMajor_val_one, Shape.rowMajor_val_two]
    show p.val = p.val * 1 + z.val
    rw [hz, Nat.mul_one, Nat.add_zero])

/-- An `a × 1` column broadcast to `a × b` reads the column's entry of the row. -/
theorem broadcastTo_col_apply {a b : ℕ} {α : Type} (v : (⟨2, ![a, 1]⟩ : Shape).Idx → α)
    (h : (⟨2, ![a, 1]⟩ : Shape).Broadcasts ⟨2, ![a, b]⟩) (p : Fin a) (k : Fin b) :
    broadcastTo ⟨2, ![a, b]⟩ v h (ix2 p k) = v (ix2 p (0 : Fin 1)) := by
  -- The row axis keeps its coordinate (which is 0 anyway when the extent is 1); the unit axis reads 0.
  refine broadcastTo_apply v h (ix2 p k) (ix2 p (0 : Fin 1)) fun ax => ?_
  match ax with
  | ⟨0, _⟩ =>
    show p.val = if a = 1 then 0 else p.val
    split
    · have := p.isLt; omega
    · rfl
  | ⟨1, _⟩ => rfl

end Cert.LibVecRows

end
-- ==== Proof.Att3PayHead.lean ====
/-
  One head of the attention body read at an index: the two contractions (scores against the keys; weights against
  the values), the row maximum, and the whole head as the softmax-weighted combination of the value rows.
-/
import proofs.«424697_j28982439313762_3_alg».proof.Proof.Gen.KernelIdeal.Skeleton
import proofs.«424697_j28982439313762_3_alg».proof.Proof.AttnSpec
import proofs.«424697_j28982439313762_3_alg».proof.Proof.LibVecRows
import Idealize.ShloMosaic.Lib.Pipeline.Value
import Idealize.ShloMosaic.Lib.ValueLayout

set_option maxRecDepth 16384

noncomputable section

namespace Cert.KernelIdeal.Att3PayHead

open Idealize.ShloMosaic Idealize.ShloMosaic.TcCoe Idealize.ShloMosaic.ValueIdx Idealize.SL.Sem
open Cert.KernelIdeal Cert.KernelIdeal.Gen

/-! ## The score contraction: queries against keys over the 64 features -/

theorem lhs_qk_0 (i : S512x2048.Idx) (q : dot_S512x64_S2048x64_S512x2048_1_1_0_0_n_n.contr.Idx) :
    (dot_S512x64_S2048x64_S512x2048_1_1_0_0_n_n.lhsIdx i q 0).val = (i 0).val := by
  unfold DotDims.lhsIdx
  rw [dif_neg (show ¬(0 : Fin S512x64.rank) ∈ dot_S512x64_S2048x64_S512x2048_1_1_0_0_n_n.lhsBatch by decide), dif_pos (show (0 : Fin S512x64.rank) ∈ dot_S512x64_S2048x64_S512x2048_1_1_0_0_n_n.lhsNonContracting by decide)]
  rfl
theorem lhs_qk_1 (i : S512x2048.Idx) (q : dot_S512x64_S2048x64_S512x2048_1_1_0_0_n_n.contr.Idx) :
    (dot_S512x64_S2048x64_S512x2048_1_1_0_0_n_n.lhsIdx i q 1).val = (q ⟨0, by decide⟩).val :=
  dot_S512x64_S2048x64_S512x2048_1_1_0_0_n_n.lhsIdx_val_of_single rfl i q
theorem rhs_qk_0 (i : S512x2048.Idx) (q : dot_S512x64_S2048x64_S512x2048_1_1_0_0_n_n.contr.Idx) :
    (dot_S512x64_S2048x64_S512x2048_1_1_0_0_n_n.rhsIdx i q 0).val = (i 1).val := by
  unfold DotDims.rhsIdx
  rw [dif_neg (show ¬(0 : Fin S2048x64.rank) ∈ dot_S512x64_S2048x64_S512x2048_1_1_0_0_n_n.rhsBatch by decide), dif_pos (show (0 : Fin S2048x64.rank) ∈ dot_S512x64_S2048x64_S512x2048_1_1_0_0_n_n.rhsNonContracting by decide)]
  rfl
theorem rhs_qk_1 (i : S512x2048.Idx) (q : dot_S512x64_S2048x64_S512x2048_1_1_0_0_n_n.contr.Idx) :
    (dot_S512x64_S2048x64_S512x2048_1_1_0_0_n_n.rhsIdx i q 1).val = (q ⟨0, by decide⟩).val :=
  dot_S512x64_S2048x64_S512x2048_1_1_0_0_n_n.rhsIdx_val_of_single rfl i q

/-- The score block at row `p` and key `j`: the dot product of query row `p` and key row `j` over the features. -/
theorem matmul_qk_apply (a : FVec Ideal S512x64 .bf16) (b : FVec Ideal S2048x64 .bf16) (p : Fin 512) (j : Fin 2048) :
    matmul dot_S512x64_S2048x64_S512x2048_1_1_0_0_n_n none a b (constant (F := Ideal) S512x2048 .f32 0x00000000#32) (ix2 p j)
      = ∑ e : Fin 64, a (ix2 p e) * b (ix2 j e) := by
  simp only [matmul]
  rw [Ideal.matmul_constant_zero_apply, ← Equiv.sum_comp (ValueIdx.contrEquiv1 dot_S512x64_S2048x64_S512x2048_1_1_0_0_n_n 64 rfl rfl).symm]
  refine Finset.sum_congr rfl fun k _ => ?_
  have hk := ValueIdx.contrEquiv1_symm_val dot_S512x64_S2048x64_S512x2048_1_1_0_0_n_n 64 rfl rfl k
  have el : dot_S512x64_S2048x64_S512x2048_1_1_0_0_n_n.lhsIdx (ix2 p j) ((ValueIdx.contrEquiv1 dot_S512x64_S2048x64_S512x2048_1_1_0_0_n_n 64 rfl rfl).symm k) = ix2 p k := funext fun ax => Fin.ext (by
    match ax with
    | ⟨0, _⟩ => exact lhs_qk_0 _ _
    | ⟨1, _⟩ => exact (lhs_qk_1 _ _).trans hk)
  have er : dot_S512x64_S2048x64_S512x2048_1_1_0_0_n_n.rhsIdx (ix2 p j) ((ValueIdx.contrEquiv1 dot_S512x64_S2048x64_S512x2048_1_1_0_0_n_n 64 rfl rfl).symm k) = ix2 j k := funext fun ax => Fin.ext (by
    match ax with
    | ⟨0, _⟩ => exact rhs_qk_0 _ _
    | ⟨1, _⟩ => exact (rhs_qk_1 _ _).trans hk)
  rw [el, er]

/-! ## The value contraction: weights against value rows over the 2048 keys -/

theorem lhs_pv_0 (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem lhs_pv_1 (i : S512x64.Idx) (q : dot_S512x2048_S2048x64_S512x64_1_0_0_1_n_n.contr.Idx) :
    (dot_S512x2048_S2048x64_S512x64_1_0_0_1_n_n.lhsIdx i q 1).val = (q ⟨0, by decide⟩).val :=
  dot_S512x2048_S2048x64_S512x64_1_0_0_1_n_n.lhsIdx_val_of_single rfl i q
theorem rhs_pv_0 (i : S512x64.Idx) (q : dot_S512x2048_S2048x64_S512x64_1_0_0_1_n_n.contr.Idx) :
    (dot_S512x2048_S2048x64_S512x64_1_0_0_1_n_n.rhsIdx i q 0).val = (q ⟨0, by decide⟩).val :=
  dot_S512x2048_S2048x64_S512x64_1_0_0_1_n_n.rhsIdx_val_of_single rfl i q
theorem rhs_pv_1 (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- The output block at row `p` and feature `d`: the weights of row `p` against column `d` of the value rows. -/
theorem matmul_pv_apply (a : FVec Ideal S512x2048 .bf16) (b : FVec Ideal S2048x64 .bf16) (p : Fin 512) (d : Fin 64) :
    matmul dot_S512x2048_S2048x64_S512x64_1_0_0_1_n_n none a b (constant (F := Ideal) S512x64 .f32 0x00000000#32) (ix2 p d)
      = ∑ j : Fin 2048, a (ix2 p j) * b (ix2 j d) := by
  simp only [matmul]
  rw [Ideal.matmul_constant_zero_apply, ← Equiv.sum_comp (ValueIdx.contrEquiv1 dot_S512x2048_S2048x64_S512x64_1_0_0_1_n_n 2048 rfl rfl).symm]
  refine Finset.sum_congr rfl fun k _ => ?_
  have hk := ValueIdx.contrEquiv1_symm_val dot_S512x2048_S2048x64_S512x64_1_0_0_1_n_n 2048 rfl rfl k
  have el : dot_S512x2048_S2048x64_S512x64_1_0_0_1_n_n.lhsIdx (ix2 p d) ((ValueIdx.contrEquiv1 dot_S512x2048_S2048x64_S512x64_1_0_0_1_n_n 2048 rfl rfl).symm k) = ix2 p k := funext fun ax => Fin.ext (by
    match ax with
    | ⟨0, _⟩ => exact lhs_pv_0 _ _
    | ⟨1, _⟩ => exact (lhs_pv_1 _ _).trans hk)
  have er : dot_S512x2048_S2048x64_S512x64_1_0_0_1_n_n.rhsIdx (ix2 p d) ((ValueIdx.contrEquiv1 dot_S512x2048_S2048x64_S512x64_1_0_0_1_n_n 2048 rfl rfl).symm k) = ix2 k d := funext fun ax => Fin.ext (by
    match ax with
    | ⟨0, _⟩ => exact (rhs_pv_0 _ _).trans hk
    | ⟨1, _⟩ => exact rhs_pv_1 _ _)
  rw [el, er]

/-! ## The row maximum -/

/-- The exponential of a block, entry by entry. -/
theorem exp_apply {s : Shape} {φ : FTy} (x : FVec Ideal s φ) (i : s.Idx) : exp x i = Ideal.exp (x i) := rfl

/-- The maximum over the second axis of a 512 × 2048 block, read at row `p`: the fold of `max` from −∞ over the row. -/
theorem rowMax_apply (src : FVec Ideal S512x2048 .f32) (h : S512x2048.Reduces [1] S512) (hφ : FKind.Formats .f32)
    (hacc : (0xFF800000#32 : BitVec (FTy.bits .f32)) = FKind.maximumf.neutral .f32 hφ) (p : Fin 512) :
    multiReduction .maximumf [1] S512 src 0xFF800000#32 h hφ hacc (ix1 p)
      = Cert.Spec.rowMax (fun j : Fin 2048 => src (ix2 p j)) := by
  refine (Ideal.multiReduction_maximumf_single src 0xFF800000#32 h hφ hacc (ix1 p)).trans ?_
  show (Finset.univ : Finset (Fin 2048)).fold max (Ideal.ofBits .f32 0xFF800000#32) (fun k : Fin 2048 => src (h.lift (ix1 p) k)) = _
  unfold Cert.Spec.rowMax Cert.Spec.negInf
  refine congrArg (fun f : Fin 2048 → EReal => (Finset.univ : Finset (Fin 2048)).fold max (Ideal.ofBits .f32 0xFF800000#32) f) ?_
  funext k
  refine congrArg src ?_
  funext c
  match c with
  | ⟨0, _⟩ => exact Fin.ext rfl
  | ⟨1, _⟩ => exact Fin.ext rfl

/-! ## The three stages of one head, named as the body spells them -/

/-- Scaled scores with the masked positions replaced. -/
def scoreBlock (m : IVec S512x2048 32) (q : FVec Ideal S512x64 .bf16) (k : FVec Ideal S2048x64 .bf16) : FVec Ideal S512x2048 .f32 :=
  select (cmpi .eq m (broadcast S512x2048 0#32)) (broadcast S512x2048 (Scalar.ofBits (F := Ideal) .f32 0xCE6E6B28#32))
    (mulf (matmul dot_S512x64_S2048x64_S512x2048_1_1_0_0_n_n none q k (constant (F := Ideal) S512x2048 .f32 0x00000000#32))
      (broadcast S512x2048 (Scalar.ofBits (F := Ideal) .f32 0x3E000000#32)))

/-- Exponentials of the scores less their row maximum. -/
def expBlock (sc : FVec Ideal S512x2048 .f32) : FVec Ideal S512x2048 .f32 :=
  exp (subf sc (broadcastTo S512x2048 (shapeCast S512x1 (multiReduction .maximumf [1] S512 sc 0xFF800000#32 reduces_S512x2048_S512 (.inl rfl) rfl) shapeCasts_S512_S512x1) broadcasts_S512x1_S512x2048))

/-- The exponentials times the reciprocal of their row sum. -/
def softBlock (ex : FVec Ideal S512x2048 .f32) : FVec Ideal S512x2048 .bf16 :=
  truncf .bf16 (mulf ex (broadcastTo S512x2048 (divf (broadcast S512x1 (Scalar.ofBits (F := Ideal) .f32 0x3F800000#32)) (shapeCast S512x1 (multiReduction .add [1] S512 ex 0x00000000#32 reduces_S512x2048_S512 (.inl rfl) rfl) shapeCasts_S512_S512x1)) broadcasts_S512x1_S512x2048)) bitsLt_bf16_f32

theorem k3_pay1_eq (m : IVec S512x2048 32) (q : FVec Ideal S512x64 .bf16) (k v : FVec Ideal S2048x64 .bf16) :
    k3_pay1 (F := Ideal) m q k v
      = truncf .bf16 (matmul dot_S512x2048_S2048x64_S512x64_1_0_0_1_n_n none (softBlock (expBlock (scoreBlock m q k))) v (constant (F := Ideal) S512x64 .f32 0x00000000#32)) bitsLt_bf16_f32 := rfl

theorem scoreBlock_apply (m : IVec S512x2048 32) (q : FVec Ideal S512x64 .bf16) (k : FVec Ideal S2048x64 .bf16) (p : Fin 512) (j : Fin 2048) :
    scoreBlock m q k (ix2 p j)
      = Scalar.select (IntOp.cmpi .eq (m (ix2 p j)) 0#32) Cert.Spec.negBig ((∑ e : Fin 64, q (ix2 p e) * k (ix2 j e)) * Cert.Spec.eighth) := by
  unfold scoreBlock Cert.Spec.negBig Cert.Spec.eighth
  show Scalar.select (IntOp.cmpi .eq (m (ix2 p j)) 0#32) (Ideal.ofBits .f32 0xCE6E6B28#32)
    (matmul dot_S512x64_S2048x64_S512x2048_1_1_0_0_n_n none q k (constant (F := Ideal) S512x2048 .f32 0x00000000#32) (ix2 p j) * Ideal.ofBits .f32 0x3E000000#32) = _
  rw [matmul_qk_apply]

theorem expBlock_apply (sc : FVec Ideal S512x2048 .f32) (p : Fin 512) (j : Fin 2048) :
    expBlock sc (ix2 p j) = Ideal.exp (sc (ix2 p j) - Cert.Spec.rowMax (fun j' : Fin 2048 => sc (ix2 p j'))) := by
  have e : broadcastTo S512x2048 (shapeCast S512x1 (multiReduction (F := Ideal) .maximumf [1] S512 sc 0xFF800000#32 reduces_S512x2048_S512 (.inl rfl) rfl) shapeCasts_S512_S512x1) broadcasts_S512x1_S512x2048 (ix2 p j)
      = Cert.Spec.rowMax (fun j' : Fin 2048 => sc (ix2 p j')) :=
    (Cert.LibVecRows.broadcastTo_col_apply _ _ p j).trans ((Cert.LibVecRows.shapeCast_col_apply _ _ p 0).trans (rowMax_apply sc _ _ _ p))
  unfold expBlock
  show Ideal.exp (sc (ix2 p j) - broadcastTo S512x2048 (shapeCast S512x1 (multiReduction (F := Ideal) .maximumf [1] S512 sc 0xFF800000#32 reduces_S512x2048_S512 (.inl rfl) rfl) shapeCasts_S512_S512x1) broadcasts_S512x1_S512x2048 (ix2 p j)) = _
  rw [e]

theorem softBlock_apply (ex : FVec Ideal S512x2048 .f32) (p : Fin 512) (j : Fin 2048) :
    softBlock ex (ix2 p j) = ex (ix2 p j) * Ideal.div Cert.Spec.oneF (∑ j' : Fin 2048, ex (ix2 p j')) := by
  have e1 : shapeCast S512x1 (multiReduction (F := Ideal) .add [1] S512 ex 0x00000000#32 reduces_S512x2048_S512 (.inl rfl) rfl) shapeCasts_S512_S512x1 (ix2 p (0 : Fin 1))
      = ∑ j' : Fin 2048, ex (ix2 p j') :=
    (Cert.LibVecRows.shapeCast_col_apply _ _ p 0).trans (Cert.LibVecRows.multiReduction_rows_apply ex _ _ _ _ p)
  have e : broadcastTo S512x2048 (divf (broadcast S512x1 (Scalar.ofBits (F := Ideal) .f32 0x3F800000#32)) (shapeCast S512x1 (multiReduction (F := Ideal) .add [1] S512 ex 0x00000000#32 reduces_S512x2048_S512 (.inl rfl) rfl) shapeCasts_S512_S512x1)) broadcasts_S512x1_S512x2048 (ix2 p j)
      = Ideal.div Cert.Spec.oneF (∑ j' : Fin 2048, ex (ix2 p j')) := by
    refine (Cert.LibVecRows.broadcastTo_col_apply _ _ p j).trans ?_
    unfold Cert.Spec.oneF
    show Ideal.div (Ideal.ofBits .f32 0x3F800000#32) (shapeCast S512x1 (multiReduction (F := Ideal) .add [1] S512 ex 0x00000000#32 reduces_S512x2048_S512 (.inl rfl) rfl) shapeCasts_S512_S512x1 (ix2 p (0 : Fin 1))) = _
    rw [e1]
  unfold softBlock
  show ex (ix2 p j) * broadcastTo S512x2048 (divf (broadcast S512x1 (Scalar.ofBits (F := Ideal) .f32 0x3F800000#32)) (shapeCast S512x1 (multiReduction (F := Ideal) .add [1] S512 ex 0x00000000#32 reduces_S512x2048_S512 (.inl rfl) rfl) shapeCasts_S512_S512x1)) broadcasts_S512x1_S512x2048 (ix2 p j) = _
  rw [e]

/-! ## One head at an index -/

/-- The head's output at row `p` and feature `d`: the softmax of row `p`'s masked scaled scores against the 2048 keys,
    combined with column `d` of the value rows. -/
theorem k3_pay1_apply (m : IVec S512x2048 32) (q : FVec Ideal S512x64 .bf16) (k v : FVec Ideal S2048x64 .bf16) (p : Fin 512) (d : Fin 64) :
    k3_pay1 (F := Ideal) m q k v (ix2 p d)
      = ∑ j : Fin 2048,
          Cert.Spec.softK (fun j' : Fin 2048 =>
            Scalar.select (IntOp.cmpi .eq (m (ix2 p j')) 0#32) Cert.Spec.negBig
              ((∑ e : Fin 64, q (ix2 p e) * k (ix2 j' e)) * Cert.Spec.eighth)) j
            * v (ix2 j d) := by
  rw [k3_pay1_eq, truncf_apply, matmul_pv_apply]
  refine Finset.sum_congr rfl fun j _ => ?_
  rw [softBlock_apply]
  unfold Cert.Spec.softK
  simp only [expBlock_apply, scoreBlock_apply]

end Cert.KernelIdeal.Att3PayHead

end
-- ==== Proof.Att3Pay.lean ====
import proofs.«424697_j28982439313762_3_alg».proof.Proof.Gen.KernelIdeal.Frame
import proofs.«424697_j28982439313762_3_alg».proof.Proof.AttnSpec
import proofs.«424697_j28982439313762_3_alg».proof.Proof.LibVecRows
import proofs.«424697_j28982439313762_3_alg».proof.Proof.Att3PayHead
import Idealize.ShloMosaic.Lib.Pipeline.Value
import Idealize.ShloMosaic.Lib.ValueLayout

set_option maxRecDepth 16384

noncomputable section

namespace Cert.KernelIdeal.Att3Pay

open Idealize.ShloMosaic Idealize.ShloMosaic.TcCoe Idealize.ShloMosaic.ValueIdx Idealize.SL.Sem
open Cert.KernelIdeal Cert.KernelIdeal.Gen

/-- Feature `d` of the head (one of the block's two) that the block's column `c` belongs to. -/
def headCol (c : Fin 128) (d : Fin 64) : Fin 128 := ⟨c.val / 64 * 64 + d.val, by have := c.isLt; have := d.isLt; omega⟩

/-- One grid point's attention on its blocks: for query row `p` of the 512-row block and column `c` of the block's
    128 (two heads of 64 features), the scores against the 2048 key rows over the features of `c`'s head, scaled and
    masked, their softmax, and the weights' combination of the value rows at column `c`. -/
def blockAtt (x0 : Vec Ideal S512x128 .bf16) (x1 x2 : Vec Ideal S2048x128 .bf16) (x3 : Vec Ideal S1x1x512x2048 .i32)
    (p : Fin 512) (c : Fin 128) : EReal :=
  ∑ j : Fin 2048,
    Cert.Spec.softK (fun j' : Fin 2048 =>
      Scalar.select (IntOp.cmpi .eq (x3 (ix4 (0 : Fin 1) (0 : Fin 1) p j')) 0#32) Cert.Spec.negBig
        ((∑ d : Fin 64, x0 (ix2 p (headCol c d)) * x1 (ix2 j' (headCol c d))) * Cert.Spec.eighth)) j
      * x2 (ix2 j c)

/-! ## The body's layout operations read at an index -/

/-- Sixty-four columns from column `o` of an `a × 128` block, read at row `p` and feature `e`. -/
theorem slice_cols_apply {a : ℕ} {α : Type} (o : ℕ) (ho : o + 64 ≤ 128) (x : (⟨2, ![a, 128]⟩ : Shape).Idx → α)
    (h : (⟨2, ![a, 128]⟩ : Shape).Slices ![0, o] ⟨2, ![a, 64]⟩) (p : Fin a) (e : Fin 64) :
    extractStridedSlice ⟨2, ![a, 64]⟩ ![0, o] x h (ix2 p e) = x (ix2 p ⟨o + e.val, by have := e.isLt; omega⟩) := by
  refine extractStridedSlice_apply _ x h (ix2 p e) _ fun ax => ?_
  match ax with
  | ⟨0, _⟩ => exact (Nat.zero_add p.val).symm
  | ⟨1, _⟩ => rfl

/-- The mask block with its two unit axes dropped, read at row `p` and key `j`. -/
theorem mask_apply (x3 : Vec Ideal S1x1x512x2048 .i32) (p : Fin 512) (j : Fin 2048) :
    k3_pay2 (F := Ideal) x3 (ix2 p j) = x3 (ix4 (0 : Fin 1) (0 : Fin 1) p j) := by
  unfold k3_pay2
  refine shapeCast_apply x3 _ (ix2 p j) (ix4 (0 : Fin 1) (0 : Fin 1) p j) ?_
  rw [Shape.rowMajor_val_four, Shape.rowMajor_val_two]
  show ((0 * 1 + 0) * 512 + p.val) * 2048 + j.val = p.val * 2048 + j.val
  omega

theorem q_apply (o : ℕ) (ho : o + 64 ≤ 128) (x0 : Vec Ideal S512x128 .bf16) (h : S512x128.Slices ![0, o] S512x64) (p : Fin 512) (e : Fin 64) :
    extractStridedSlice S512x64 ![0, o] (k3_pay3 (F := Ideal) x0) h (ix2 p e) = x0 (ix2 p ⟨o + e.val, by have := e.isLt; omega⟩) := by
  unfold k3_pay3
  rw [shapeCast_self]
  exact slice_cols_apply o ho x0 h p e

theorem k_apply (o : ℕ) (ho : o + 64 ≤ 128) (x1 : Vec Ideal S2048x128 .bf16) (h : S2048x128.Slices ![0, o] S2048x64) (j : Fin 2048) (e : Fin 64) :
    extractStridedSlice S2048x64 ![0, o] (k3_pay4 (F := Ideal) x1) h (ix2 j e) = x1 (ix2 j ⟨o + e.val, by have := e.isLt; omega⟩) := by
  unfold k3_pay4
  rw [shapeCast_self]
  exact slice_cols_apply o ho x1 h j e

theorem v_apply (o : ℕ) (ho : o + 64 ≤ 128) (x2 : Vec Ideal S2048x128 .bf16) (h : S2048x128.Slices ![0, o] S2048x64) (j : Fin 2048) (e : Fin 64) :
    extractStridedSlice S2048x64 ![0, o] (k3_pay5 (F := Ideal) x2) h (ix2 j e) = x2 (ix2 j ⟨o + e.val, by have := e.isLt; omega⟩) := by
  unfold k3_pay5
  rw [shapeCast_self]
  exact slice_cols_apply o ho x2 h j e

/-! ## One head of the body is the block's attention on that head's columns -/

/-- A head whose mask, queries, keys and values are the blocks' entries at column offset `o` (0 or 64) computes the
    block's attention at column `o + d`. -/
theorem head_eq_blockAtt (x0 : Vec Ideal S512x128 .bf16) (x1 x2 : Vec Ideal S2048x128 .bf16) (x3 : Vec Ideal S1x1x512x2048 .i32)
    (o : ℕ) (ho : o + 64 ≤ 128) (ho' : o / 64 * 64 = o)
    (m : IVec S512x2048 32) (q : FVec Ideal S512x64 .bf16) (k v : FVec Ideal S2048x64 .bf16)
    (hm : ∀ (p : Fin 512) (j : Fin 2048), m (ix2 p j) = x3 (ix4 (0 : Fin 1) (0 : Fin 1) p j))
    (hq : ∀ (p : Fin 512) (e : Fin 64), q (ix2 p e) = x0 (ix2 p ⟨o + e.val, by have := e.isLt; omega⟩))
    (hk : ∀ (j : Fin 2048) (e : Fin 64), k (ix2 j e) = x1 (ix2 j ⟨o + e.val, by have := e.isLt; omega⟩))
    (hv : ∀ (j : Fin 2048) (e : Fin 64), v (ix2 j e) = x2 (ix2 j ⟨o + e.val, by have := e.isLt; omega⟩))
    (p : Fin 512) (d : Fin 64) :
    k3_pay1 (F := Ideal) m q k v (ix2 p d) = blockAtt x0 x1 x2 x3 p ⟨o + d.val, by have := d.isLt; omega⟩ := by
  rw [Cert.KernelIdeal.Att3PayHead.k3_pay1_apply]
  unfold blockAtt
  have hc : ∀ e : Fin 64, headCol ⟨o + d.val, by have := d.isLt; omega⟩ e = ⟨o + e.val, by have := e.isLt; omega⟩ := fun e =>
    Fin.ext (by
      show (o + d.val) / 64 * 64 + e.val = o + e.val
      have := d.isLt
      omega)
  simp only [hm, hq, hk, hv, hc]

/-- The first head's store is the second head's arithmetic on the columns from 0. -/
theorem k3_pay6_eq (x0 : Vec Ideal S512x128 .bf16) (x1 x2 : Vec Ideal S2048x128 .bf16) (x3 : Vec Ideal S1x1x512x2048 .i32) :
    k3_pay6 (F := Ideal) x3 x0 x1 x2
      = k3_pay1 (F := Ideal) (k3_pay2 x3) (extractStridedSlice S512x64 ![0, 0] (k3_pay3 x0) slices_S512x128_o0_0_S512x64)
          (extractStridedSlice S2048x64 ![0, 0] (k3_pay4 x1) slices_S2048x128_o0_0_S2048x64)
          (extractStridedSlice S2048x64 ![0, 0] (k3_pay5 x2) slices_S2048x128_o0_0_S2048x64) := rfl

theorem head0_apply (x0 : Vec Ideal S512x128 .bf16) (x1 x2 : Vec Ideal S2048x128 .bf16) (x3 : Vec Ideal S1x1x512x2048 .i32)
    (p : Fin 512) (d : Fin 64) :
    k3_pay6 (F := Ideal) x3 x0 x1 x2 (ix2 p d) = blockAtt x0 x1 x2 x3 p ⟨0 + d.val, by have := d.isLt; omega⟩ := by
  rw [k3_pay6_eq]
  exact head_eq_blockAtt x0 x1 x2 x3 0 (by omega) (by omega) _ _ _ _ (mask_apply x3) (q_apply 0 (by omega) x0 _) (k_apply 0 (by omega) x1 _) (v_apply 0 (by omega) x2 _) p d

theorem head1_apply (x0 : Vec Ideal S512x128 .bf16) (x1 x2 : Vec Ideal S2048x128 .bf16) (x3 : Vec Ideal S1x1x512x2048 .i32)
    (p : Fin 512) (d : Fin 64) :
    k3_pay1 (F := Ideal) (k3_pay2 x3) (k3_pay7 x0) (k3_pay8 x1) (k3_pay9 x2) (ix2 p d) = blockAtt x0 x1 x2 x3 p ⟨64 + d.val, by have := d.isLt; omega⟩ := by
  unfold k3_pay7 k3_pay8 k3_pay9
  exact head_eq_blockAtt x0 x1 x2 x3 64 (by omega) (by omega) _ _ _ _ (mask_apply x3) (q_apply 64 (by omega) x0 _) (k_apply 64 (by omega) x1 _) (v_apply 64 (by omega) x2 _) p d

/-! ## The two stores as blocks of one function of the output block's index -/

theorem zeros2 : (![0, 0] : Fin 2 → Nat) = fun _ => 0 := funext fun a => by
  match a with
  | ⟨0, _⟩ => rfl
  | ⟨1, _⟩ => rfl

theorem zeros4 : (![0, 0, 0, 0] : Fin 4 → Nat) = fun _ => 0 := funext fun a => by
  match a with
  | ⟨0, _⟩ => rfl
  | ⟨1, _⟩ => rfl
  | ⟨2, _⟩ => rfl
  | ⟨3, _⟩ => rfl

/-- The second head's store sits at columns 64–127 of the output block. -/
theorem store1_apply (x0 : Vec Ideal S512x128 .bf16) (x1 x2 : Vec Ideal S2048x128 .bf16) (x3 : Vec Ideal S1x1x512x2048 .i32)
    (x : S512x64.Idx) :
    k3_pay1 (F := Ideal) (k3_pay2 x3) (k3_pay7 x0) (k3_pay8 x1) (k3_pay9 x2) x
      = blockAtt x0 x1 x2 x3 (r3_4.emb x 0) (r3_4.emb x 1) := by
  obtain ⟨p', d, rfl⟩ : ∃ (p' : Fin 512) (d : Fin 64), x = ix2 p' d := ⟨x 0, x 1, eq_ix2 x⟩
  have e0 : p' = r3_4.emb (ix2 p' d) 0 := Fin.ext (by show p'.val = 0 + 1 * p'.val; omega)
  have e1 : (⟨64 + d.val, by have := d.isLt; omega⟩ : Fin 128) = r3_4.emb (ix2 p' d) 1 :=
    Fin.ext (by show 64 + d.val = 64 + 1 * d.val; omega)
  exact (head1_apply x0 x1 x2 x3 p' d).trans (congrArg₂ (blockAtt x0 x1 x2 x3) e0 e1)

/-- The first head's store sits at columns 0–63. -/
theorem store0_apply (x0 : Vec Ideal S512x128 .bf16) (x1 x2 : Vec Ideal S2048x128 .bf16) (x3 : Vec Ideal S1x1x512x2048 .i32)
    (x : S512x64.Idx) :
    k3_pay6 (F := Ideal) x3 x0 x1 x2 x
      = blockAtt x0 x1 x2 x3 (r3_3.emb x 0) (r3_3.emb x 1) := by
  obtain ⟨p', d, rfl⟩ : ∃ (p' : Fin 512) (d : Fin 64), x = ix2 p' d := ⟨x 0, x 1, eq_ix2 x⟩
  have e0 : p' = r3_3.emb (ix2 p' d) 0 := Fin.ext (by show p'.val = 0 + 1 * p'.val; omega)
  have e1 : (⟨0 + d.val, by have := d.isLt; omega⟩ : Fin 128) = r3_3.emb (ix2 p' d) 1 :=
    Fin.ext (by show 0 + d.val = 0 + 1 * d.val; omega)
  exact (head0_apply x0 x1 x2 x3 p' d).trans (congrArg₂ (blockAtt x0 x1 x2 x3) e0 e1)

/-- What the body leaves in the output block, read at row `p` and column `c`: the first head's store covers columns
    0–63 and the second head's columns 64–127, and each is that point's attention at its column. -/
theorem out3_4_apply (x0 : Vec Ideal S512x128 .bf16) (x1 x2 : Vec Ideal S2048x128 .bf16) (x3 : Vec Ideal S1x1x512x2048 .i32)
    (p : Fin 512) (c : Fin 128) :
    out3_4 (F := Ideal) x0 x1 x2 x3 (ix2 p c) = blockAtt x0 x1 x2 x3 p c := by
  unfold out3_4
  simp only [View.ld_unit_zero (S := S1x1x512x2048) zeros4, View.ld_unit_zero (S := S512x128) zeros2, View.ld_unit_zero (S := S2048x128) zeros2]
  -- Both stores are blocks of one function of the output block's index, and together they cover the block.
  refine View.canon_apply_of_pieces (Val := Elt Ideal) (S := S512x128) (e := .bf16) (fun y : S512x128.Idx => blockAtt x0 x1 x2 x3 (y 0) (y 1)) _ ?_ (ix2 p c) (cover3_4 _ _ _)
  refine List.forall_mem_cons.mpr ⟨?_, List.forall_mem_cons.mpr ⟨?_, fun _ h => absurd h List.not_mem_nil⟩⟩
  · exact store1_apply x0 x1 x2 x3
  · exact store0_apply x0 x1 x2 x3

end Cert.KernelIdeal.Att3Pay

end
-- ==== Proof.Att3.lean ====
/-
  From the attention region's blocks to its whole output array.

  The grid's point (b, qi, hp) works on the 512 query rows b·2048 + qi·512 … of batch b and the 128 columns of the head
  pair hp; its output block has index (i0, i1) = (b·4 + qi, hp).  Row r = i0·512 + p of the flat layout is in batch
  r / 2048 = i0 / 4 at position r % 2048 = (i0 % 4)·512 + p, so the point's key and value blocks (index (i0 / 4, i1))
  hold exactly the rows of r's batch, its mask block (index (i0 / 4, 0, i0 % 4, 0)) the mask rows of the block's query
  positions, and the feature d of column i1·128 + q's head sits at block column q / 64 · 64 + d.  Hence each point's
  block attention is the array's attention at the point's rows and columns; the output blocks tile the 8192 × 1024
  array, so the array ends holding the attention output everywhere.
-/
import proofs.«424697_j28982439313762_3_alg».proof.Proof.Gen.KernelIdeal.Frame
import proofs.«424697_j28982439313762_3_alg».proof.Proof.Gen.KernelIdeal.Points
import proofs.«424697_j28982439313762_3_alg».proof.Proof.AttnSpec
import proofs.«424697_j28982439313762_3_alg».proof.Proof.Att3Pay
import Idealize.ShloMosaic.Lib.Pipeline.Value

set_option maxRecDepth 16384

noncomputable section

namespace Cert.KernelIdeal.Att3

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The index maps over the grid: with (i0, i1) the output block's index at a point, the query block's index is
    (i0, i1), the key and value blocks' (i0 / 4, i1), the mask block's (i0 / 4, 0, i0 % 4, 0), and i0 < 16, i1 < 8. -/
theorem idx_rel : ∀ t : Fin cfg3.N,
    win3_0.index t (0 : Fin 2) = win3_4.index t (0 : Fin 2)
    ∧ win3_0.index t (1 : Fin 2) = win3_4.index t (1 : Fin 2)
    ∧ win3_1.index t (0 : Fin 2) = win3_4.index t (0 : Fin 2) / 4
    ∧ win3_1.index t (1 : Fin 2) = win3_4.index t (1 : Fin 2)
    ∧ win3_2.index t (0 : Fin 2) = win3_4.index t (0 : Fin 2) / 4
    ∧ win3_2.index t (1 : Fin 2) = win3_4.index t (1 : Fin 2)
    ∧ win3_3.index t (0 : Fin 4) = win3_4.index t (0 : Fin 2) / 4
    ∧ win3_3.index t (1 : Fin 4) = 0
    ∧ win3_3.index t (2 : Fin 4) = win3_4.index t (0 : Fin 2) % 4
    ∧ win3_3.index t (3 : Fin 4) = 0
    ∧ win3_4.index t (0 : Fin 2) < 16
    ∧ win3_4.index t (1 : Fin 2) < 8 :=
  (by decide +kernel : ∀ t : Fin grid3.N, _)

/-- Every output block index (q0, q1) with q0 < 16 and q1 < 8 is some point's. -/
theorem idx_onto : ∀ (q0 : Fin 16) (q1 : Fin 8), ∃ t : Fin cfg3.N, win3_4.index t = ![q0.val, q1.val] :=
  (by decide +kernel : ∀ (q0 : Fin 16) (q1 : Fin 8), ∃ t : Fin grid3.N, win3_4.index t = ![q0.val, q1.val])

/-- One grid point's attention is the array's attention at the point's rows and columns, when each of the point's
    blocks holds its part of its array: queries at block (i0, i1), keys and values at (i0 / 4, i1), the mask at
    (i0 / 4, 0, i0 % 4, 0). -/
theorem blockAtt_eq_attK (Q K W : Cert.Spec.Mat 8192 1024) (M : Cert.Spec.MaskT)
    (x0 : Vec Ideal S512x128 .bf16) (x1 x2 : Vec Ideal S2048x128 .bf16) (x3 : Vec Ideal S1x1x512x2048 .i32)
    (i0 i1 : Nat) (h0 : i0 < 16) (h1 : i1 < 8)
    (hx0 : ∀ (p : Fin 512) (q : Fin 128) (r : Fin 8192) (e : Fin 1024), r.val = i0 * 512 + p.val → e.val = i1 * 128 + q.val →
      x0 (ix2 p q) = Q (ix2 r e))
    (hx1 : ∀ (j : Fin 2048) (q : Fin 128) (r : Fin 8192) (e : Fin 1024), r.val = i0 / 4 * 2048 + j.val → e.val = i1 * 128 + q.val →
      x1 (ix2 j q) = K (ix2 r e))
    (hx2 : ∀ (j : Fin 2048) (q : Fin 128) (r : Fin 8192) (e : Fin 1024), r.val = i0 / 4 * 2048 + j.val → e.val = i1 * 128 + q.val →
      x2 (ix2 j q) = W (ix2 r e))
    (hx3 : ∀ (p : Fin 512) (j : Fin 2048) (b : Fin 4) (s : Fin 2048), b.val = i0 / 4 → s.val = i0 % 4 * 512 + p.val →
      x3 (ix4 (0 : Fin 1) (0 : Fin 1) p j) = M (ix4 b (0 : Fin 1) s j))
    (p : Fin 512) (q : Fin 128) (r : Fin 8192) (e : Fin 1024) (hr : r.val = i0 * 512 + p.val) (he : e.val = i1 * 128 + q.val) :
    Att3Pay.blockAtt x0 x1 x2 x3 p q = Cert.Spec.attK Q K W M (ix2 r e) := by
  have hp := p.isLt
  have hq := q.isLt
  unfold Att3Pay.blockAtt Cert.Spec.attK
  show _ = ∑ j : Fin 2048, Cert.Spec.softK (Cert.Spec.scoreK Q K M r e) j * W (ix2 (Cert.Spec.rowIn r j) e)
  refine Finset.sum_congr rfl fun j _ => ?_
  have hj := j.isLt
  have hW : x2 (ix2 j q) = W (ix2 (Cert.Spec.rowIn r j) e) :=
    hx2 j q _ _ (by show r.val / 2048 * 2048 + j.val = _; omega) he
  rw [hW]
  refine congrArg (fun s => Cert.Spec.softK s j * W (ix2 (Cert.Spec.rowIn r j) e)) ?_
  funext j'
  have hj' := j'.isLt
  unfold Cert.Spec.scoreK Cert.Spec.rawScore Cert.Spec.maskAt
  have hM : x3 (ix4 (0 : Fin 1) (0 : Fin 1) p j') = M (ix4 (Cert.Spec.batchOf r) (0 : Fin 1) (Cert.Spec.posOf r) j') :=
    hx3 p j' _ _ (by show r.val / 2048 = _; omega) (by show r.val % 2048 = _; omega)
  rw [hM]
  refine congrArg (fun s => Scalar.select (IntOp.cmpi .eq (M (ix4 (Cert.Spec.batchOf r) (0 : Fin 1) (Cert.Spec.posOf r) j')) 0#32) Cert.Spec.negBig (s * Cert.Spec.eighth)) ?_
  refine Finset.sum_congr rfl fun d _ => ?_
  have hd := d.isLt
  have hQ : x0 (ix2 p (Att3Pay.headCol q d)) = Q (ix2 r (Cert.Spec.colIn e d)) :=
    hx0 p _ _ _ hr (by show e.val / 64 * 64 + d.val = i1 * 128 + (q.val / 64 * 64 + d.val); omega)
  have hK : x1 (ix2 j' (Att3Pay.headCol q d)) = K (ix2 (Cert.Spec.rowIn r j') (Cert.Spec.colIn e d)) :=
    hx1 j' _ _ _ (by show r.val / 2048 * 2048 + j'.val = _; omega)
      (by show e.val / 64 * 64 + d.val = i1 * 128 + (q.val / 64 * 64 + d.val); omega)
  rw [hQ, hK]

/-- The query block of point `t`, read at row `p` and column `q`, is the query array at the output block's rows and columns. -/
theorem blk0_read (c : Dev nD) (t : Fin cfg3.N) (p : Fin 512) (q : Fin 128) (r : Fin 8192) (e : Fin 1024)
    (hr : r.val = win3_4.index t (0 : Fin 2) * 512 + p.val) (he : e.val = win3_4.index t (1 : Fin 2) * 128 + q.val) :
    iblk3 V c 0 t (ix2 p q) = V c main_v7 (ix2 r e) := by
  obtain ⟨e0, e1, -⟩ := idx_rel t
  show V c main_v7 (((cfg3.win 0).blk t).view.emb (ix2 p q)) = V c main_v7 (ix2 r e)
  refine congrArg (V c main_v7) ?_
  funext a; apply Fin.ext
  match a with
  | ⟨0, _⟩ => show win3_0.index t (0 : Fin 2) * 512 + 1 * p.val = r.val; omega
  | ⟨1, _⟩ => show win3_0.index t (1 : Fin 2) * 128 + 1 * q.val = e.val; omega

/-- The key block of point `t` is the key array at the rows of the output block's batch and at its columns. -/
theorem blk1_read (c : Dev nD) (t : Fin cfg3.N) (j : Fin 2048) (q : Fin 128) (r : Fin 8192) (e : Fin 1024)
    (hr : r.val = win3_4.index t (0 : Fin 2) / 4 * 2048 + j.val) (he : e.val = win3_4.index t (1 : Fin 2) * 128 + q.val) :
    iblk3 V c 1 t (ix2 j q) = V c main_v8 (ix2 r e) := by
  obtain ⟨-, -, e2, e3, -⟩ := idx_rel t
  show V c main_v8 (((cfg3.win 1).blk t).view.emb (ix2 j q)) = V c main_v8 (ix2 r e)
  refine congrArg (V c main_v8) ?_
  funext a; apply Fin.ext
  match a with
  | ⟨0, _⟩ => show win3_1.index t (0 : Fin 2) * 2048 + 1 * j.val = r.val; omega
  | ⟨1, _⟩ => show win3_1.index t (1 : Fin 2) * 128 + 1 * q.val = e.val; omega

/-- The value block of point `t` is the value array at the same rows and columns as the key block. -/
theorem blk2_read (c : Dev nD) (t : Fin cfg3.N) (j : Fin 2048) (q : Fin 128) (r : Fin 8192) (e : Fin 1024)
    (hr : r.val = win3_4.index t (0 : Fin 2) / 4 * 2048 + j.val) (he : e.val = win3_4.index t (1 : Fin 2) * 128 + q.val) :
    iblk3 V c 2 t (ix2 j q) = V c main_v9 (ix2 r e) := by
  obtain ⟨-, -, -, -, e4, e5, -⟩ := idx_rel t
  show V c main_v9 (((cfg3.win 2).blk t).view.emb (ix2 j q)) = V c main_v9 (ix2 r e)
  refine congrArg (V c main_v9) ?_
  funext a; apply Fin.ext
  match a with
  | ⟨0, _⟩ => show win3_2.index t (0 : Fin 2) * 2048 + 1 * j.val = r.val; omega
  | ⟨1, _⟩ => show win3_2.index t (1 : Fin 2) * 128 + 1 * q.val = e.val; omega

/-- The mask block of point `t` is the mask of the output block's batch at the output block's query positions. -/
theorem blk3_read (c : Dev nD) (t : Fin cfg3.N) (p : Fin 512) (j : Fin 2048) (b : Fin 4) (s : Fin 2048)
    (hb : b.val = win3_4.index t (0 : Fin 2) / 4) (hs : s.val = win3_4.index t (0 : Fin 2) % 4 * 512 + p.val) :
    iblk3 V c 3 t (ix4 (0 : Fin 1) (0 : Fin 1) p j) = V c main_arg3 (ix4 b (0 : Fin 1) s j) := by
  obtain ⟨-, -, -, -, -, -, e6, e7, e8, e9, -⟩ := idx_rel t
  show V c main_arg3 (((cfg3.win 3).blk t).view.emb (ix4 (0 : Fin 1) (0 : Fin 1) p j)) = V c main_arg3 (ix4 b (0 : Fin 1) s j)
  refine congrArg (V c main_arg3) ?_
  funext a; apply Fin.ext
  match a with
  | ⟨0, _⟩ => show win3_3.index t (0 : Fin 4) * 1 + 1 * 0 = b.val; omega
  | ⟨1, _⟩ => show win3_3.index t (1 : Fin 4) * 1 + 1 * 0 = 0; omega
  | ⟨2, _⟩ => show win3_3.index t (2 : Fin 4) * 512 + 1 * p.val = s.val; omega
  | ⟨3, _⟩ => show win3_3.index t (3 : Fin 4) * 2048 + 1 * j.val = j.val; omega

/-- The output block of point `t` at row `p` and column `q` is the attention output of the arrays at the array
    coordinates of that entry. -/
theorem point_eq (c : Dev nD) (t : Fin cfg3.N) (p : Fin 512) (q : Fin 128) (r : Fin 8192) (e : Fin 1024)
    (hr : r.val = win3_4.index t (0 : Fin 2) * 512 + p.val) (he : e.val = win3_4.index t (1 : Fin 2) * 128 + q.val) :
    out3_4 (F := Ideal) (iblk3 V c 0 t) (iblk3 V c 1 t) (iblk3 V c 2 t) (iblk3 V c 3 t) (ix2 p q)
      = Cert.Spec.attK (V c main_v7) (V c main_v8) (V c main_v9) (V c main_arg3) (ix2 r e) := by
  obtain ⟨-, -, -, -, -, -, -, -, -, -, l0, l1⟩ := idx_rel t
  refine (Att3Pay.out3_4_apply (iblk3 V c 0 t) (iblk3 V c 1 t) (iblk3 V c 2 t) (iblk3 V c 3 t) p q).trans ?_
  exact blockAtt_eq_attK (V c main_v7) (V c main_v8) (V c main_v9) (V c main_arg3)
    (iblk3 V c 0 t) (iblk3 V c 1 t) (iblk3 V c 2 t) (iblk3 V c 3 t)
    (win3_4.index t (0 : Fin 2)) (win3_4.index t (1 : Fin 2)) l0 l1
    (fun p q r e hr he => blk0_read V c t p q r e hr he)
    (fun j q r e hr he => blk1_read V c t j q r e hr he)
    (fun j q r e hr he => blk2_read V c t j q r e hr he)
    (fun p j b s hb hs => blk3_read V c t p j b s hb hs)
    p q r e hr he

/-- What point `t` writes back is its block of the attention output of the arrays as the region finds them. -/
theorem flushed_eq (c : Dev nD) (t : Fin cfg3.N) :
    (dat3 (F := Ideal) V c).flushed 4 t = ((cfg3.win 4).blk t).view.read (Elt Ideal)
      (Cert.Spec.attK (V c main_v7) (V c main_v8) (V c main_v9) (V c main_arg3)) := by
  show (cfg3.win 4).cut (grid3.coords t) ((dat3 (F := Ideal) V c).after 4 t) = _
  rw [after3_4]
  obtain ⟨-, -, -, -, -, -, -, -, -, -, l0, l1⟩ := idx_rel t
  funext y
  have hp : (y 0).val < 512 := (y 0).isLt
  have hq : (y 1).val < 128 := (y 1).isLt
  have hin : (cfg3.win 4).xinj (grid3.coords t) y = ix2 (⟨(y 0).val, hp⟩ : Fin 512) (⟨(y 1).val, hq⟩ : Fin 128) := by
    funext a
    match a with
    | ⟨0, _⟩ => rfl
    | ⟨1, _⟩ => rfl
  have hout : ((cfg3.win 4).blk t).view.emb y
      = ix2 (⟨win3_4.index t (0 : Fin 2) * 512 + (y 0).val, by omega⟩ : Fin 8192)
          (⟨win3_4.index t (1 : Fin 2) * 128 + (y 1).val, by omega⟩ : Fin 1024) := by
    funext a; apply Fin.ext
    match a with
    | ⟨0, _⟩ => show win3_4.index t (0 : Fin 2) * 512 + 1 * (y 0).val = win3_4.index t (0 : Fin 2) * 512 + (y 0).val; omega
    | ⟨1, _⟩ => show win3_4.index t (1 : Fin 2) * 128 + 1 * (y 1).val = win3_4.index t (1 : Fin 2) * 128 + (y 1).val; omega
  show out3_4 (F := Ideal) (iblk3 V c 0 t) (iblk3 V c 1 t) (iblk3 V c 2 t) (iblk3 V c 3 t) ((cfg3.win 4).xinj (grid3.coords t) y)
    = Cert.Spec.attK (V c main_v7) (V c main_v8) (V c main_v9) (V c main_arg3) (((cfg3.win 4).blk t).view.emb y)
  rw [hin, hout]
  exact point_eq V c t _ _ _ _ rfl rfl

/-- An index of the output array is in point `t`'s block iff each coordinate is in the block's range on its axis. -/
theorem mem_blk (t : Fin cfg3.N) (i : S8192x1024.Idx) :
    i ∈ ((cfg3.win 4).blk t).view.set ↔ ∀ a : Fin 2, win3_4.index t a * S512x128.size a ≤ (i a).val
      ∧ (i a).val < win3_4.index t a * S512x128.size a + S512x128.size a := by
  show i ∈ ((View.whole main_v10).slice (win3_4.rect t)).set ↔ _
  rw [View.set_slice_whole, Rect.mem_set_unit]
  exact Iff.rfl

/-- Every index of the output array is in the block of the point whose output block is (row / 512, column / 128). -/
theorem cover (i : S8192x1024.Idx) :
    ∃ t : Fin cfg3.N, (cfg3.win 4).flush t = true ∧ i ∈ ((cfg3.win 4).blk t).view.set := by
  have hi0 : (i 0).val < 8192 := (i 0).isLt
  have hi1 : (i 1).val < 1024 := (i 1).isLt
  obtain ⟨t, ht⟩ := idx_onto ⟨(i 0).val / 512, by omega⟩ ⟨(i 1).val / 128, by omega⟩
  have q0 : win3_4.index t (0 : Fin 2) = (i 0).val / 512 := congrFun ht 0
  have q1 : win3_4.index t (1 : Fin 2) = (i 1).val / 128 := congrFun ht 1
  refine ⟨t, flush3_4 t, ?_⟩
  rw [mem_blk]
  intro a
  match a with
  | ⟨0, _⟩ =>
    show win3_4.index t (0 : Fin 2) * 512 ≤ (i 0).val ∧ (i 0).val < win3_4.index t (0 : Fin 2) * 512 + 512
    omega
  | ⟨1, _⟩ =>
    show win3_4.index t (1 : Fin 2) * 128 ≤ (i 1).val ∧ (i 1).val < win3_4.index t (1 : Fin 2) * 128 + 128
    omega

/-- Region 3's output array after the region: the attention output of the projected queries, keys and values and
    the mask as the region finds them. -/
theorem final (c : Dev nD) :
    (dat3 (F := Ideal) V c).arrAt 4 cfg3.N = Cert.Spec.attK (V c main_v7) (V c main_v8) (V c main_v9) (V c main_arg3) :=
  (dat3 (F := Ideal) V c).arrAt_eq_of_cover 4 (Cert.Spec.attK (V c main_v7) (V c main_v8) (V c main_v9) (V c main_arg3))
    (fun t _ => flushed_eq V c t) cover

end Cert.KernelIdeal.Att3

end
-- ==== Proof.KernelValue.lean ====
import proofs.«424697_j28982439313762_3_alg».proof.Proof.Gen.KernelIdeal.Frame
import proofs.«424697_j28982439313762_3_alg».proof.Proof.AttnSpec
import proofs.«424697_j28982439313762_3_alg».proof.Proof.Lin0
import proofs.«424697_j28982439313762_3_alg».proof.Proof.Lin1
import proofs.«424697_j28982439313762_3_alg».proof.Proof.Lin2
import proofs.«424697_j28982439313762_3_alg».proof.Proof.Lin4
import proofs.«424697_j28982439313762_3_alg».proof.Proof.Att3
import proofs.«424697_j28982439313762_3_alg».proof.Proof.KernelRun
import Idealize.ShloMosaic.Lib.StableHlo.Run
import Idealize.ShloMosaic.Lib.Pipeline.Value

set_option maxRecDepth 16384

noncomputable section

namespace Cert.KernelIdeal.KValue

open Idealize.ShloMosaic Idealize.ShloMosaic.TcCoe Idealize.ShloMosaic.ValueIdx Idealize.SL.Sem
open Idealize.ShloMosaic.StableHlo
open Cert.KernelIdeal Cert.KernelIdeal.Gen

/-! ## The two reshapes: batch × position × feature read on the flat layout, and back -/

/-- Row `r` of the flat layout is batch `r / 2048`, position `r % 2048`. -/
theorem flat_eq (x : Cert.Spec.Cube) :
    shapeCast S8192x1024 x shapeCasts_S4x2048x1024_S8192x1024 = Cert.Spec.flat x := by
  funext i
  refine shapeCast_apply x _ i _ ?_
  rw [Shape.rowMajor_val_three, Shape.rowMajor_val_two]
  show ((i 0).val / 2048 * 2048 + (i 0).val % 2048) * 1024 + (i 1).val = (i 0).val * 1024 + (i 1).val
  have := Nat.div_add_mod' (i 0).val 2048
  omega

/-- Batch `b`, position `s` is row `b · 2048 + s` of the flat layout. -/
theorem unflat_eq (y : Cert.Spec.Mat 8192 1024) :
    shapeCast S4x2048x1024 y shapeCasts_S8192x1024_S4x2048x1024 = Cert.Spec.unflat y := by
  funext i
  refine shapeCast_apply y _ i _ ?_
  rw [Shape.rowMajor_val_three, Shape.rowMajor_val_two]
  rfl

variable (m : (ℓ : Loc nD τ sig) → Buf (Elt Ideal) ℓ) (ρ : Dev nD → PrngReg)

/-! ## The first host stretch: three reshapes and four format changes of the weights -/

theorem W1_v0 (c : Dev nD) : W1 m ρ c (Proc.devRef .tc main_v0) = Cert.Spec.flat (m ((c : Thread nD τ).loc main_arg0)) := by
  rw [← flat_eq]
  show StableHlo.after hostOps0 (W0 m ρ c) (Proc.devRef .tc main_v0) = _
  after_results; rfl
theorem W1_v1 (c : Dev nD) : W1 m ρ c (Proc.devRef .tc main_v1) = Cert.Spec.flat (m ((c : Thread nD τ).loc main_arg1)) := by
  rw [← flat_eq]
  show StableHlo.after hostOps0 (W0 m ρ c) (Proc.devRef .tc main_v1) = _
  after_results; rfl
theorem W1_v2 (c : Dev nD) : W1 m ρ c (Proc.devRef .tc main_v2) = Cert.Spec.flat (m ((c : Thread nD τ).loc main_arg2)) := by
  rw [← flat_eq]
  show StableHlo.after hostOps0 (W0 m ρ c) (Proc.devRef .tc main_v2) = _
  after_results; rfl
/-- A change of float format is the identity on extended reals. -/
theorem W1_v3 (c : Dev nD) : W1 m ρ c (Proc.devRef .tc main_v3) = (m ((c : Thread nD τ).loc main_arg4)) := by
  show StableHlo.after hostOps0 (W0 m ρ c) (Proc.devRef .tc main_v3) = _
  after_results; rfl
theorem W1_v4 (c : Dev nD) : W1 m ρ c (Proc.devRef .tc main_v4) = (m ((c : Thread nD τ).loc main_arg6)) := by
  show StableHlo.after hostOps0 (W0 m ρ c) (Proc.devRef .tc main_v4) = _
  after_results; rfl
theorem W1_v5 (c : Dev nD) : W1 m ρ c (Proc.devRef .tc main_v5) = (m ((c : Thread nD τ).loc main_arg8)) := by
  show StableHlo.after hostOps0 (W0 m ρ c) (Proc.devRef .tc main_v5) = _
  after_results; rfl
theorem W1_v6 (c : Dev nD) : W1 m ρ c (Proc.devRef .tc main_v6) = (m ((c : Thread nD τ).loc main_arg10)) := by
  show StableHlo.after hostOps0 (W0 m ρ c) (Proc.devRef .tc main_v6) = _
  after_results; rfl
/-- The stretch writes no argument. -/
theorem W1_arg3 (c : Dev nD) : W1 m ρ c (Proc.devRef .tc main_arg3) = (m ((c : Thread nD τ).loc main_arg3)) := by
  show StableHlo.after hostOps0 (W0 m ρ c) (Proc.devRef .tc main_arg3) = _
  after_results
theorem W1_arg5 (c : Dev nD) : W1 m ρ c (Proc.devRef .tc main_arg5) = (m ((c : Thread nD τ).loc main_arg5)) := by
  show StableHlo.after hostOps0 (W0 m ρ c) (Proc.devRef .tc main_arg5) = _
  after_results
theorem W1_arg7 (c : Dev nD) : W1 m ρ c (Proc.devRef .tc main_arg7) = (m ((c : Thread nD τ).loc main_arg7)) := by
  show StableHlo.after hostOps0 (W0 m ρ c) (Proc.devRef .tc main_arg7) = _
  after_results
theorem W1_arg9 (c : Dev nD) : W1 m ρ c (Proc.devRef .tc main_arg9) = (m ((c : Thread nD τ).loc main_arg9)) := by
  show StableHlo.after hostOps0 (W0 m ρ c) (Proc.devRef .tc main_arg9) = _
  after_results
theorem W1_arg11 (c : Dev nD) : W1 m ρ c (Proc.devRef .tc main_arg11) = (m ((c : Thread nD τ).loc main_arg11)) := by
  show StableHlo.after hostOps0 (W0 m ρ c) (Proc.devRef .tc main_arg11) = _
  after_results

/-! ## The three input projections: each region's output array, read at the later boundaries -/

/-- The projected queries as region 3 finds them. -/
theorem V4_v7 (c : Dev nD) : V4 m ρ c main_v7 = Cert.Spec.lin (Cert.Spec.flat (m ((c : Thread nD τ).loc main_arg0))) (m ((c : Thread nD τ).loc main_arg4)) (m ((c : Thread nD τ).loc main_arg5)) :=
  calc V4 m ρ c main_v7
    _ = W3 m ρ c (Proc.devRef .tc main_v7) := W4_of_ne m ρ c main_v7 (by decide)
    _ = W2 m ρ c (Proc.devRef .tc main_v7) := W3_of_ne m ρ c main_v7 (by decide)
    _ = (dat0 (V1 m ρ) c).arrAt 3 cfg0.N := W2_arr m ρ c 3
    _ = Cert.Spec.lin (V1 m ρ c main_v0) (V1 m ρ c main_v3) (V1 m ρ c main_arg5) := Cert.KernelIdeal.Lin0.final (V1 m ρ) c
    _ = _ := by rw [show V1 m ρ c main_v0 = _ from W1_v0 m ρ c, show V1 m ρ c main_v3 = _ from W1_v3 m ρ c, show V1 m ρ c main_arg5 = _ from W1_arg5 m ρ c]

/-- The projected keys as region 3 finds them. -/
theorem V4_v8 (c : Dev nD) : V4 m ρ c main_v8 = Cert.Spec.lin (Cert.Spec.flat (m ((c : Thread nD τ).loc main_arg1))) (m ((c : Thread nD τ).loc main_arg6)) (m ((c : Thread nD τ).loc main_arg7)) :=
  calc V4 m ρ c main_v8
    _ = W3 m ρ c (Proc.devRef .tc main_v8) := W4_of_ne m ρ c main_v8 (by decide)
    _ = (dat1 (V2 m ρ) c).arrAt 3 cfg1.N := W3_arr m ρ c 3
    _ = Cert.Spec.lin (V2 m ρ c main_v1) (V2 m ρ c main_v4) (V2 m ρ c main_arg7) := Cert.KernelIdeal.Lin1.final (V2 m ρ) c
    _ = _ := by
      rw [show V2 m ρ c main_v1 = _ from (W2_of_ne m ρ c main_v1 (by decide)).trans (W1_v1 m ρ c),
        show V2 m ρ c main_v4 = _ from (W2_of_ne m ρ c main_v4 (by decide)).trans (W1_v4 m ρ c),
        show V2 m ρ c main_arg7 = _ from (W2_of_ne m ρ c main_arg7 (by decide)).trans (W1_arg7 m ρ c)]

/-- The projected values as region 3 finds them. -/
theorem V4_v9 (c : Dev nD) : V4 m ρ c main_v9 = Cert.Spec.lin (Cert.Spec.flat (m ((c : Thread nD τ).loc main_arg2))) (m ((c : Thread nD τ).loc main_arg8)) (m ((c : Thread nD τ).loc main_arg9)) :=
  calc V4 m ρ c main_v9
    _ = (dat2 (V3 m ρ) c).arrAt 3 cfg2.N := W4_arr m ρ c 3
    _ = Cert.Spec.lin (V3 m ρ c main_v2) (V3 m ρ c main_v5) (V3 m ρ c main_arg9) := Cert.KernelIdeal.Lin2.final (V3 m ρ) c
    _ = _ := by
      rw [show V3 m ρ c main_v2 = _ from ((W3_of_ne m ρ c main_v2 (by decide)).trans (W2_of_ne m ρ c main_v2 (by decide))).trans (W1_v2 m ρ c),
        show V3 m ρ c main_v5 = _ from ((W3_of_ne m ρ c main_v5 (by decide)).trans (W2_of_ne m ρ c main_v5 (by decide))).trans (W1_v5 m ρ c),
        show V3 m ρ c main_arg9 = _ from ((W3_of_ne m ρ c main_arg9 (by decide)).trans (W2_of_ne m ρ c main_arg9 (by decide))).trans (W1_arg9 m ρ c)]

/-- The mask as region 3 finds it. -/
theorem V4_arg3 (c : Dev nD) : V4 m ρ c main_arg3 = (m ((c : Thread nD τ).loc main_arg3)) :=
  (((W4_of_ne m ρ c main_arg3 (by decide)).trans (W3_of_ne m ρ c main_arg3 (by decide))).trans (W2_of_ne m ρ c main_arg3 (by decide))).trans (W1_arg3 m ρ c)

/-! ## The attention output, the output projection, and the result -/

/-- The attention output as region 4 finds it. -/
theorem V5_v10 (c : Dev nD) : V5 m ρ c main_v10
    = Cert.Spec.attK (Cert.Spec.lin (Cert.Spec.flat (m ((c : Thread nD τ).loc main_arg0))) (m ((c : Thread nD τ).loc main_arg4)) (m ((c : Thread nD τ).loc main_arg5))) (Cert.Spec.lin (Cert.Spec.flat (m ((c : Thread nD τ).loc main_arg1))) (m ((c : Thread nD τ).loc main_arg6)) (m ((c : Thread nD τ).loc main_arg7)))
        (Cert.Spec.lin (Cert.Spec.flat (m ((c : Thread nD τ).loc main_arg2))) (m ((c : Thread nD τ).loc main_arg8)) (m ((c : Thread nD τ).loc main_arg9))) (m ((c : Thread nD τ).loc main_arg3)) :=
  calc V5 m ρ c main_v10
    _ = (dat3 (V4 m ρ) c).arrAt 4 cfg3.N := W5_arr m ρ c 4
    _ = Cert.Spec.attK (V4 m ρ c main_v7) (V4 m ρ c main_v8) (V4 m ρ c main_v9) (V4 m ρ c main_arg3) := Cert.KernelIdeal.Att3.final (V4 m ρ) c
    _ = _ := by rw [V4_v7, V4_v8, V4_v9, V4_arg3]

theorem V5_v6 (c : Dev nD) : V5 m ρ c main_v6 = (m ((c : Thread nD τ).loc main_arg10)) :=
  ((((W5_of_ne m ρ c main_v6 (by decide)).trans (W4_of_ne m ρ c main_v6 (by decide))).trans (W3_of_ne m ρ c main_v6 (by decide))).trans (W2_of_ne m ρ c main_v6 (by decide))).trans (W1_v6 m ρ c)

theorem V5_arg11 (c : Dev nD) : V5 m ρ c main_arg11 = (m ((c : Thread nD τ).loc main_arg11)) :=
  ((((W5_of_ne m ρ c main_arg11 (by decide)).trans (W4_of_ne m ρ c main_arg11 (by decide))).trans (W3_of_ne m ρ c main_arg11 (by decide))).trans (W2_of_ne m ρ c main_arg11 (by decide))).trans (W1_arg11 m ρ c)

/-- The result buffer at the last boundary: the closing reshape of region 4's output array, which is the output
    projection of the attention output of the three input projections. -/
theorem W7_v12 (c : Dev nD) : W7 m ρ c (Proc.devRef .tc main_v12)
    = Cert.Spec.layerK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  have h12 : W7 m ρ c (Proc.devRef .tc main_v12)
      = shapeCast S4x2048x1024 (W6 m ρ c (Proc.devRef .tc main_v11)) shapeCasts_S8192x1024_S4x2048x1024 := by
    show StableHlo.after hostOps5 (W6 m ρ c) (Proc.devRef .tc main_v12) = _
    after_results; rfl
  have h11 : W6 m ρ c (Proc.devRef .tc main_v11)
      = Cert.Spec.lin (V5 m ρ c main_v10) (V5 m ρ c main_v6) (V5 m ρ c main_arg11) :=
    (W6_arr m ρ c 3).trans (Cert.KernelIdeal.Lin4.final (V5 m ρ) c)
  rw [h12, h11, unflat_eq, V5_v10, V5_v6, V5_arg11]
  rfl

/-- The idealized kernel program runs, its result the layer of the launch arguments, the arguments unchanged. -/
theorem run : θ_run defs (onTc (τ := τ) (main (F := Ideal))) ⟨m, fun _ => 0, ρ⟩ (fun r => ∀ c : Dev nD,
      r.2.mem ((c.tc : Thread nD τ).loc main_v12)
        = Cert.Spec.layerK (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (W7_v12 m ρ c), (h c).2⟩) (Cert.KernelIdeal.KRun.run m ρ)

end Cert.KernelIdeal.KValue

end
-- ==== Proof.RefProj.lean ====
/-
  The reference's three input projections read at an index: the dot product with the weight rows plus the bias is the
  projection of the flat layout's row `b * 2048 + s`, and the reshape to heads followed by the transpose reads
  head `h`, feature `d` at column `h * 64 + d`.
-/
import proofs.«424697_j28982439313762_3_alg».proof.Proof.Gen.ReferenceIdeal.Read
import proofs.«424697_j28982439313762_3_alg».proof.Proof.AttnSpec

noncomputable section

namespace Cert.ReferenceIdeal.RefValue

open Cert.ReferenceIdeal Cert.ReferenceIdeal.Gen Cert.ReferenceIdeal.Read Idealize.ShloMosaic Idealize.ShloMosaic.ValueIdx
open Cert.Spec

/-- Column `h * 64 + d`: feature `d` of head `h` on the flat layout. -/
def hcol (h : Fin 16) (d : Fin 64) : Fin 1024 := ⟨h.val * 64 + d.val, by have := h.isLt; have := d.isLt; omega⟩

theorem flat_at (x : Cube) (b : Fin 4) (s : Fin 2048) (k : Fin 1024) : flat x (ix2 (flatRow b s) k) = x (ix3 b s k) := by
  unfold flat
  congr 1
  funext a
  match a with
  | ⟨0, _⟩ => exact Fin.ext (by show (b.val * 2048 + s.val) / 2048 = b.val; have := s.isLt; omega)
  | ⟨1, _⟩ => exact Fin.ext (by show (b.val * 2048 + s.val) % 2048 = s.val; have := s.isLt; omega)
  | ⟨2, _⟩ => rfl

theorem bias_idx_at (b : Fin 4) (s : Fin 2048) (e : Fin 1024) : idx_main_v1 (idx_main_v2 (ix3 b s e)) = ix1 e :=
  funext fun a => by match a with | ⟨0, _⟩ => rfl
theorem lidx_v0_at (b : Fin 4) (s : Fin 2048) (e : Fin 1024) (k : Fin 1024) : lidx_main_v0 (ix3 b s e) k = ix3 b s k :=
  funext fun a => by match a with | ⟨0, _⟩ => rfl | ⟨1, _⟩ => rfl | ⟨2, _⟩ => rfl
theorem ridx_v0_at (b : Fin 4) (s : Fin 2048) (e : Fin 1024) (k : Fin 1024) : ridx_main_v0 (ix3 b s e) k = ix2 e k :=
  funext fun a => by match a with | ⟨0, _⟩ => rfl | ⟨1, _⟩ => rfl

/-- The reshape to heads reads column `h * 64 + d` of the flat row. -/
theorem idx_v4_at (b : Fin 4) (s : Fin 2048) (h : Fin 16) (d : Fin 64) : idx_main_v4 (ix4 b s h d) = ix3 b s (hcol h d) :=
  funext fun a => by
    have hb := b.isLt; have hs := s.isLt; have hh := h.isLt; have hd := d.isLt
    match a with
    | ⟨0, _⟩ => exact Fin.ext (by show (((b.val * 2048 + s.val) * 16 + h.val) * 64 + d.val) / 2097152 = b.val; omega)
    | ⟨1, _⟩ => exact Fin.ext (by show (((b.val * 2048 + s.val) * 16 + h.val) * 64 + d.val) / 1024 % 2048 = s.val; omega)
    | ⟨2, _⟩ => exact Fin.ext (by show (((b.val * 2048 + s.val) * 16 + h.val) * 64 + d.val) % 1024 = h.val * 64 + d.val; omega)
theorem idx_v5_at (b : Fin 4) (h : Fin 16) (s : Fin 2048) (d : Fin 64) : idx_main_v5 (ix4 b h s d) = ix4 b s h d :=
  funext fun a => by match a with | ⟨0, _⟩ => rfl | ⟨1, _⟩ => rfl | ⟨2, _⟩ => rfl | ⟨3, _⟩ => rfl

section Proj
variable (x : (⟨S4x2048x1024, .f32⟩ : BufTy).Contents (Elt Ideal)) (W : (⟨S1024x1024, .f32⟩ : BufTy).Contents (Elt Ideal))
  (c : (⟨S1024, .f32⟩ : BufTy).Contents (Elt Ideal))

theorem v3_at (b : Fin 4) (s : Fin 2048) (e : Fin 1024) :
    val_main_v3 (F := Ideal) x W c (ix3 b s e) = lin (flat x) W c (ix2 (flatRow b s) e) := by
  rw [val_main_v3_apply, val_main_v0_apply, val_main_v2_apply, val_main_v1_apply, bias_idx_at]
  show _ = linAt (flat x) W c (flatRow b s) e
  unfold linAt
  simp only [flat_at, lidx_v0_at, ridx_v0_at, Ideal.addf_def]
theorem v5_at (b : Fin 4) (h : Fin 16) (s : Fin 2048) (d : Fin 64) :
    val_main_v5 (F := Ideal) x W c (ix4 b h s d) = lin (flat x) W c (ix2 (flatRow b s) (hcol h d)) := by
  rw [val_main_v5_apply, idx_v5_at, val_main_v4_apply, idx_v4_at, v3_at]
/-- The key and value projections are the same program text over other arguments. -/
theorem v11_at (b : Fin 4) (h : Fin 16) (s : Fin 2048) (d : Fin 64) :
    val_main_v11 (F := Ideal) x W c (ix4 b h s d) = lin (flat x) W c (ix2 (flatRow b s) (hcol h d)) :=
  v5_at x W c b h s d
theorem v17_at (b : Fin 4) (h : Fin 16) (s : Fin 2048) (d : Fin 64) :
    val_main_v17 (F := Ideal) x W c (ix4 b h s d) = lin (flat x) W c (ix2 (flatRow b s) (hcol h d)) :=
  v5_at x W c b h s d
end Proj

end Cert.ReferenceIdeal.RefValue

end
-- ==== Proof.RefScores.lean ====
/-
  The reference's scores read at an index: the batched dot product over the 64 features of a head, divided by the
  square root of 64, with the positions whose mask word is zero replaced by the large negative constant, is the
  masked scaled score of the specification in the quotient spelling.
-/
import proofs.«424697_j28982439313762_3_alg».proof.Proof.RefProj

noncomputable section

namespace Cert.ReferenceIdeal.RefValue

open Cert.ReferenceIdeal Cert.ReferenceIdeal.Gen Cert.ReferenceIdeal.Read Idealize.ShloMosaic Idealize.ShloMosaic.ValueIdx
open Cert.Spec

theorem rowIn_flatRow (b : Fin 4) (s j : Fin 2048) : rowIn (flatRow b s) j = flatRow b j :=
  Fin.ext (by show (b.val * 2048 + s.val) / 2048 * 2048 + j.val = b.val * 2048 + j.val; have := s.isLt; omega)
theorem batchOf_flatRow (b : Fin 4) (s : Fin 2048) : batchOf (flatRow b s) = b :=
  Fin.ext (by show (b.val * 2048 + s.val) / 2048 = b.val; have := s.isLt; omega)
theorem posOf_flatRow (b : Fin 4) (s : Fin 2048) : posOf (flatRow b s) = s :=
  Fin.ext (by show (b.val * 2048 + s.val) % 2048 = s.val; have := s.isLt; omega)
theorem colIn_of (c : Fin 1024) (h : Fin 16) (hc : c.val / 64 = h.val) (d : Fin 64) : colIn c d = hcol h d :=
  Fin.ext (by show c.val / 64 * 64 + d.val = h.val * 64 + d.val; rw [hc])

theorem lidx_v18_at (b : Fin 4) (h : Fin 16) (s j : Fin 2048) (k : Fin 64) : lidx_main_v18 (ix4 b h s j) k = ix4 b h s k :=
  funext fun a => by match a with | ⟨0, _⟩ => rfl | ⟨1, _⟩ => rfl | ⟨2, _⟩ => rfl | ⟨3, _⟩ => rfl
theorem ridx_v18_at (b : Fin 4) (h : Fin 16) (s j : Fin 2048) (k : Fin 64) : ridx_main_v18 (ix4 b h s j) k = ix4 b h j k :=
  funext fun a => by match a with | ⟨0, _⟩ => rfl | ⟨1, _⟩ => rfl | ⟨2, _⟩ => rfl | ⟨3, _⟩ => rfl
theorem idx_call0_at (b : Fin 4) (h : Fin 16) (s j : Fin 2048) : idx_main_call0_v0 (ix4 b h s j) = ix4 b (0 : Fin 1) s j :=
  funext fun a => by match a with | ⟨0, _⟩ => rfl | ⟨1, _⟩ => rfl | ⟨2, _⟩ => rfl | ⟨3, _⟩ => rfl

section Scores
variable (x0 x1 : (⟨S4x2048x1024, .f32⟩ : BufTy).Contents (Elt Ideal)) (x3 : (⟨S4x1x2048x2048, .i32⟩ : BufTy).Contents (Elt Ideal))
  (x4 : (⟨S1024x1024, .f32⟩ : BufTy).Contents (Elt Ideal)) (x5 : (⟨S1024, .f32⟩ : BufTy).Contents (Elt Ideal))
  (x6 : (⟨S1024x1024, .f32⟩ : BufTy).Contents (Elt Ideal)) (x7 : (⟨S1024, .f32⟩ : BufTy).Contents (Elt Ideal))

theorem v18_at (b : Fin 4) (h : Fin 16) (s j : Fin 2048) (c : Fin 1024) (hc : c.val / 64 = h.val) :
    val_main_v18 (F := Ideal) x0 x1 x4 x5 x6 x7 (ix4 b h s j)
      = rawScore (lin (flat x0) x4 x5) (lin (flat x1) x6 x7) (flatRow b s) c j := by
  rw [val_main_v18_apply]
  unfold rawScore
  simp only [lidx_v18_at, ridx_v18_at, v5_at, v11_at, rowIn_flatRow, colIn_of c h hc]

theorem v24_at (b : Fin 4) (h : Fin 16) (s j : Fin 2048) (c : Fin 1024) (hc : c.val / 64 = h.val) :
    val_main_v24 (F := Ideal) x0 x1 x3 x4 x5 x6 x7 (ix4 b h s j)
      = scoreR (lin (flat x0) x4 x5) (lin (flat x1) x6 x7) x3 (flatRow b s) c j := by
  rw [val_main_v24_apply, val_main_call0_v0_apply, val_main_v23_apply, val_main_v22_apply, val_main_c_apply,
    val_main_call0_v1_apply, val_main_cst_0_apply, val_main_v21_apply, val_main_v20_apply, val_main_v19_apply,
    val_main_cst_apply, v18_at x0 x1 x4 x5 x6 x7 b h s j c hc, idx_call0_at]
  unfold scoreR maskAt negBig sixtyFour
  simp only [Ideal.hostDivf_def, Ideal.hostUnary_sqrt_def, Ideal.ofBits_def, batchOf_flatRow, posOf_flatRow]
end Scores

end Cert.ReferenceIdeal.RefValue

end
-- ==== Proof.RefSoftmax.lean ====
import proofs.«424697_j28982439313762_3_alg».proof.Proof.Gen.ReferenceIdeal.Read
import proofs.«424697_j28982439313762_3_alg».proof.Proof.AttnSpec

noncomputable section

namespace Cert.ReferenceIdeal.RefSoftmax

open Cert.ReferenceIdeal Cert.ReferenceIdeal.Gen Cert.ReferenceIdeal.Read Idealize.ShloMosaic Idealize.ShloMosaic.ValueIdx

/-- The maximum over the last axis of a rank-4 array, folded from the initial word, read at a row: the fold over
    the row's entries. -/
theorem reduce_max_row (y : S4x16x2048x2048.Idx → EReal) (init : S_.Idx → EReal)
    (b : Fin 4) (h : Fin 16) (s : Fin 2048) :
    Host.reduce (FloatOps.maximumf (F := Ideal) (φ := .f32)) y init reducesTo_S4x16x2048x2048_S4x16x2048_d3 h_S_ (ix3 b h s)
      = (Finset.univ : Finset (Fin 2048)).fold max (init (Shape.Idx.first h_S_)) (fun j' => y (ix4 b h s j')) := by
  have hr : S4x16x2048x2048.Reduces [3] S4x16x2048 := by decide
  rw [Host.reduce_eq_fold_single _ y init reducesTo_S4x16x2048x2048_S4x16x2048_d3 hr h_S_ (ix3 b h s)]
  have hf : (y ∘ hr.lift (ix3 b h s)) = fun j' : Fin 2048 => y (ix4 b h s j') := by
    funext k
    refine congrArg y ?_
    funext c
    match c with
    | ⟨0, _⟩ => exact Fin.ext rfl
    | ⟨1, _⟩ => exact Fin.ext rfl
    | ⟨2, _⟩ => exact Fin.ext rfl
    | ⟨3, _⟩ => exact Fin.ext rfl
  rw [hf]
  rfl

/-- The guarded row maximum at a row: the maximum of the −∞ word and the fold over the row's scores. -/
theorem val_main_v27_row (x0 x1 : (⟨S4x2048x1024, .f32⟩ : BufTy).Contents (Elt Ideal)) (x3 : (⟨S4x1x2048x2048, .i32⟩ : BufTy).Contents (Elt Ideal))
    (x4 : (⟨S1024x1024, .f32⟩ : BufTy).Contents (Elt Ideal)) (x5 : (⟨S1024, .f32⟩ : BufTy).Contents (Elt Ideal)) (x6 : (⟨S1024x1024, .f32⟩ : BufTy).Contents (Elt Ideal)) (x7 : (⟨S1024, .f32⟩ : BufTy).Contents (Elt Ideal))
    (b : Fin 4) (h : Fin 16) (s : Fin 2048) :
    val_main_v27 (F := Ideal) x0 x1 x3 x4 x5 x6 x7 (ix3 b h s)
      = max Cert.Spec.negInf (Cert.Spec.rowMax (fun j' : Fin 2048 => val_main_v24 (F := Ideal) x0 x1 x3 x4 x5 x6 x7 (ix4 b h s j'))) := by
  rw [val_main_v27_apply, val_main_v26_apply, val_main_cst_2_apply]
  unfold val_main_v25
  generalize val_main_v24 (F := Ideal) x0 x1 x3 x4 x5 x6 x7 = y
  rw [reduce_max_row y _ b h s, val_main_cst_1_apply]
  rfl

/-- The exponential stage at an entry: the exponential of the score less the guarded row maximum. -/
theorem val_main_v31_row (x0 x1 : (⟨S4x2048x1024, .f32⟩ : BufTy).Contents (Elt Ideal)) (x3 : (⟨S4x1x2048x2048, .i32⟩ : BufTy).Contents (Elt Ideal))
    (x4 : (⟨S1024x1024, .f32⟩ : BufTy).Contents (Elt Ideal)) (x5 : (⟨S1024, .f32⟩ : BufTy).Contents (Elt Ideal)) (x6 : (⟨S1024x1024, .f32⟩ : BufTy).Contents (Elt Ideal)) (x7 : (⟨S1024, .f32⟩ : BufTy).Contents (Elt Ideal))
    (b : Fin 4) (h : Fin 16) (s k : Fin 2048) :
    val_main_v31 (F := Ideal) x0 x1 x3 x4 x5 x6 x7 (ix4 b h s k)
      = Ideal.exp (val_main_v24 (F := Ideal) x0 x1 x3 x4 x5 x6 x7 (ix4 b h s k)
          - max Cert.Spec.negInf (Cert.Spec.rowMax (fun j' : Fin 2048 => val_main_v24 (F := Ideal) x0 x1 x3 x4 x5 x6 x7 (ix4 b h s j')))) := by
  rw [val_main_v31_apply, val_main_v30_apply, val_main_v29_apply, val_main_v28_apply]
  have hi : idx_main_v28 (idx_main_v29 (ix4 b h s k)) = ix3 b h s := by
    funext a
    match a with
    | ⟨0, _⟩ => rfl
    | ⟨1, _⟩ => rfl
    | ⟨2, _⟩ => rfl
  rw [hi, val_main_v27_row]
  rfl

/-- The sum stage at a row: the zero word plus the sum of the row's exponentials. -/
theorem val_main_v32_row (x0 x1 : (⟨S4x2048x1024, .f32⟩ : BufTy).Contents (Elt Ideal)) (x3 : (⟨S4x1x2048x2048, .i32⟩ : BufTy).Contents (Elt Ideal))
    (x4 : (⟨S1024x1024, .f32⟩ : BufTy).Contents (Elt Ideal)) (x5 : (⟨S1024, .f32⟩ : BufTy).Contents (Elt Ideal)) (x6 : (⟨S1024x1024, .f32⟩ : BufTy).Contents (Elt Ideal)) (x7 : (⟨S1024, .f32⟩ : BufTy).Contents (Elt Ideal))
    (b : Fin 4) (h : Fin 16) (s : Fin 2048) :
    val_main_v32 (F := Ideal) x0 x1 x3 x4 x5 x6 x7 (ix3 b h s)
      = Cert.Spec.zeroF + ∑ k : Fin 2048, Ideal.exp (val_main_v24 (F := Ideal) x0 x1 x3 x4 x5 x6 x7 (ix4 b h s k)
          - max Cert.Spec.negInf (Cert.Spec.rowMax (fun j' : Fin 2048 => val_main_v24 (F := Ideal) x0 x1 x3 x4 x5 x6 x7 (ix4 b h s j')))) := by
  rw [val_main_v32_apply, val_main_cst_3_apply]
  refine congrArg₂ (· + ·) rfl (Finset.sum_congr rfl fun k _ => ?_)
  have hi : idx_main_v32 (ix3 b h s) k = ix4 b h s k := by
    funext a
    match a with
    | ⟨0, _⟩ => rfl
    | ⟨1, _⟩ => rfl
    | ⟨2, _⟩ => rfl
    | ⟨3, _⟩ => rfl
  rw [hi, val_main_v31_row]

/-- The reference's softmax stages read at an index: the weight of key `j` for batch `b`, head `h`, query `s` is
    the softmax, in the reference's spelling, of that query's row of masked scores. -/
theorem val_main_v35_soft (x0 x1 : (⟨S4x2048x1024, .f32⟩ : BufTy).Contents (Elt Ideal)) (x3 : (⟨S4x1x2048x2048, .i32⟩ : BufTy).Contents (Elt Ideal))
    (x4 : (⟨S1024x1024, .f32⟩ : BufTy).Contents (Elt Ideal)) (x5 : (⟨S1024, .f32⟩ : BufTy).Contents (Elt Ideal)) (x6 : (⟨S1024x1024, .f32⟩ : BufTy).Contents (Elt Ideal)) (x7 : (⟨S1024, .f32⟩ : BufTy).Contents (Elt Ideal))
    (b : Fin 4) (h : Fin 16) (s j : Fin 2048) :
    val_main_v35 (F := Ideal) x0 x1 x3 x4 x5 x6 x7 (ix4 b h s j)
      = Cert.Spec.softR (fun j' : Fin 2048 => val_main_v24 (F := Ideal) x0 x1 x3 x4 x5 x6 x7 (ix4 b h s j')) j := by
  rw [val_main_v35_apply, val_main_v34_apply, val_main_v33_apply]
  have hi : idx_main_v33 (idx_main_v34 (ix4 b h s j)) = ix3 b h s := by
    funext a
    match a with
    | ⟨0, _⟩ => rfl
    | ⟨1, _⟩ => rfl
    | ⟨2, _⟩ => rfl
  rw [hi, val_main_v32_row, val_main_v31_row]
  rfl

end Cert.ReferenceIdeal.RefSoftmax

end
-- ==== Proof.RefValue.lean ====
/-
  The reference program read at an index. The attention weights times the value rows, transposed and reshaped back
  to the flat layout, give the attention output of the specification at row `b * 2048 + s`, column `c` (head
  `c / 64`, feature `c % 64`); the output projection then gives the whole layer in the reference's spelling.
-/
import proofs.«424697_j28982439313762_3_alg».proof.Proof.RefScores
import proofs.«424697_j28982439313762_3_alg».proof.Proof.RefSoftmax

noncomputable section

namespace Cert.ReferenceIdeal.RefValue

open Cert.ReferenceIdeal Cert.ReferenceIdeal.Gen Cert.ReferenceIdeal.Read Idealize.ShloMosaic Idealize.ShloMosaic.ValueIdx
open Cert.Spec

/-- The head of a column. -/
def headOf (c : Fin 1024) : Fin 16 := ⟨c.val / 64, by have := c.isLt; omega⟩
/-- The feature of a column within its head. -/
def featOf (c : Fin 1024) : Fin 64 := ⟨c.val % 64, Nat.mod_lt _ (by norm_num)⟩
theorem hcol_headOf_featOf (c : Fin 1024) : hcol (headOf c) (featOf c) = c :=
  Fin.ext (by show c.val / 64 * 64 + c.val % 64 = c.val; omega)

/-- The reshape back to the flat layout reads column `c` at head `c / 64`, feature `c % 64`. -/
theorem idx_v38_at (b : Fin 4) (s : Fin 2048) (c : Fin 1024) : idx_main_v38 (ix3 b s c) = ix4 b s (headOf c) (featOf c) :=
  funext fun a => by
    have hb := b.isLt; have hs := s.isLt; have hc := c.isLt
    match a with
    | ⟨0, _⟩ => exact Fin.ext (by show ((b.val * 2048 + s.val) * 1024 + c.val) / 2097152 = b.val; omega)
    | ⟨1, _⟩ => exact Fin.ext (by show ((b.val * 2048 + s.val) * 1024 + c.val) / 1024 % 2048 = s.val; omega)
    | ⟨2, _⟩ => exact Fin.ext (by show ((b.val * 2048 + s.val) * 1024 + c.val) / 64 % 16 = c.val / 64; omega)
    | ⟨3, _⟩ => exact Fin.ext (by show ((b.val * 2048 + s.val) * 1024 + c.val) % 64 = c.val % 64; omega)
theorem idx_v37_at (b : Fin 4) (s : Fin 2048) (h : Fin 16) (d : Fin 64) : idx_main_v37 (ix4 b s h d) = ix4 b h s d :=
  funext fun a => by match a with | ⟨0, _⟩ => rfl | ⟨1, _⟩ => rfl | ⟨2, _⟩ => rfl | ⟨3, _⟩ => rfl
theorem lidx_v36_at (b : Fin 4) (h : Fin 16) (s : Fin 2048) (d : Fin 64) (k : Fin 2048) : lidx_main_v36 (ix4 b h s d) k = ix4 b h s k :=
  funext fun a => by match a with | ⟨0, _⟩ => rfl | ⟨1, _⟩ => rfl | ⟨2, _⟩ => rfl | ⟨3, _⟩ => rfl
theorem ridx_v36_at (b : Fin 4) (h : Fin 16) (s : Fin 2048) (d : Fin 64) (k : Fin 2048) : ridx_main_v36 (ix4 b h s d) k = ix4 b h k d :=
  funext fun a => by match a with | ⟨0, _⟩ => rfl | ⟨1, _⟩ => rfl | ⟨2, _⟩ => rfl | ⟨3, _⟩ => rfl
theorem lidx_v39_at (b : Fin 4) (s : Fin 2048) (e : Fin 1024) (k : Fin 1024) : lidx_main_v39 (ix3 b s e) k = ix3 b s k :=
  funext fun a => by match a with | ⟨0, _⟩ => rfl | ⟨1, _⟩ => rfl | ⟨2, _⟩ => rfl
theorem ridx_v39_at (b : Fin 4) (s : Fin 2048) (e : Fin 1024) (k : Fin 1024) : ridx_main_v39 (ix3 b s e) k = ix2 e k :=
  funext fun a => by match a with | ⟨0, _⟩ => rfl | ⟨1, _⟩ => rfl
theorem bias_idx41_at (b : Fin 4) (s : Fin 2048) (e : Fin 1024) : idx_main_v40 (idx_main_v41 (ix3 b s e)) = ix1 e :=
  funext fun a => by match a with | ⟨0, _⟩ => rfl

section Att
variable (x0 x1 x2 : (⟨S4x2048x1024, .f32⟩ : BufTy).Contents (Elt Ideal)) (x3 : (⟨S4x1x2048x2048, .i32⟩ : BufTy).Contents (Elt Ideal))
  (x4 : (⟨S1024x1024, .f32⟩ : BufTy).Contents (Elt Ideal)) (x5 : (⟨S1024, .f32⟩ : BufTy).Contents (Elt Ideal))
  (x6 : (⟨S1024x1024, .f32⟩ : BufTy).Contents (Elt Ideal)) (x7 : (⟨S1024, .f32⟩ : BufTy).Contents (Elt Ideal))
  (x8 : (⟨S1024x1024, .f32⟩ : BufTy).Contents (Elt Ideal)) (x9 : (⟨S1024, .f32⟩ : BufTy).Contents (Elt Ideal))
  (x10 : (⟨S1024x1024, .f32⟩ : BufTy).Contents (Elt Ideal)) (x11 : (⟨S1024, .f32⟩ : BufTy).Contents (Elt Ideal))

/-- The softmax weights of a row are the specification's, over the masked scaled scores of that row. -/
theorem v35_at (b : Fin 4) (s k : Fin 2048) (c : Fin 1024) :
    val_main_v35 (F := Ideal) x0 x1 x3 x4 x5 x6 x7 (ix4 b (headOf c) s k)
      = softR (scoreR (lin (flat x0) x4 x5) (lin (flat x1) x6 x7) x3 (flatRow b s) c) k := by
  rw [Cert.ReferenceIdeal.RefSoftmax.val_main_v35_soft]
  have e : (fun j' : Fin 2048 => val_main_v24 (F := Ideal) x0 x1 x3 x4 x5 x6 x7 (ix4 b (headOf c) s j'))
      = scoreR (lin (flat x0) x4 x5) (lin (flat x1) x6 x7) x3 (flatRow b s) c :=
    funext fun j' => v24_at x0 x1 x3 x4 x5 x6 x7 b (headOf c) s j' c rfl
  rw [e]

/-- The weighted combination of the value rows, moved back to the flat layout, is the attention output. -/
theorem v38_at (b : Fin 4) (s : Fin 2048) (c : Fin 1024) :
    val_main_v38 (F := Ideal) x0 x1 x2 x3 x4 x5 x6 x7 x8 x9 (ix3 b s c)
      = attR (lin (flat x0) x4 x5) (lin (flat x1) x6 x7) (lin (flat x2) x8 x9) x3 (ix2 (flatRow b s) c) := by
  rw [val_main_v38_apply, idx_v38_at, val_main_v37_apply, idx_v37_at, val_main_v36_apply]
  show _ = ∑ j : Fin 2048, softR (scoreR (lin (flat x0) x4 x5) (lin (flat x1) x6 x7) x3 (flatRow b s) c) j
      * lin (flat x2) x8 x9 (ix2 (rowIn (flatRow b s) j) c)
  simp only [lidx_v36_at, ridx_v36_at, v35_at, v17_at, rowIn_flatRow, hcol_headOf_featOf]
end Att

/-- The reference's result, stage by stage at an index, is the layer in the reference's spelling. -/
theorem val_eq (x0 x1 x2 : (⟨S4x2048x1024, .f32⟩ : BufTy).Contents (Elt Ideal)) (x3 : (⟨S4x1x2048x2048, .i32⟩ : BufTy).Contents (Elt Ideal))
    (x4 : (⟨S1024x1024, .f32⟩ : BufTy).Contents (Elt Ideal)) (x5 : (⟨S1024, .f32⟩ : BufTy).Contents (Elt Ideal))
    (x6 : (⟨S1024x1024, .f32⟩ : BufTy).Contents (Elt Ideal)) (x7 : (⟨S1024, .f32⟩ : BufTy).Contents (Elt Ideal))
    (x8 : (⟨S1024x1024, .f32⟩ : BufTy).Contents (Elt Ideal)) (x9 : (⟨S1024, .f32⟩ : BufTy).Contents (Elt Ideal))
    (x10 : (⟨S1024x1024, .f32⟩ : BufTy).Contents (Elt Ideal)) (x11 : (⟨S1024, .f32⟩ : BufTy).Contents (Elt Ideal)) :
    val_main_v42 (F := Ideal) x0 x1 x2 x3 x4 x5 x6 x7 x8 x9 x10 x11
      = Cert.Spec.layerR x0 x1 x2 x3 x4 x5 x6 x7 x8 x9 x10 x11 := by
  funext i
  obtain ⟨b, s, e, rfl⟩ : ∃ (b : Fin 4) (s : Fin 2048) (e : Fin 1024), i = ix3 b s e := ⟨i 0, i 1, i 2, eq_ix3 i⟩
  rw [val_main_v42_apply, val_main_v39_apply, val_main_v41_apply, val_main_v40_apply, bias_idx41_at]
  show _ = linAt (attR (lin (flat x0) x4 x5) (lin (flat x1) x6 x7) (lin (flat x2) x8 x9) x3) x10 x11 (flatRow b s) e
  unfold linAt
  simp only [lidx_v39_at, ridx_v39_at, v38_at, Ideal.addf_def]

end Cert.ReferenceIdeal.RefValue

end
-- ==== Proof.AttnMath.lean ====
import proofs.«424697_j28982439313762_3_alg».proof.Proof.AttnSpec
import Mathlib.Data.Finset.Fold
import Mathlib.Data.Finset.Max
import Mathlib.Algebra.Order.BigOperators.Group.Finset
import Mathlib.Analysis.SpecialFunctions.Exp
import Mathlib.Analysis.SpecialFunctions.Sqrt

noncomputable section

namespace Cert.Spec

open Idealize.ShloMosaic Idealize.ShloMosaic.ValueIdx

/-! ### The literal words, as the extended reals their patterns denote -/

theorem negBig_eq : negBig = ((-1000000000 : ℝ) : EReal) := by
  unfold negBig
  simp [Ideal.ofBits, Ideal.ieee, -EReal.coe_mul]; norm_num

theorem eighth_eq : eighth = ((1 / 8 : ℝ) : EReal) := by
  unfold eighth
  simp [Ideal.ofBits, Ideal.ieee, -EReal.coe_mul]; norm_num

theorem sixtyFour_eq : sixtyFour = ((64 : ℝ) : EReal) := by
  unfold sixtyFour
  simp [Ideal.ofBits, Ideal.ieee, -EReal.coe_mul]; norm_num

theorem oneF_eq : oneF = 1 := by
  unfold oneF
  simp [Ideal.ofBits, Ideal.ieee, -EReal.coe_mul]; norm_num

theorem zeroF_eq : zeroF = 0 := by
  unfold zeroF
  simp [Ideal.ofBits, Ideal.ieee]

theorem negInf_eq : negInf = ⊥ := by
  unfold negInf
  simp [Ideal.ofBits, Ideal.ieee]

/-! ### Real numbers among the extended reals -/

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

/-- A finite sum of real numbers, computed among the extended reals, is the real sum. -/
theorem coe_sum {ι : Type} (t : Finset ι) (f : ι → ℝ) :
    ∑ i ∈ t, ((f i : ℝ) : EReal) = ((∑ i ∈ t, f i : ℝ) : EReal) := by
  classical
  induction t using Finset.induction_on with
  | empty => simp
  | insert a t ha ih => rw [Finset.sum_insert ha, Finset.sum_insert ha, ih, EReal.coe_add]

theorem IsReal.sum {ι : Type} (t : Finset ι) (f : ι → EReal) (h : ∀ i ∈ t, IsReal (f i)) :
    IsReal (∑ i ∈ t, f i) := by
  classical
  induction t using Finset.induction_on with
  | empty => exact ⟨0, by simp⟩
  | insert a t ha ih =>
    rw [Finset.sum_insert ha]
    exact (h a (Finset.mem_insert_self a t)).add (ih fun i hi => h i (Finset.mem_insert_of_mem hi))

/-! ### The two spellings of the scale -/

theorem sqrt_sixtyFour : Ideal.sqrt sixtyFour = ((8 : ℝ) : EReal) := by
  have h8 : Real.sqrt 64 = 8 := by
    rw [show (64 : ℝ) = 8 * 8 by norm_num, Real.sqrt_mul_self (by norm_num)]
  rw [sixtyFour_eq, Ideal.sqrt_coe, if_neg (by norm_num), h8]

/-- The product with 1/8 is the quotient by √64, at every extended real. -/
theorem mul_eighth (x : EReal) : x * eighth = Ideal.div x (Ideal.sqrt sixtyFour) := by
  rw [sqrt_sixtyFour, Ideal.div_coe (by norm_num : (8 : ℝ) ≠ 0), eighth_eq]

theorem scoreK_eq_scoreR (qp kp : Mat 8192 1024) (mask : MaskT) (r : Fin 8192) (c : Fin 1024) :
    scoreK qp kp mask r c = scoreR qp kp mask r c := by
  funext j
  unfold scoreK scoreR
  rw [mul_eighth]

/-! ### Every projected entry and every score is a real number -/

theorem linAt_real (x : Mat 8192 1024) (W : Mat 1024 1024) (b : Row 1024)
    (hx : ∀ i, IsReal (x i)) (hW : ∀ i, IsReal (W i)) (hb : ∀ i, IsReal (b i)) (r : Fin 8192) (e : Fin 1024) :
    IsReal (linAt x W b r e) := by
  unfold linAt
  exact (IsReal.sum _ _ fun k _ => (hx _).mul (hW _)).add (hb _)

theorem lin_real (x : Mat 8192 1024) (W : Mat 1024 1024) (b : Row 1024)
    (hx : ∀ i, IsReal (x i)) (hW : ∀ i, IsReal (W i)) (hb : ∀ i, IsReal (b i)) (i) :
    IsReal (lin x W b i) := linAt_real x W b hx hW hb (i 0) (i 1)

theorem flat_real (x : Cube) (hx : ∀ i, IsReal (x i)) (i) : IsReal (flat x i) := hx _

theorem rawScore_real (qp kp : Mat 8192 1024) (hqp : ∀ i, IsReal (qp i)) (hkp : ∀ i, IsReal (kp i))
    (r : Fin 8192) (c : Fin 1024) (j : Fin 2048) : IsReal (rawScore qp kp r c j) := by
  unfold rawScore
  exact IsReal.sum _ _ fun d _ => (hqp _).mul (hkp _)

theorem scoreK_real (qp kp : Mat 8192 1024) (mask : MaskT) (hqp : ∀ i, IsReal (qp i)) (hkp : ∀ i, IsReal (kp i))
    (r : Fin 8192) (c : Fin 1024) (j : Fin 2048) : IsReal (scoreK qp kp mask r c j) := by
  unfold scoreK Scalar.select
  split
  · exact ⟨_, negBig_eq⟩
  · exact (rawScore_real qp kp hqp hkp r c j).mul ⟨_, eighth_eq⟩

/-! ### One row of the softmax -/

/-- The folded maximum of a row is one of the row's entries. -/
theorem rowMax_attained (s : Fin 2048 → EReal) : ∃ j, s j = rowMax s := by
  obtain ⟨j0, _, hmax⟩ := Finset.exists_max_image Finset.univ s ⟨0, Finset.mem_univ _⟩
  refine ⟨j0, le_antisymm ?_ ?_⟩
  · exact (Finset.le_fold_max _).2 (Or.inr ⟨j0, Finset.mem_univ _, le_rfl⟩)
  · rw [rowMax, negInf_eq]
    exact (Finset.fold_max_le _).2 ⟨bot_le, fun x hx => hmax x hx⟩

/-- On a row of real numbers the two spellings of the softmax weight agree: the maximum is a real number, so every
    exponential is a positive real, their sum is a positive real, and the product with the reciprocal of a nonzero
    real is the quotient by it. -/
theorem softK_eq_softR (s : Fin 2048 → EReal) (hs : ∀ j, IsReal (s j)) (j : Fin 2048) : softK s j = softR s j := by
  choose a ha using hs
  obtain ⟨j0, hj0⟩ := rowMax_attained s
  have hM : rowMax s = ((a j0 : ℝ) : EReal) := by rw [← hj0, ha j0]
  have hD : (∑ j' : Fin 2048, Ideal.exp (s j' - rowMax s))
      = ((∑ j' : Fin 2048, Real.exp (a j' - a j0) : ℝ) : EReal) := by
    rw [← coe_sum]
    refine Finset.sum_congr rfl fun j' _ => ?_
    rw [hM, ha j', ← EReal.coe_sub, Ideal.exp_coe]
  have hd : (∑ j' : Fin 2048, Real.exp (a j' - a j0) : ℝ) ≠ 0 :=
    ne_of_gt (Finset.sum_pos (fun i _ => Real.exp_pos _) ⟨j0, Finset.mem_univ _⟩)
  unfold softK softR
  rw [negInf_eq, max_eq_right bot_le, zeroF_eq, zero_add, oneF_eq, hD, Ideal.div_coe hd, Ideal.div_coe hd, one_mul]

/-! ### The attention output and the layer -/

/-- One entry of the attention output, at a row and a column given as plain indices. -/
theorem attAt_eq (qp kp vp : Mat 8192 1024) (mask : MaskT)
    (hqp : ∀ i, IsReal (qp i)) (hkp : ∀ i, IsReal (kp i)) (r : Fin 8192) (c : Fin 1024) :
    (∑ j : Fin 2048, softK (scoreK qp kp mask r c) j * vp (ix2 (rowIn r j) c))
      = ∑ j : Fin 2048, softR (scoreR qp kp mask r c) j * vp (ix2 (rowIn r j) c) := by
  refine Finset.sum_congr rfl fun j _ => ?_
  rw [← scoreK_eq_scoreR, softK_eq_softR _ (fun j' => scoreK_real qp kp mask hqp hkp r c j')]

theorem attK_eq_attR (qp kp vp : Mat 8192 1024) (mask : MaskT)
    (hqp : ∀ i, IsReal (qp i)) (hkp : ∀ i, IsReal (kp i)) : attK qp kp vp mask = attR qp kp vp mask := by
  funext i
  exact attAt_eq qp kp vp mask hqp hkp (i 0) (i 1)

/-- The two spellings of the layer agree when the queries, the keys and their projection weights and biases are
    real numbers: then every score is a real number, the row maximum is a real number attained by some position, the
    sum of exponentials is a positive real, and product with a reciprocal is the quotient. -/
theorem layerK_eq_layerR (q k v : Cube) (mask : MaskT) (Wq : Mat 1024 1024) (bq : Row 1024) (Wk : Mat 1024 1024) (bk : Row 1024)
    (Wv : Mat 1024 1024) (bv : Row 1024) (Wo : Mat 1024 1024) (bo : Row 1024)
    (hq : ∀ i, IsReal (q i)) (hk : ∀ i, IsReal (k i)) (hWq : ∀ i, IsReal (Wq i)) (hbq : ∀ i, IsReal (bq i))
    (hWk : ∀ i, IsReal (Wk i)) (hbk : ∀ i, IsReal (bk i)) :
    layerK q k v mask Wq bq Wk bk Wv bv Wo bo = layerR q k v mask Wq bq Wk bk Wv bv Wo bo := by
  unfold layerK layerR
  rw [attK_eq_attR _ _ _ mask (lin_real _ Wq bq (flat_real q hq) hWq hbq) (lin_real _ Wk bk (flat_real k hk) hWk hbk)]

end Cert.Spec

end
-- ==== Proof.Finite.lean ====
import proofs.«424697_j28982439313762_3_alg».proof.Pre_finite_inputs
import proofs.«424697_j28982439313762_3_alg».proof.Proof.AttnSpec
import Idealize.ShloMosaic.Lib.ReduceAll

noncomputable section

namespace Cert.Finite

open Idealize.ShloMosaic Idealize.ShloMosaic.ValueIdx Cert.Pre_finite_inputs

/-- The binary32 word `0x7F800000` denotes `+∞`. -/
theorem inf_word : Ideal.ofBits .f32 0x7F800000#32 = (⊤ : EReal) := by
  simp [Ideal.ofBits, Ideal.ieee]

/-- An extended real whose absolute value `max a (-a)` compares strictly below `+∞` is a real number:
    at `⊥` and at `⊤` the absolute value is `⊤` itself. -/
theorem isReal_of_abs_lt (a : EReal)
    (h : FloatOps.cmpf (F := Ideal) (φ := .f32) .olt (FloatOps.hostAbsf (F := Ideal) (φ := .f32) a)
      (Ideal.ofBits .f32 0x7F800000#32) = 1#1) :
    Cert.Spec.IsReal a := by
  rw [inf_word] at h
  change BitVec.ofBool (decide (max a (-a) < (⊤ : EReal))) = 1#1 at h
  induction a using EReal.rec with
  | bot => simp at h
  | top => simp at h
  | coe r => exact ⟨r, rfl⟩

/-- The rank-0 shape has one index. -/
instance : Subsingleton S_.Idx := ⟨fun a b => funext fun d => d.elim0⟩

/-- One conjunct of the precondition, over any shape: if the conjunction over all entries of `|x| < +∞` is true,
    every entry of `x` is a real number. -/
theorem isReal_of_all {s : Shape} {axes : List (Fin s.rank)}
    (hb : S_.BroadcastsInDim s (![] : Fin 0 → Fin s.rank)) (hr : s.ReducesTo axes S_) (hu : 0 < S_.numel)
    (x : FVec Ideal s .f32)
    (e : Host.reduce IntOp.andi (cmpf .olt (Host.absf x) (broadcastInDim s ![] hb (constant S_ .f32 0x7F800000#32)))
          (constantI S_ 1 1#1) hr hu ix0 = 1#1) (i : s.Idx) : Cert.Spec.IsReal (x i) :=
  isReal_of_abs_lt (x i) (Host.reduce_andi_all _ _ hr hu ix0 e i)

/-- A conjunction of two rank-0 truth values that is true has both true. -/
theorem andi_split (a b : IVec S_ 1) (h : andi a b ix0 = 1#1) : a ix0 = 1#1 ∧ b ix0 = 1#1 :=
  IntOp.andi_eq_one.1 h

/-- Where the precondition holds, the queries, the keys and their projection weights and biases are real numbers. -/
theorem isReal_of_pre [Cert.Pre_finite_inputs.Facts]
    (x0 x1 x2 : FVec Ideal S4x2048x1024 .f32) (x3 : IVec S4x1x2048x2048 32) (x4 : FVec Ideal S1024x1024 .f32)
    (x5 : FVec Ideal S1024 .f32) (x6 : FVec Ideal S1024x1024 .f32) (x7 : FVec Ideal S1024 .f32)
    (x8 : FVec Ideal S1024x1024 .f32) (x9 : FVec Ideal S1024 .f32) (x10 : FVec Ideal S1024x1024 .f32)
    (x11 : FVec Ideal S1024 .f32)
    (h : Cert.Pre_finite_inputs.fn (F := Ideal) x0 x1 x2 x3 x4 x5 x6 x7 x8 x9 x10 x11 = fun _ => 1#1) :
    (∀ i, Cert.Spec.IsReal (x0 i)) ∧ (∀ i, Cert.Spec.IsReal (x1 i)) ∧ (∀ i, Cert.Spec.IsReal (x4 i))
      ∧ (∀ i, Cert.Spec.IsReal (x5 i)) ∧ (∀ i, Cert.Spec.IsReal (x6 i)) ∧ (∀ i, Cert.Spec.IsReal (x7 i)) := by
  have h0 := congrFun h ix0
  dsimp only [fn, fn_part1, fn_part2, fn_part3] at h0
  -- the eleven conjuncts are nested to the left: peel them from the last input to the first
  obtain ⟨h0, -⟩ := andi_split _ _ h0
  obtain ⟨h0, -⟩ := andi_split _ _ h0
  obtain ⟨h0, -⟩ := andi_split _ _ h0
  obtain ⟨h0, -⟩ := andi_split _ _ h0
  obtain ⟨h0, h7⟩ := andi_split _ _ h0
  obtain ⟨h0, h6⟩ := andi_split _ _ h0
  obtain ⟨h0, h5⟩ := andi_split _ _ h0
  obtain ⟨h0, h4⟩ := andi_split _ _ h0
  obtain ⟨h0, -⟩ := andi_split _ _ h0
  obtain ⟨h0, h1⟩ := andi_split _ _ h0
  exact ⟨isReal_of_all _ _ _ x0 h0, isReal_of_all _ _ _ x1 h1, isReal_of_all _ _ _ x4 h4,
    isReal_of_all _ _ _ x5 h5, isReal_of_all _ _ _ x6 h6, isReal_of_all _ _ _ x7 h7⟩

end Cert.Finite

end
-- ==== Proof.lean ====
/-
  The kernel computes multi-head attention in five pipelined regions on a flat 8192 × 1024 layout: three input
  projections `x Wᵀ + b`, then, per batch, query tile and pair of heads, masked scaled scores, their softmax
  and the weighted values, then the output projection; the reference computes the same layer with batched products
  on a batch × head × position × feature layout.  On the extended reals both programs end at one function of the
  arguments: a change of float format is the identity, a matrix product is the same finite sum however it is tiled,
  the kernel's scale `· 1/8` is the reference's `/ √64`, the reference's extra maximum with −∞ changes nothing, and
  the kernel's `p · (1 / ∑ p)` is the reference's `p / ∑ p` because, the inputs being finite, every score is a real
  number, so the row maximum is attained and the sum of exponentials is at least one.  The masked positions take the
  same finite constant in both programs.

  `Cert.Spec` states the layer as functions of coordinates in both spellings; the kernel's run ends at the first
  (region by region, from each region's blocks to its whole output array), the reference's run at the second (stage
  by stage at an index), and the two spellings agree on finite inputs.
-/
import proofs.«424697_j28982439313762_3_alg».proof.Defs
import proofs.«424697_j28982439313762_3_alg».proof.Proof.Gen.Kernel
import proofs.«424697_j28982439313762_3_alg».proof.Proof.Gen.Kernel.Skeleton
import proofs.«424697_j28982439313762_3_alg».proof.Proof.Gen.Kernel.Launch
import proofs.«424697_j28982439313762_3_alg».proof.Proof.Gen.Kernel.Points
import proofs.«424697_j28982439313762_3_alg».proof.Proof.Gen.Kernel.Frame
import proofs.«424697_j28982439313762_3_alg».proof.Proof.Gen.KernelIdeal
import proofs.«424697_j28982439313762_3_alg».proof.Proof.Gen.KernelIdeal.Skeleton
import proofs.«424697_j28982439313762_3_alg».proof.Proof.Gen.KernelIdeal.Launch
import proofs.«424697_j28982439313762_3_alg».proof.Proof.Gen.KernelIdeal.Points
import proofs.«424697_j28982439313762_3_alg».proof.Proof.Gen.KernelIdeal.Frame
import proofs.«424697_j28982439313762_3_alg».proof.Proof.Gen.ReferenceIdeal
import proofs.«424697_j28982439313762_3_alg».proof.Proof.Gen.ReferenceIdeal.Run
import proofs.«424697_j28982439313762_3_alg».proof.Proof.Gen.ReferenceIdeal.Read
import proofs.«424697_j28982439313762_3_alg».proof.Proof.Gen.Pre_finite_inputs
import proofs.«424697_j28982439313762_3_alg».proof.Proof.KernelValue
import proofs.«424697_j28982439313762_3_alg».proof.Proof.RefValue
import proofs.«424697_j28982439313762_3_alg».proof.Proof.AttnMath
import proofs.«424697_j28982439313762_3_alg».proof.Proof.Finite
import Idealize.ShloMosaic.Adequacy
import Idealize.ShloMosaic.Init

noncomputable section

namespace Cert.Proof

open Idealize.ShloMosaic Idealize.SL.Sem

/-- Both idealized programs, run from memories that agree on the arguments, end with the layer of those arguments:
    the kernel in its own spelling, the reference in its own, and the two spellings agree because the precondition
    makes the queries, the keys and their projection weights and biases real numbers. -/
theorem algebraic : Cert.algebraic_KernelIdeal_ReferenceIdeal := by
  intro m ρ m' ρ' hpre hagree
  refine ⟨fun c => Cert.Spec.layerK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v42_eq, Cert.ReferenceIdeal.RefValue.val_eq]
  obtain ⟨e0, e1, e2, e3, e4, e5, e6, e7, e8, e9, e10, e11⟩ := hagree c
  rw [e0, e1, e2, e3, e4, e5, e6, e7, e8, e9, e10, e11]
  obtain ⟨h0, h1, h4, h5, h6, h7⟩ := Cert.Finite.isReal_of_pre _ _ _ _ _ _ _ _ _ _ _ _ (hpre c)
  exact (Cert.Spec.layerK_eq_layerR _ _ _ _ _ _ _ _ _ _ _ _ h0 h1 h4 h5 h6 h7).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
